-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S1x1x2048x2048 : Shape := ⟨4, ![1, 1, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel
  bcast_S_S1x1x2048x2048 : S_.BroadcastsInDim S1x1x2048x2048 (![] : Fin 0 → Fin S1x1x2048x2048.rank)
  reducesTo_S1x1x2048x2048_S_d0_1_2_3 : S1x1x2048x2048.ReducesTo [0, 1, 2, 3] S_

variable [Facts]

def fn_part1 {F : FTy → Type} [FloatOps F] (main_v13 : IVec S_ 1) (main_v16 : IVec S1x1x2048x2048 1) : IVec S_ 1 :=
  let main_c_5 : IVec S_ 1 := constantI S_ 1 1#1
  let main_v17 : IVec S_ 1 := (fun x v => Host.reduce IntOp.andi x v reducesTo_S1x1x2048x2048_S_d0_1_2_3 h_S_) main_v16 main_c_5
  let main_v18 : IVec S_ 1 := andi main_v13 main_v17
  main_v18

def fn {F : FTy → Type} [FloatOps F] (main_arg0 : FVec F S4x16x2048x64 .f32) (main_arg1 : FVec F S4x16x2048x64 .f32) (main_arg2 : FVec F S4x16x2048x64 .f32) (main_arg3 : FVec F S1x1x2048x2048 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  let main_v14 : FVec F S1x1x2048x2048 .f32 := Host.absf main_arg3
  let main_cst_4 : FVec F S_ .f32 := constant S_ .f32 0x7F800000#32
  let main_v15 : FVec F S1x1x2048x2048 .f32 := broadcastInDim S1x1x2048x2048 ![] bcast_S_S1x1x2048x2048 main_cst_4
  let main_v16 : IVec S1x1x2048x2048 1 := cmpf .olt main_v14 main_v15
  fn_part1 (F := F) main_v13 main_v16
-- ==== Kernel.lean ====
abbrev S4x16x2048x64 : Shape := ⟨4, ![4, 16, 2048, 64]⟩
abbrev S1x1x2048x2048 : Shape := ⟨4, ![1, 1, 2048, 2048]⟩
abbrev S64x2048x64 : Shape := ⟨3, ![64, 2048, 64]⟩
abbrev S2048x2048 : Shape := ⟨2, ![2048, 2048]⟩
abbrev S64x2048x1 : Shape := ⟨3, ![64, 2048, 1]⟩
abbrev S1x512x64 : Shape := ⟨3, ![1, 512, 64]⟩
abbrev S512x512 : Shape := ⟨2, ![512, 512]⟩
abbrev S1x512x1 : Shape := ⟨3, ![1, 512, 1]⟩
abbrev S512x1 : Shape := ⟨2, ![512, 1]⟩
abbrev S512x64 : Shape := ⟨2, ![512, 64]⟩
abbrev S64x512 : Shape := ⟨2, ![64, 512]⟩
abbrev S512 : Shape := ⟨1, ![512]⟩
abbrev S64x2048x2048 : Shape := ⟨3, ![64, 2048, 2048]⟩
abbrev S1x512x512 : Shape := ⟨3, ![1, 512, 512]⟩
abbrev S4x16x2048x2048 : Shape := ⟨4, ![4, 16, 2048, 2048]⟩

abbrev nBuf : Space → Nat
  | .hbm => 13
  | .vmem => 24
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S1x1x2048x2048, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S2048x2048, .f32⟩
  | .hbm, ⟨8, _⟩ => ⟨S64x2048x1, .f32⟩
  | .hbm, ⟨9, _⟩ => ⟨S64x2048x2048, .f32⟩
  | .hbm, ⟨10, _⟩ => ⟨S64x2048x64, .f32⟩
  | .hbm, ⟨11, _⟩ => ⟨S4x16x2048x64, .f32⟩
  | .hbm, ⟨12, _⟩ => ⟨S4x16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x512x64, .f32⟩
  | .local _ .vmem, ⟨3, _⟩ => ⟨S1x512x64, .f32⟩
  | .local _ .vmem, ⟨4, _⟩ => ⟨S512x512, .f32⟩
  | .local _ .vmem, ⟨5, _⟩ => ⟨S512x512, .f32⟩
  | .local _ .vmem, ⟨6, _⟩ => ⟨S1x512x1, .f32⟩
  | .local _ .vmem, ⟨7, _⟩ => ⟨S1x512x1, .f32⟩
  | .local _ .vmem, ⟨8, _⟩ => ⟨S512x1, .f32⟩
  | .local _ .vmem, ⟨9, _⟩ => ⟨S1x512x64, .f32⟩
  | .local _ .vmem, ⟨10, _⟩ => ⟨S1x512x64, .f32⟩
  | .local _ .vmem, ⟨11, _⟩ => ⟨S1x512x64, .f32⟩
  | .local _ .vmem, ⟨12, _⟩ => ⟨S1x512x64, .f32⟩
  | .local _ .vmem, ⟨13, _⟩ => ⟨S1x512x64, .f32⟩
  | .local _ .vmem, ⟨14, _⟩ => ⟨S1x512x64, .f32⟩
  | .local _ .vmem, ⟨15, _⟩ => ⟨S512x512, .f32⟩
  | .local _ .vmem, ⟨16, _⟩ => ⟨S512x512, .f32⟩
  | .local _ .vmem, ⟨17, _⟩ => ⟨S1x512x1, .f32⟩
  | .local _ .vmem, ⟨18, _⟩ => ⟨S1x512x1, .f32⟩
  | .local _ .vmem, ⟨19, _⟩ => ⟨S1x512x512, .f32⟩
  | .local _ .vmem, ⟨20, _⟩ => ⟨S1x512x512, .f32⟩
  | .local _ .vmem, ⟨21, _⟩ => ⟨S1x512x64, .f32⟩
  | .local _ .vmem, ⟨22, _⟩ => ⟨S1x512x64, .f32⟩
  | .local _ .vmem, ⟨23, _⟩ => ⟨S512x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨3, ![64, 4, 4], ![false, false, false]⟩

def k0_cond2 (i : grid0.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_14 : BitVec 32 := 0#32
  let v26 : BitVec 1 := Scalar.cmpi .ne v25 c0_i32_14
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![64, 4, 4], ![false, false, false]⟩

def k1_cond2 (i : grid1.Coords) : BitVec 1 :=
  let arg2 : BitVec 32 := BitVec.ofNat 32 (i 2).val
  let c3_i32 : BitVec 32 := 3#32
  let v36 : BitVec 1 := Scalar.cmpi .eq arg2 c3_i32
  let v37 : BitVec 32 := Scalar.extui v36
  let c0_i32_24 : BitVec 32 := 0#32
  let v38 : BitVec 1 := Scalar.cmpi .ne v37 c0_i32_24
  v38

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1x512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x512x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  shapeCasts_S4x16x2048x64_S64x2048x64 : S4x16x2048x64.ShapeCasts S64x2048x64
  shapeCasts_S1x1x2048x2048_S2048x2048 : S1x1x2048x2048.ShapeCasts S2048x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  transposes_S512x64_p1_0_S64x512 : S512x64.Transposes [1, 0] S64x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [1] S512
  shapeCasts_S512_S512x1 : S512.ShapeCasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S512x1_S512x512 : S512x1.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  shapeCasts_S512x64_S1x512x64 : S512x64.ShapeCasts S1x512x64
  shapeCasts_S64x2048x64_S4x16x2048x64 : S64x2048x64.ShapeCasts S4x16x2048x64
  shapeCasts_S64x2048x2048_S4x16x2048x2048 : S64x2048x2048.ShapeCasts S4x16x2048x2048
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S64x2048x64.size a
  hwx0_1 : ∀ i : grid0.Coords, EltTy.bits .f32 = 32 ∨ (Rect.block (s := S64x2048x64) S1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x2048.size a
  hwx0_2 : ∀ i : grid0.Coords, EltTy.bits .f32 = 32 ∨ (Rect.block (s := S2048x2048) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S64x2048x1.size a
  hwx0_3 : ∀ i : grid0.Coords, EltTy.bits .f32 = 32 ∨ (Rect.block (s := S64x2048x1) S1x512x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S64x2048x64.size a
  hwx1_0 : ∀ i : grid1.Coords, EltTy.bits .f32 = 32 ∨ (Rect.block (s := S64x2048x64) S1x512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S64x2048x64.size a
  hwx1_1 : ∀ i : grid1.Coords, EltTy.bits .f32 = 32 ∨ (Rect.block (s := S64x2048x64) S1x512x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S64x2048x64.size a
  hwx1_2 : ∀ i : grid1.Coords, EltTy.bits .f32 = 32 ∨ (Rect.block (s := S64x2048x64) S1x512x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S2048x2048.size a
  hwx1_3 : ∀ i : grid1.Coords, EltTy.bits .f32 = 32 ∨ (Rect.block (s := S2048x2048) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1.size a ≤ S64x2048x1.size a
  hwx1_4 : ∀ i : grid1.Coords, EltTy.bits .f32 = 32 ∨ (Rect.block (s := S64x2048x1) S1x512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x512.size a ≤ S64x2048x2048.size a
  hwx1_5 : ∀ i : grid1.Coords, EltTy.bits .f32 = 32 ∨ (Rect.block (s := S64x2048x2048) S1x512x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x64.size a ≤ S64x2048x64.size a
  hwx1_6 : ∀ i : grid1.Coords, EltTy.bits .f32 = 32 ∨ (Rect.block (s := S64x2048x64) S1x512x64.size (cc1_transform_6 i) (hinb1_6 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5_0) S1x512x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v5_1) S1x512x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4x16x2048x64 : Shape := ⟨4, ![4, 16, 2048, 64]⟩
abbrev S1x1x2048x2048 : Shape := ⟨4, ![1, 1, 2048, 2048]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S1x1x2048x2048, .f32⟩
  | .hbm, ⟨4, _⟩ => ⟨S4x16x2048x2048, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S4x16x2048x2048, .f32⟩
  | .hbm, ⟨9, _⟩ => ⟨S4x16x2048x2048, .f32⟩
  | .hbm, ⟨10, _⟩ => ⟨S4x16x2048x2048, .f32⟩
  | .hbm, ⟨11, _⟩ => ⟨S_, .f32⟩
  | .hbm, ⟨12, _⟩ => ⟨S4x16x2048, .f32⟩
  | .hbm, ⟨13, _⟩ => ⟨S4x16x2048x1, .f32⟩
  | .hbm, ⟨14, _⟩ => ⟨S_, .f32⟩
  | .hbm, ⟨15, _⟩ => ⟨S4x16x2048x1, .f32⟩
  | .hbm, ⟨16, _⟩ => ⟨S4x16x2048x1, .f32⟩
  | .hbm, ⟨17, _⟩ => ⟨S4x16x2048x2048, .f32⟩
  | .hbm, ⟨18, _⟩ => ⟨S4x16x2048x2048, .f32⟩
  | .hbm, ⟨19, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S1x1x2048x2048_S4x16x2048x2048_0_1_2_3 : S1x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S4x16x2048_S4x16x2048x1_0_1_2 : S4x16x2048.BroadcastsInDim S4x16x2048x1 (![0, 1, 2] : Fin 3 → Fin S4x16x2048x1.rank)
  bcast_S_S4x16x2048x1 : S_.BroadcastsInDim S4x16x2048x1 (![] : Fin 0 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.K.R0Runs.lean ====
/-
  Region 0 (the row-sum kernel) of the attention program, what its three control cases share.
  The grid is (64, 4, 4); the third coordinate ki selects the case: ki = 0 resets the 512x1 accumulator
  before adding this block's row sums, ki = 3 also copies the accumulator into the output block, and
  ki = 1, 2 only add.  Here: a window's block read off the array the region finds, the two branch
  conditions in closed form over the linear point (t mod 4), where the output window is idle, and the
  names of the staging and scratch memrefs the body is called with.
-/
import proofs.«136387_j50483045597399_1_alg».proof.Proof.Gen.Kernel.Launch
import proofs.«136387_j50483045597399_1_alg».proof.Proof.Gen.Kernel.Skeleton
import proofs.«136387_j50483045597399_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The reset branch is taken exactly when ki = 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The write-out branch is taken exactly when ki = 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where ki ≠ 3 the output block is neither stored nor written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev ms0_0 (t : Fin cfg0.N) : Memref sig .tc .vmem S1x512x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S512x1 .f32 := Memref.whole cc0_scratch0
abbrev VS0_0 : View sig .tc .vmem S512x1 .f32 := scM0_0.view
abbrev VO0_3 : View sig .tc .vmem S1x512x1 .f32 := (Memref.whole cc0_stg3_0 : Memref sig .tc .vmem S1x512x1 .f32).view

/-- The scoped buffers region 0 never touches (region 1's staging buffers and accumulator), each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The class invariant with the accumulator split off as an owned memref. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

end Cert.Kernel.Hand

end
-- ==== Proof.K.R0Run.lean ====
/-
  Region 0's body run in each of its three control cases.  In every case the three input blocks are
  read and left as they were and the accumulator ends with the pieces the stores wrote into it; the
  output block is handed back untouched where ki ≠ 3 and ends with its one whole-block store where ki = 3.
  The stored pieces are whatever the symbolic run leaves: they are the witnesses of the dependent pair.
-/
import proofs.«136387_j50483045597399_1_alg».proof.Proof.K.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- ki = 0: the accumulator, found at anything, is reset and then receives this block's row sums. -/
noncomputable def kernelRun0_A (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : cond0_0 i) (hc1 : ¬cond0_1 i)
    (x0 : Vec F S1x512x64 .f32) (x1 : Vec F S1x512x64 .f32) (x2 : Vec F S512x512 .f32) :
    Σ' (L3 : List (View.Piece (Elt F) S1x512x1 .f32)), { LS0 : List (View.Piece (Elt F) S512x1 .f32) //
      ∀ (xi3 : Vec F S1x512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__sum_kernel i arg3 harg3 arg4 harg4 arg5 harg5 arg6 harg6 arg7 harg7) K } := by
  refine ⟨[], ?_, fun xi3 E K => ?run⟩
  case run =>
    simp only [cc0__sum_kernel_eq_skeleton]; unfold cc0__sum_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- ki = 1, 2: the accumulator, found at what the point before left, receives this block's row sums. -/
noncomputable def kernelRun0_B (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : ¬cond0_1 i)
    (x0 : Vec F S1x512x64 .f32) (x1 : Vec F S1x512x64 .f32) (x2 : Vec F S512x512 .f32) (xs0 : Vec F S512x1 .f32) :
    Σ' (L3 : List (View.Piece (Elt F) S1x512x1 .f32)), { LS0 : List (View.Piece (Elt F) S512x1 .f32) //
      ∀ (xi3 : Vec F S1x512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__sum_kernel i arg3 harg3 arg4 harg4 arg5 harg5 arg6 harg6 arg7 harg7) K } := by
  refine ⟨[], ?_, fun xi3 E K => ?run⟩
  case run =>
    simp only [cc0__sum_kernel_eq_skeleton]; unfold cc0__sum_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- ki = 3: as ki = 1, 2, and then the accumulator is copied into the output block, found at anything. -/
noncomputable def kernelRun0_C (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : cond0_1 i)
    (x0 : Vec F S1x512x64 .f32) (x1 : Vec F S1x512x64 .f32) (x2 : Vec F S512x512 .f32) (xs0 : Vec F S512x1 .f32) :
    Σ' (L3 : List (View.Piece (Elt F) S1x512x1 .f32)), { LS0 : List (View.Piece (Elt F) S512x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__sum_kernel i arg3 harg3 arg4 harg4 arg5 harg5 arg6 harg6 arg7 harg7) K } := by
  refine ⟨?_, ?_, fun E K => ?run⟩
  case run =>
    simp only [cc0__sum_kernel_eq_skeleton]; unfold cc0__sum_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K.R0Data.lean ====
/-
  Region 0's proof data.  After the body at point t the accumulator holds the row sums of
  exp(Q·Kᵀ/8)·mask over the key blocks 0 … ki of the point's (head, query block) — by recursion on the
  point: a point with ki = 0 starts from the reset, every other from what the point before left — and,
  where ki = 3, the output block holds a copy of it.  The invariant between points carries the accumulator
  at those contents; the body obligation is the case's run at the point's memrefs and blocks.
-/
import proofs.«136387_j50483045597399_1_alg».proof.Proof.K.R0Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A: the pieces written into the accumulator tile it. -/
theorem scover0_A_0 (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : cond0_0 i) (hc1 : ¬cond0_1 i)
    (x0 : Vec F S1x512x64 .f32) (x1 : Vec F S1x512x64 .f32) (x2 : Vec F S512x512 .f32) (y : S512x1.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S512x1.size (by sl_kernel_rfl) y

/-- What case A leaves in the accumulator: its pieces read back. -/
def sout0_A_0 (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : cond0_0 i) (hc1 : ¬cond0_1 i)
    (x0 : Vec F S1x512x64 .f32) (x1 : Vec F S1x512x64 .f32) (x2 : Vec F S512x512 .f32) : Vec F S512x1 .f32 :=
  VS0_0.read (Elt F) (VS0_0.writes (Elt F) VS0_0.junk (kernelRun0_A c i arg3 harg3 arg4 harg4 arg5 harg5 arg6 harg6 arg7 harg7 hc0 hc1 x0 x1 x2).2.1)

/-- What case A leaves in the output block (nothing is stored: a placeholder no one reads, the window being idle there). -/
def out0_A_3 (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : cond0_0 i) (hc1 : ¬cond0_1 i)
    (x0 : Vec F S1x512x64 .f32) (x1 : Vec F S1x512x64 .f32) (x2 : Vec F S512x512 .f32) : Vec F S1x512x1 .f32 :=
  VO0_3.read (Elt F) (VO0_3.writes (Elt F) VO0_3.junk (kernelRun0_A c i arg3 harg3 arg4 harg4 arg5 harg5 arg6 harg6 arg7 harg7 hc0 hc1 x0 x1 x2).1)

/-- Case B: the pieces written into the accumulator tile it. -/
theorem scover0_B_0 (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : ¬cond0_1 i)
    (x0 : Vec F S1x512x64 .f32) (x1 : Vec F S1x512x64 .f32) (x2 : Vec F S512x512 .f32) (xs0 : Vec F S512x1 .f32) (y : S512x1.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S512x1.size (by sl_kernel_rfl) y

/-- What case B leaves in the accumulator: its pieces read back. -/
def sout0_B_0 (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : ¬cond0_1 i)
    (x0 : Vec F S1x512x64 .f32) (x1 : Vec F S1x512x64 .f32) (x2 : Vec F S512x512 .f32) (xs0 : Vec F S512x1 .f32) : Vec F S512x1 .f32 :=
  VS0_0.read (Elt F) (VS0_0.writes (Elt F) VS0_0.junk (kernelRun0_B c i arg3 harg3 arg4 harg4 arg5 harg5 arg6 harg6 arg7 harg7 hc0 hc1 x0 x1 x2 xs0).2.1)

/-- What case B leaves in the output block (nothing is stored: a placeholder no one reads, the window being idle there). -/
def out0_B_3 (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : ¬cond0_1 i)
    (x0 : Vec F S1x512x64 .f32) (x1 : Vec F S1x512x64 .f32) (x2 : Vec F S512x512 .f32) (xs0 : Vec F S512x1 .f32) : Vec F S1x512x1 .f32 :=
  VO0_3.read (Elt F) (VO0_3.writes (Elt F) VO0_3.junk (kernelRun0_B c i arg3 harg3 arg4 harg4 arg5 harg5 arg6 harg6 arg7 harg7 hc0 hc1 x0 x1 x2 xs0).1)

/-- Case C: the pieces written into the accumulator tile it. -/
theorem scover0_C_0 (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : cond0_1 i)
    (x0 : Vec F S1x512x64 .f32) (x1 : Vec F S1x512x64 .f32) (x2 : Vec F S512x512 .f32) (xs0 : Vec F S512x1 .f32) (y : S512x1.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S512x1.size (by sl_kernel_rfl) y

/-- What case C leaves in the accumulator: its pieces read back. -/
def sout0_C_0 (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : cond0_1 i)
    (x0 : Vec F S1x512x64 .f32) (x1 : Vec F S1x512x64 .f32) (x2 : Vec F S512x512 .f32) (xs0 : Vec F S512x1 .f32) : Vec F S512x1 .f32 :=
  VS0_0.read (Elt F) (VS0_0.writes (Elt F) VS0_0.junk (kernelRun0_C c i arg3 harg3 arg4 harg4 arg5 harg5 arg6 harg6 arg7 harg7 hc0 hc1 x0 x1 x2 xs0).2.1)

/-- Case C: the one store into the output block covers it. -/
theorem cover0_C_3 (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : cond0_1 i)
    (x0 : Vec F S1x512x64 .f32) (x1 : Vec F S1x512x64 .f32) (x2 : Vec F S512x512 .f32) (xs0 : Vec F S512x1 .f32) (y : S1x512x1.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1x512x1.size (by sl_kernel_rfl) y

/-- What case C leaves in the output block. -/
def out0_C_3 (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : cond0_1 i)
    (x0 : Vec F S1x512x64 .f32) (x1 : Vec F S1x512x64 .f32) (x2 : Vec F S512x512 .f32) (xs0 : Vec F S512x1 .f32) : Vec F S1x512x1 .f32 :=
  VO0_3.read (Elt F) (VO0_3.writes (Elt F) VO0_3.junk (kernelRun0_C c i arg3 harg3 arg4 harg4 arg5 harg5 arg6 harg6 arg7 harg7 hc0 hc1 x0 x1 x2 xs0).1)

/-! ## What the output block and the accumulator hold after each point -/

/-- The output block's staging buffer and the accumulator after the body at position `n`: the case the closed
    forms select, run at the point's memrefs and input blocks, the accumulator found at what position `n - 1` left. -/
def outsAt0 (c : Dev nD) : (n : ℕ) → n < cfg0.N → Vec F S1x512x1 .f32 × Vec F S512x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the class's own (every scoped buffer at anything);
    afterwards the accumulator at what the point before left, the other scoped buffers at anything, the generator
    register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Rest0 c) ∗ (∃ r, prngReg c r)) := by
  cases n with
  | zero => exact absurd rfl hz
  | succ n => rfl

/-! ## The proof data -/

/-- Region 0's proof data on core `c`: the arrays as the region finds them; after the body each input's buffer
    at its block and the output's at `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the closed forms say which case the point is in; the invariant hands the run the accumulator
    (at anything where ki = 0, at what the point before left elsewhere) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 1024 := lt_of_lt_of_eq t.isLt (show cfg0.N = 1024 from N_0)
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A_0; (try dsimp only)
    have hrun := (kernelRun0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)).2.2
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0; (try dsimp only)
      have hrun := (kernelRun0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2).2.2
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply (hrun Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0; (try dsimp only)
      have hrun := (kernelRun0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2).2.2
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 1024 := N_0; omega), PhiA0_eq]
  iintro ⟨⟨HS0, HR⟩, Hg⟩
  isplitl [HS0 HR]
  · isplitl [HS0]
    · iexists _; iexact HS0
    iexact HR
  iexact Hg

end Cert.Kernel.Hand

end
-- ==== Proof.K.R1Runs.lean ====
/-
  Region 1 (the attention kernel proper) of the attention program, what its three control cases share.
  The grid is (64, 4, 4); the third coordinate ki selects the case: ki = 0 resets the 512x64 accumulator
  before adding this key block's product P·V, ki = 3 also copies the accumulator into the context output
  block, and ki = 1, 2 only add.  The normalised probability block P = exp(Q·Kᵀ/8)·mask / (l + ε) is stored
  whole into the attention output block at every point.  Here: a window's block read off the array the
  region finds, the two branch conditions in closed form over the linear point (t mod 4), where the context
  output window is idle, and the names of the staging and scratch memrefs the body is called with.
-/
import proofs.«136387_j50483045597399_1_alg».proof.Proof.Gen.Kernel.Launch
import proofs.«136387_j50483045597399_1_alg».proof.Proof.Gen.Kernel.Skeleton
import proofs.«136387_j50483045597399_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The reset branch is taken exactly when ki = 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The write-out branch is taken exactly when ki = 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where ki ≠ 3 the context output block is neither stored nor written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

abbrev ms1_0 (t : Fin cfg1.N) : Memref sig .tc .vmem S1x512x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x64 .f32 := win1_6.stage (cfg1.slots t 6)
abbrev hs1_6 (t : Fin cfg1.N) : (ms1_6 t).IsWhole := hstage1_6 ((cfg1.slots t 6).cast nbuf1_6)
/-- The accumulator: a whole scoped buffer of the kernel's own. -/
abbrev scM1_0 : Memref sig .tc .vmem S512x64 .f32 := Memref.whole cc1_scratch0
abbrev VS1_0 : View sig .tc .vmem S512x64 .f32 := scM1_0.view
abbrev VO1_5 : View sig .tc .vmem S1x512x512 .f32 := (Memref.whole cc1_stg5_0 : Memref sig .tc .vmem S1x512x512 .f32).view
abbrev VO1_6 : View sig .tc .vmem S1x512x64 .f32 := (Memref.whole cc1_stg6_0 : Memref sig .tc .vmem S1x512x64 .f32).view

/-- The scoped buffers region 1 never touches (region 0's staging buffers and accumulator), each at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class invariant with the accumulator split off as an owned memref. -/
theorem PhiA1_eq (c : Dev nD) :
    (Pipeline.ΦA spec1 c : sProp 𝕄)
      = iprop(iprop((∃ d, owns (c : Thread nD τ) scM1_0 fullShare d) ∗ Rest1 c) ∗ (∃ r, prngReg c r)) := by
  unfold Pipeline.ΦA Rest1; rw [scopedRest1_eq]; simp only [scM1_0, owns_whole]
  refine BI.Entails.antisymm (show (_ : sProp 𝕄) ⊢ _ from ?_) (show (_ : sProp 𝕄) ⊢ _ from ?_)
  · iintro ⟨⟨H0, H1, H2, H3, H4, H5, H6, H7, H8, HS⟩, Hg⟩
    isplitr [Hg]
    · isplitl [HS]; · iexact HS
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact Hg
  · iintro ⟨⟨HS, H0, H1, H2, H3, H4, H5, H6, H7, H8⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact HS
    iexact Hg

end Cert.Kernel.Hand

end
-- ==== Proof.K.R1Run.lean ====
/-
  Region 1's body run in each of its three control cases.  In every case the five input blocks are
  read and left as they were, the attention output block ends with its one whole-block store, and the
  accumulator ends with the pieces the stores wrote into it; the context output block is handed back
  untouched where ki ≠ 3 and ends with its one whole-block store where ki = 3.
  The stored pieces are whatever the symbolic run leaves: they are the witnesses of the dependent triple.
-/
import proofs.«136387_j50483045597399_1_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- ki = 0: the accumulator, found at anything, is reset and then receives P·V of this key block; the attention block is stored whole. -/
noncomputable def kernelRun1_A (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) :
    Σ' (L5 : List (View.Piece (Elt F) S1x512x512 .f32)) (L6 : List (View.Piece (Elt F) S1x512x64 .f32)), { LS0 : List (View.Piece (Elt F) S512x64 .f32) //
      ∀ (xi6 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨?_, [], ?_, fun xi6 E K => ?run⟩
  case run =>
    simp only [cc1__main_kernel_eq_skeleton]; unfold cc1__main_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _; isplitr; · ipureintro; exact harg9.read_unread _
      iexact H6
    iexists _; iexact HS0

set_option maxHeartbeats 2000000 in
/-- ki = 1, 2: the accumulator, found at what the point before left, receives P·V of this key block; the attention block is stored whole. -/
noncomputable def kernelRun1_B (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) :
    Σ' (L5 : List (View.Piece (Elt F) S1x512x512 .f32)) (L6 : List (View.Piece (Elt F) S1x512x64 .f32)), { LS0 : List (View.Piece (Elt F) S512x64 .f32) //
      ∀ (xi6 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨?_, [], ?_, fun xi6 E K => ?run⟩
  case run =>
    simp only [cc1__main_kernel_eq_skeleton]; unfold cc1__main_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _; isplitr; · ipureintro; exact harg9.read_unread _
      iexact H6
    iexists _; iexact HS0

set_option maxHeartbeats 2000000 in
/-- ki = 3: as ki = 1, 2, and then the accumulator is copied into the context output block, found at anything. -/
noncomputable def kernelRun1_C (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) :
    Σ' (L5 : List (View.Piece (Elt F) S1x512x512 .f32)) (L6 : List (View.Piece (Elt F) S1x512x64 .f32)), { LS0 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨?_, ?_, ?_, fun E K => ?run⟩
  case run =>
    simp only [cc1__main_kernel_eq_skeleton]; unfold cc1__main_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; iexact HS0

end Cert.Kernel.Hand

end
-- ==== Proof.K.R1Data.lean ====
/-
  Region 1's proof data.  After the body at point t the attention output block holds the normalised
  probability block P = exp(Q·Kᵀ/8)·mask / (l + ε) of the point's (head, query block, key block), and the
  accumulator holds the sum of P·V over the key blocks 0 … ki of the point's (head, query block) — by recursion
  on the point: a point with ki = 0 starts from the reset, every other from what the point before left — and,
  where ki = 3, the context output block holds a copy of it.  The invariant between points carries the
  accumulator at those contents; the body obligation is the case's run at the point's memrefs and blocks.
-/
import proofs.«136387_j50483045597399_1_alg».proof.Proof.K.R1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A: the pieces written into the accumulator tile it. -/
theorem scover1_A_0 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) (y : S512x64.Idx) :
    ∃ pc ∈ (kernelRun1_A c i arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4).2.2.1 S512x64.size (by sl_kernel_rfl) y

/-- What case a leaves in the accumulator: its pieces read back. -/
def sout1_A_0 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) : Vec F S512x64 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3 x4).2.2.1)

/-- Case A: the one store into the attention output block covers it. -/
theorem cover1_A_5 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) (y : S1x512x512.Idx) :
    ∃ pc ∈ (kernelRun1_A c i arg3 harg3 arg4 harg4 arg5 harg5 arg6 harg6 arg7 harg7 arg8 harg8 arg9 harg9 arg10 harg10 hc0 hc1 x0 x1 x2 x3 x4).1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4).1 S1x512x512.size (by sl_kernel_rfl) y

/-- What case a leaves in the attention output block. -/
def out1_A_5 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) : Vec F S1x512x512 .f32 :=
  VO1_5.read (Elt F) (VO1_5.writes (Elt F) VO1_5.junk (kernelRun1_A c i arg3 harg3 arg4 harg4 arg5 harg5 arg6 harg6 arg7 harg7 arg8 harg8 arg9 harg9 arg10 harg10 hc0 hc1 x0 x1 x2 x3 x4).1)

/-- What case a leaves in the context output block (nothing is stored: a placeholder no one reads, the window being idle there). -/
def out1_A_6 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) : Vec F S1x512x64 .f32 :=
  VO1_6.read (Elt F) (VO1_6.writes (Elt F) VO1_6.junk (kernelRun1_A c i arg3 harg3 arg4 harg4 arg5 harg5 arg6 harg6 arg7 harg7 arg8 harg8 arg9 harg9 arg10 harg10 hc0 hc1 x0 x1 x2 x3 x4).2.1)

/-- Case B: the pieces written into the accumulator tile it. -/
theorem scover1_B_0 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) (y : S512x64.Idx) :
    ∃ pc ∈ (kernelRun1_B c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 xs0).2.2.1 S512x64.size (by sl_kernel_rfl) y

/-- What case b leaves in the accumulator: its pieces read back. -/
def sout1_B_0 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) : Vec F S512x64 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 x4 xs0).2.2.1)

/-- Case B: the one store into the attention output block covers it. -/
theorem cover1_B_5 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) (y : S1x512x512.Idx) :
    ∃ pc ∈ (kernelRun1_B c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 xs0).1 S1x512x512.size (by sl_kernel_rfl) y

/-- What case b leaves in the attention output block. -/
def out1_B_5 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) : Vec F S1x512x512 .f32 :=
  VO1_5.read (Elt F) (VO1_5.writes (Elt F) VO1_5.junk (kernelRun1_B c i arg3 harg3 arg4 harg4 arg5 harg5 arg6 harg6 arg7 harg7 arg8 harg8 arg9 harg9 arg10 harg10 hc0 hc1 x0 x1 x2 x3 x4 xs0).1)

/-- What case b leaves in the context output block (nothing is stored: a placeholder no one reads, the window being idle there). -/
def out1_B_6 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) : Vec F S1x512x64 .f32 :=
  VO1_6.read (Elt F) (VO1_6.writes (Elt F) VO1_6.junk (kernelRun1_B c i arg3 harg3 arg4 harg4 arg5 harg5 arg6 harg6 arg7 harg7 arg8 harg8 arg9 harg9 arg10 harg10 hc0 hc1 x0 x1 x2 x3 x4 xs0).2.1)

/-- Case C: the pieces written into the accumulator tile it. -/
theorem scover1_C_0 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) (y : S512x64.Idx) :
    ∃ pc ∈ (kernelRun1_C c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0).2.2.1 S512x64.size (by sl_kernel_rfl) y

/-- What case c leaves in the accumulator: its pieces read back. -/
def sout1_C_0 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) : Vec F S512x64 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 x4 xs0).2.2.1)

/-- Case C: the one store into the attention output block covers it. -/
theorem cover1_C_5 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) (y : S1x512x512.Idx) :
    ∃ pc ∈ (kernelRun1_C c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0).1 S1x512x512.size (by sl_kernel_rfl) y

/-- What case c leaves in the attention output block. -/
def out1_C_5 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) : Vec F S1x512x512 .f32 :=
  VO1_5.read (Elt F) (VO1_5.writes (Elt F) VO1_5.junk (kernelRun1_C c i arg3 harg3 arg4 harg4 arg5 harg5 arg6 harg6 arg7 harg7 arg8 harg8 arg9 harg9 arg10 harg10 hc0 hc1 x0 x1 x2 x3 x4 xs0).1)

/-- Case C: the one store into the context output block covers it. -/
theorem cover1_C_6 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) (y : S1x512x64.Idx) :
    ∃ pc ∈ (kernelRun1_C c i arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0).2.1 S1x512x64.size (by sl_kernel_rfl) y

/-- What case C leaves in the context output block. -/
def out1_C_6 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) : Vec F S1x512x64 .f32 :=
  VO1_6.read (Elt F) (VO1_6.writes (Elt F) VO1_6.junk (kernelRun1_C c i arg3 harg3 arg4 harg4 arg5 harg5 arg6 harg6 arg7 harg7 arg8 harg8 arg9 harg9 arg10 harg10 hc0 hc1 x0 x1 x2 x3 x4 xs0).2.1)

/-! ## What the two output blocks and the accumulator hold after each point -/

/-- The attention output block's staging buffer, the context output block's staging buffer and the accumulator
    after the body at position `n`: the case the closed forms select, run at the point's memrefs and input blocks,
    the accumulator found at what position `n - 1` left. -/
def outsAt1 (c : Dev nD) : (n : ℕ) → n < cfg1.N → Vec F S1x512x512 .f32 × Vec F S1x512x64 .f32 × Vec F S512x64 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2, out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2)

theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2, out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the class's own (every scoped buffer at anything);
    afterwards the accumulator at what the point before left, the other scoped buffers at anything, the generator
    register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2) ∗ Rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ Rest1 c) ∗ (∃ r, prngReg c r)) := by
  cases n with
  | zero => exact absurd rfl hz
  | succ n => rfl

/-! ## The proof data -/

/-- Region 1's proof data on core `c`: the arrays as the region finds them; after the body each input's buffer
    at its block, the attention output's at `outsAt1`'s first component and the context output's at its second;
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at any position, as `PhiS1` there. -/
theorem Phi_eq1 (c : Dev nD) (t : Fin (cfg1.N + 1)) : (dat1 V c).Φ t = PhiS1 V c t.val (Nat.le_of_lt_succ t.isLt) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]
/-- The attention output block is stored at every point: its buffer is left at the point's contents. -/
theorem leaves1_5 (c : Dev nD) (t : Fin cfg1.N) : (dat1 V c).leavesExact 5 t = owns (c : Thread nD τ) (ms1_5 t) fullShare ((outsAt1 V c t.val t.isLt).1) := by
  unfold Dat.leavesExact; rw [liveAt1_5 t, after1_5]

set_option maxHeartbeats 4800000 in
/-- The body at any point: the closed forms say which case the point is in; the invariant hands the run the accumulator
    (at anything where ki = 0, at what the point before left elsewhere) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5]
  have hN : t.val < 1024 := lt_of_lt_of_eq t.isLt (show cfg1.N = 1024 from N_1)
  by_cases h0 : t.val % 4 = 0
  · have h1 : ¬t.val % 4 = 3 := by omega
    rw [Dat.leavesExact_idle (dat1 V c) 6 t (idleAt1_6 t (fun h => h1 ((hcond1_1 t).mp h))) (noFlush1_6 t (fun h => h1 ((hcond1_1 t).mp h)))]
    rw [outsAt1_A V c t h0 h1]
    unfold out1_A_5 sout1_A_0; (try dsimp only)
    have hrun := (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply (hrun _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _)
      iexists _; iexact H6
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply (hrun _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexists _; iexact HS0
      iintro ⟨H0, H1, H2, H3, H4, ⟨%e5, H5⟩, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _)
      iexists _; iexact H6
  · have hz : t.val ≠ 0 := by omega
    by_cases h1 : t.val % 4 = 3
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_5 out1_C_6 sout1_C_0; (try dsimp only)
      have hrun := (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2).2.2.2
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply (hrun Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_C_5 c _ _ _ _ _ _ _ _ _ _ _ _ _ _ _ _ _ _ _ _ _ _ _ _ _)
      unfold owns; iexists _; isplitr
      swap; · iexact H6
      ipureintro; exact View.read_writes_of_cover _ _ _ _ _ (cover1_C_6 c _ _ _ _ _ _ _ _ _ _ _ _ _ _ _ _ _ _ _ _ _ _ _ _ _)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold out1_B_5 sout1_B_0; (try dsimp only)
      have hrun := (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2).2.2.2
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply (hrun _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_B_5 c _ _ _ _ _ _ _ _ _ _ _ _ _ _ _ _ _ _ _ _ _ _ _ _ _)
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [Phi_eq1 V c (Fin.last cfg1.N),
    PhiS1_pos V c _ _ (by rw [Fin.val_last]; have : cfg1.N = 1024 := N_1; omega), PhiA1_eq]
  iintro ⟨⟨HS0, HR⟩, Hg⟩
  isplitl [HS0 HR]
  · isplitl [HS0]
    · iexists _; iexact HS0
    iexact HR
  iexact Hg

end Cert.Kernel.Hand

end
-- ==== Proof.K.Main.lean ====
/-
  The whole program's run.  @main is: four reshapes (the three (4,16,2048,64) inputs to (64,2048,64), the mask to
  (2048,2048)), the row-sum region, the main region, two reshapes of the results back.  The buffer contents at each
  boundary are a fold from the launch memory: a host stretch applies its operations, a region replaces its windows'
  arrays by what its write-backs leave.  Each region is a segment whose thread state is "every unscoped buffer at the
  boundary's contents, the generator register at some state, nothing owed"; the launch over the four segments ends
  with every unscoped buffer at the last boundary's contents, whence the frame: no item writes an argument.
-/
import proofs.«136387_j50483045597399_1_alg».proof.Proof.K.R0Data
import proofs.«136387_j50483045597399_1_alg».proof.Proof.K.R1Data
import proofs.«136387_j50483045597399_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After the four reshapes (the row-sum region's entry). -/
abbrev W1 : Dev nD → Valuation τ sig (Elt F) := fun c => StableHlo.after hostOps0 (W0 m c)
abbrev VV1 : (c : Dev nD) → (b : Ref sig .tc) → Buf (Elt F) ((c : Thread nD τ).loc b) := fun c b => W1 m c b
/-- After the row-sum region: its arrays at what the pipeline leaves, every other buffer as entered. -/
def W2 (c : Dev nD) : Valuation τ sig (Elt F) :=
  Pipeline.withArrays spec0 c (W1 m c) fun w => (dat0 (VV1 m) c).arrAt w cfg0.N
theorem W2_arr (c : Dev nD) (w : Fin cfg0.W) :
    W2 m c (Proc.devRef .tc (Pipeline.arrRef spec0 w)) = (dat0 (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)
/-- After the main region. -/
def W3 (c : Dev nD) : Valuation τ sig (Elt F) :=
  Pipeline.withArrays spec1 c (W2 m c) fun w => (dat1 (VV2 m) c).arrAt w cfg1.N
theorem W3_arr (c : Dev nD) (w : Fin cfg1.W) :
    W3 m c (Proc.devRef .tc (Pipeline.arrRef spec1 w)) = (dat1 (VV2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VV3 : (c : Dev nD) → (b : Ref sig .tc) → Buf (Elt F) ((c : Thread nD τ).loc b) := fun c b => W3 m c b
theorem hF1 (c : Dev nD) (w : Fin cfg1.W) : (dat1 (VV2 m) c).arrAt w cfg1.N = VV3 m c (Pipeline.arrRef spec1 w) :=
  (W3_arr m c w).symm
theorem hrest1 (c : Dev nD) : ∀ b, b ∉ Finset.univ.image (Pipeline.arrRef spec1) → VV3 m c b = VV2 m c b :=
  fun b hb => W3_of_ne m c b fun w e => hb (Finset.mem_image.mpr ⟨w, Finset.mem_univ _, e⟩)
/-- After the two closing reshapes. -/
abbrev W4 : Dev nD → Valuation τ sig (Elt F) := fun c => StableHlo.after hostOps2 (W3 m c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VV1 m) c
  | ⟨1, _⟩ => fun c => dat1 (VV2 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered with every unscoped buffer at `W1`, left with them at `W2`.
    Its arrays are split out of the unscoped buffers and put back at their exit contents; the generator register
    goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have key : Pipeline.ΦA spec0 c ⊢ (pdats m 0 c).Φ 0 := hin0 (VV1 m) c
    iintro ⟨Hp, -, Hr⟩
    iapply key
    unfold Pipeline.ΦA
    isplitl [Hr]; · iexact Hr
    iexact Hp
  hout c := by
    rw [Pipeline.ownSems0_none]
    have key : (pdats m 0 c).Φ (Fin.last _) ⊢ Pipeline.ΦA spec0 c := hout0 (VV1 m) c
    unfold Pipeline.ΦA at key
    iintro H
    ihave H2 := key $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`.
    Its arrays are split out of the unscoped buffers and put back at their exit contents; the generator register
    goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have key : Pipeline.ΦA spec1 c ⊢ (pdats m 1 c).Φ 0 := hin1 (VV2 m) c
    iintro ⟨Hp, -, Hr⟩
    iapply key
    unfold Pipeline.ΦA
    isplitl [Hr]; · iexact Hr
    iexact Hp
  hout c := by
    rw [Pipeline.ownSems0_none]
    have key : (pdats m 1 c).Φ (Fin.last _) ⊢ Pipeline.ΦA spec1 c := hout1 (VV2 m) c
    unfold Pipeline.ΦA at key
    iintro H
    ihave H2 := key $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV2 m c) (VV3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- Every weakly fair execution of @main from memory `m` with zero counters terminates, and in every final state each
    unscoped buffer of core `c` holds the last boundary's contents `W4 m c`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.Kernel.Hand

end
-- ==== Proof.KI.R0Runs.lean ====
/-
  Region 0 (the row-sum kernel) of the attention program, what its three control cases share.
  The grid is (64, 4, 4); the third coordinate ki selects the case: ki = 0 resets the 512x1 accumulator
  before adding this block's row sums, ki = 3 also copies the accumulator into the output block, and
  ki = 1, 2 only add.  Here: a window's block read off the array the region finds, the two branch
  conditions in closed form over the linear point (t mod 4), where the output window is idle, and the
  names of the staging and scratch memrefs the body is called with.
-/
import proofs.«136387_j50483045597399_1_alg».proof.Proof.Gen.KernelIdeal.Launch
import proofs.«136387_j50483045597399_1_alg».proof.Proof.Gen.KernelIdeal.Skeleton
import proofs.«136387_j50483045597399_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The reset branch is taken exactly when ki = 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The write-out branch is taken exactly when ki = 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where ki ≠ 3 the output block is neither stored nor written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev ms0_0 (t : Fin cfg0.N) : Memref sig .tc .vmem S1x512x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S512x1 .f32 := Memref.whole cc0_scratch0
abbrev VS0_0 : View sig .tc .vmem S512x1 .f32 := scM0_0.view
abbrev VO0_3 : View sig .tc .vmem S1x512x1 .f32 := (Memref.whole cc0_stg3_0 : Memref sig .tc .vmem S1x512x1 .f32).view

/-- The scoped buffers region 0 never touches (region 1's staging buffers and accumulator), each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The class invariant with the accumulator split off as an owned memref. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

end Cert.KernelIdeal.Hand

end
-- ==== Proof.KI.R0Run.lean ====
/-
  Region 0's body run in each of its three control cases.  In every case the three input blocks are
  read and left as they were and the accumulator ends with the pieces the stores wrote into it; the
  output block is handed back untouched where ki ≠ 3 and ends with its one whole-block store where ki = 3.
  The stored pieces are whatever the symbolic run leaves: they are the witnesses of the dependent pair.
-/
import proofs.«136387_j50483045597399_1_alg».proof.Proof.KI.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- ki = 0: the accumulator, found at anything, is reset and then receives this block's row sums. -/
noncomputable def kernelRun0_A (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : cond0_0 i) (hc1 : ¬cond0_1 i)
    (x0 : Vec F S1x512x64 .f32) (x1 : Vec F S1x512x64 .f32) (x2 : Vec F S512x512 .f32) :
    Σ' (L3 : List (View.Piece (Elt F) S1x512x1 .f32)), { LS0 : List (View.Piece (Elt F) S512x1 .f32) //
      ∀ (xi3 : Vec F S1x512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__sum_kernel i arg3 harg3 arg4 harg4 arg5 harg5 arg6 harg6 arg7 harg7) K } := by
  refine ⟨[], ?_, fun xi3 E K => ?run⟩
  case run =>
    simp only [cc0__sum_kernel_eq_skeleton]; unfold cc0__sum_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- ki = 1, 2: the accumulator, found at what the point before left, receives this block's row sums. -/
noncomputable def kernelRun0_B (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : ¬cond0_1 i)
    (x0 : Vec F S1x512x64 .f32) (x1 : Vec F S1x512x64 .f32) (x2 : Vec F S512x512 .f32) (xs0 : Vec F S512x1 .f32) :
    Σ' (L3 : List (View.Piece (Elt F) S1x512x1 .f32)), { LS0 : List (View.Piece (Elt F) S512x1 .f32) //
      ∀ (xi3 : Vec F S1x512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__sum_kernel i arg3 harg3 arg4 harg4 arg5 harg5 arg6 harg6 arg7 harg7) K } := by
  refine ⟨[], ?_, fun xi3 E K => ?run⟩
  case run =>
    simp only [cc0__sum_kernel_eq_skeleton]; unfold cc0__sum_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- ki = 3: as ki = 1, 2, and then the accumulator is copied into the output block, found at anything. -/
noncomputable def kernelRun0_C (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : cond0_1 i)
    (x0 : Vec F S1x512x64 .f32) (x1 : Vec F S1x512x64 .f32) (x2 : Vec F S512x512 .f32) (xs0 : Vec F S512x1 .f32) :
    Σ' (L3 : List (View.Piece (Elt F) S1x512x1 .f32)), { LS0 : List (View.Piece (Elt F) S512x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__sum_kernel i arg3 harg3 arg4 harg4 arg5 harg5 arg6 harg6 arg7 harg7) K } := by
  refine ⟨?_, ?_, fun E K => ?run⟩
  case run =>
    simp only [cc0__sum_kernel_eq_skeleton]; unfold cc0__sum_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.R0Data.lean ====
/-
  Region 0's proof data.  After the body at point t the accumulator holds the row sums of
  exp(Q·Kᵀ/8)·mask over the key blocks 0 … ki of the point's (head, query block) — by recursion on the
  point: a point with ki = 0 starts from the reset, every other from what the point before left — and,
  where ki = 3, the output block holds a copy of it.  The invariant between points carries the accumulator
  at those contents; the body obligation is the case's run at the point's memrefs and blocks.
-/
import proofs.«136387_j50483045597399_1_alg».proof.Proof.KI.R0Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A: the pieces written into the accumulator tile it. -/
theorem scover0_A_0 (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : cond0_0 i) (hc1 : ¬cond0_1 i)
    (x0 : Vec F S1x512x64 .f32) (x1 : Vec F S1x512x64 .f32) (x2 : Vec F S512x512 .f32) (y : S512x1.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S512x1.size (by sl_kernel_rfl) y

/-- What case A leaves in the accumulator: its pieces read back. -/
def sout0_A_0 (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : cond0_0 i) (hc1 : ¬cond0_1 i)
    (x0 : Vec F S1x512x64 .f32) (x1 : Vec F S1x512x64 .f32) (x2 : Vec F S512x512 .f32) : Vec F S512x1 .f32 :=
  VS0_0.read (Elt F) (VS0_0.writes (Elt F) VS0_0.junk (kernelRun0_A c i arg3 harg3 arg4 harg4 arg5 harg5 arg6 harg6 arg7 harg7 hc0 hc1 x0 x1 x2).2.1)

/-- What case A leaves in the output block (nothing is stored: a placeholder no one reads, the window being idle there). -/
def out0_A_3 (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : cond0_0 i) (hc1 : ¬cond0_1 i)
    (x0 : Vec F S1x512x64 .f32) (x1 : Vec F S1x512x64 .f32) (x2 : Vec F S512x512 .f32) : Vec F S1x512x1 .f32 :=
  VO0_3.read (Elt F) (VO0_3.writes (Elt F) VO0_3.junk (kernelRun0_A c i arg3 harg3 arg4 harg4 arg5 harg5 arg6 harg6 arg7 harg7 hc0 hc1 x0 x1 x2).1)

/-- Case B: the pieces written into the accumulator tile it. -/
theorem scover0_B_0 (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : ¬cond0_1 i)
    (x0 : Vec F S1x512x64 .f32) (x1 : Vec F S1x512x64 .f32) (x2 : Vec F S512x512 .f32) (xs0 : Vec F S512x1 .f32) (y : S512x1.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S512x1.size (by sl_kernel_rfl) y

/-- What case B leaves in the accumulator: its pieces read back. -/
def sout0_B_0 (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : ¬cond0_1 i)
    (x0 : Vec F S1x512x64 .f32) (x1 : Vec F S1x512x64 .f32) (x2 : Vec F S512x512 .f32) (xs0 : Vec F S512x1 .f32) : Vec F S512x1 .f32 :=
  VS0_0.read (Elt F) (VS0_0.writes (Elt F) VS0_0.junk (kernelRun0_B c i arg3 harg3 arg4 harg4 arg5 harg5 arg6 harg6 arg7 harg7 hc0 hc1 x0 x1 x2 xs0).2.1)

/-- What case B leaves in the output block (nothing is stored: a placeholder no one reads, the window being idle there). -/
def out0_B_3 (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : ¬cond0_1 i)
    (x0 : Vec F S1x512x64 .f32) (x1 : Vec F S1x512x64 .f32) (x2 : Vec F S512x512 .f32) (xs0 : Vec F S512x1 .f32) : Vec F S1x512x1 .f32 :=
  VO0_3.read (Elt F) (VO0_3.writes (Elt F) VO0_3.junk (kernelRun0_B c i arg3 harg3 arg4 harg4 arg5 harg5 arg6 harg6 arg7 harg7 hc0 hc1 x0 x1 x2 xs0).1)

/-- Case C: the pieces written into the accumulator tile it. -/
theorem scover0_C_0 (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : cond0_1 i)
    (x0 : Vec F S1x512x64 .f32) (x1 : Vec F S1x512x64 .f32) (x2 : Vec F S512x512 .f32) (xs0 : Vec F S512x1 .f32) (y : S512x1.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S512x1.size (by sl_kernel_rfl) y

/-- What case C leaves in the accumulator: its pieces read back. -/
def sout0_C_0 (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : cond0_1 i)
    (x0 : Vec F S1x512x64 .f32) (x1 : Vec F S1x512x64 .f32) (x2 : Vec F S512x512 .f32) (xs0 : Vec F S512x1 .f32) : Vec F S512x1 .f32 :=
  VS0_0.read (Elt F) (VS0_0.writes (Elt F) VS0_0.junk (kernelRun0_C c i arg3 harg3 arg4 harg4 arg5 harg5 arg6 harg6 arg7 harg7 hc0 hc1 x0 x1 x2 xs0).2.1)

/-- Case C: the one store into the output block covers it. -/
theorem cover0_C_3 (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : cond0_1 i)
    (x0 : Vec F S1x512x64 .f32) (x1 : Vec F S1x512x64 .f32) (x2 : Vec F S512x512 .f32) (xs0 : Vec F S512x1 .f32) (y : S1x512x1.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1x512x1.size (by sl_kernel_rfl) y

/-- What case C leaves in the output block. -/
def out0_C_3 (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : cond0_1 i)
    (x0 : Vec F S1x512x64 .f32) (x1 : Vec F S1x512x64 .f32) (x2 : Vec F S512x512 .f32) (xs0 : Vec F S512x1 .f32) : Vec F S1x512x1 .f32 :=
  VO0_3.read (Elt F) (VO0_3.writes (Elt F) VO0_3.junk (kernelRun0_C c i arg3 harg3 arg4 harg4 arg5 harg5 arg6 harg6 arg7 harg7 hc0 hc1 x0 x1 x2 xs0).1)

/-! ## What the output block and the accumulator hold after each point -/

/-- The output block's staging buffer and the accumulator after the body at position `n`: the case the closed
    forms select, run at the point's memrefs and input blocks, the accumulator found at what position `n - 1` left. -/
def outsAt0 (c : Dev nD) : (n : ℕ) → n < cfg0.N → Vec F S1x512x1 .f32 × Vec F S512x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the class's own (every scoped buffer at anything);
    afterwards the accumulator at what the point before left, the other scoped buffers at anything, the generator
    register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ Rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Rest0 c) ∗ (∃ r, prngReg c r)) := by
  cases n with
  | zero => exact absurd rfl hz
  | succ n => rfl

/-! ## The proof data -/

/-- Region 0's proof data on core `c`: the arrays as the region finds them; after the body each input's buffer
    at its block and the output's at `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the closed forms say which case the point is in; the invariant hands the run the accumulator
    (at anything where ki = 0, at what the point before left elsewhere) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 1024 := lt_of_lt_of_eq t.isLt (show cfg0.N = 1024 from N_0)
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sout0_A_0; (try dsimp only)
    have hrun := (kernelRun0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)).2.2
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0; (try dsimp only)
      have hrun := (kernelRun0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2).2.2
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply (hrun Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B_0; (try dsimp only)
      have hrun := (kernelRun0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2).2.2
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 1024 := N_0; omega), PhiA0_eq]
  iintro ⟨⟨HS0, HR⟩, Hg⟩
  isplitl [HS0 HR]
  · isplitl [HS0]
    · iexists _; iexact HS0
    iexact HR
  iexact Hg

end Cert.KernelIdeal.Hand

end
-- ==== Proof.KI.R1Runs.lean ====
/-
  Region 1 (the attention kernel proper) of the attention program, what its three control cases share.
  The grid is (64, 4, 4); the third coordinate ki selects the case: ki = 0 resets the 512x64 accumulator
  before adding this key block's product P·V, ki = 3 also copies the accumulator into the context output
  block, and ki = 1, 2 only add.  The normalised probability block P = exp(Q·Kᵀ/8)·mask / (l + ε) is stored
  whole into the attention output block at every point.  Here: a window's block read off the array the
  region finds, the two branch conditions in closed form over the linear point (t mod 4), where the context
  output window is idle, and the names of the staging and scratch memrefs the body is called with.
-/
import proofs.«136387_j50483045597399_1_alg».proof.Proof.Gen.KernelIdeal.Launch
import proofs.«136387_j50483045597399_1_alg».proof.Proof.Gen.KernelIdeal.Skeleton
import proofs.«136387_j50483045597399_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The reset branch is taken exactly when ki = 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The write-out branch is taken exactly when ki = 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where ki ≠ 3 the context output block is neither stored nor written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

abbrev ms1_0 (t : Fin cfg1.N) : Memref sig .tc .vmem S1x512x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x64 .f32 := win1_6.stage (cfg1.slots t 6)
abbrev hs1_6 (t : Fin cfg1.N) : (ms1_6 t).IsWhole := hstage1_6 ((cfg1.slots t 6).cast nbuf1_6)
/-- The accumulator: a whole scoped buffer of the kernel's own. -/
abbrev scM1_0 : Memref sig .tc .vmem S512x64 .f32 := Memref.whole cc1_scratch0
abbrev VS1_0 : View sig .tc .vmem S512x64 .f32 := scM1_0.view
abbrev VO1_5 : View sig .tc .vmem S1x512x512 .f32 := (Memref.whole cc1_stg5_0 : Memref sig .tc .vmem S1x512x512 .f32).view
abbrev VO1_6 : View sig .tc .vmem S1x512x64 .f32 := (Memref.whole cc1_stg6_0 : Memref sig .tc .vmem S1x512x64 .f32).view

/-- The scoped buffers region 1 never touches (region 0's staging buffers and accumulator), each at some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class invariant with the accumulator split off as an owned memref. -/
theorem PhiA1_eq (c : Dev nD) :
    (Pipeline.ΦA spec1 c : sProp 𝕄)
      = iprop(iprop((∃ d, owns (c : Thread nD τ) scM1_0 fullShare d) ∗ Rest1 c) ∗ (∃ r, prngReg c r)) := by
  unfold Pipeline.ΦA Rest1; rw [scopedRest1_eq]; simp only [scM1_0, owns_whole]
  refine BI.Entails.antisymm (show (_ : sProp 𝕄) ⊢ _ from ?_) (show (_ : sProp 𝕄) ⊢ _ from ?_)
  · iintro ⟨⟨H0, H1, H2, H3, H4, H5, H6, H7, H8, HS⟩, Hg⟩
    isplitr [Hg]
    · isplitl [HS]; · iexact HS
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact Hg
  · iintro ⟨⟨HS, H0, H1, H2, H3, H4, H5, H6, H7, H8⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact HS
    iexact Hg

end Cert.KernelIdeal.Hand

end
-- ==== Proof.KI.R1Run.lean ====
/-
  Region 1's body run in each of its three control cases.  In every case the five input blocks are
  read and left as they were, the attention output block ends with its one whole-block store, and the
  accumulator ends with the pieces the stores wrote into it; the context output block is handed back
  untouched where ki ≠ 3 and ends with its one whole-block store where ki = 3.
  The stored pieces are whatever the symbolic run leaves: they are the witnesses of the dependent triple.
-/
import proofs.«136387_j50483045597399_1_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- ki = 0: the accumulator, found at anything, is reset and then receives P·V of this key block; the attention block is stored whole. -/
noncomputable def kernelRun1_A (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) :
    Σ' (L5 : List (View.Piece (Elt F) S1x512x512 .f32)) (L6 : List (View.Piece (Elt F) S1x512x64 .f32)), { LS0 : List (View.Piece (Elt F) S512x64 .f32) //
      ∀ (xi6 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨?_, [], ?_, fun xi6 E K => ?run⟩
  case run =>
    simp only [cc1__main_kernel_eq_skeleton]; unfold cc1__main_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _; isplitr; · ipureintro; exact harg9.read_unread _
      iexact H6
    iexists _; iexact HS0

set_option maxHeartbeats 2000000 in
/-- ki = 1, 2: the accumulator, found at what the point before left, receives P·V of this key block; the attention block is stored whole. -/
noncomputable def kernelRun1_B (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) :
    Σ' (L5 : List (View.Piece (Elt F) S1x512x512 .f32)) (L6 : List (View.Piece (Elt F) S1x512x64 .f32)), { LS0 : List (View.Piece (Elt F) S512x64 .f32) //
      ∀ (xi6 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨?_, [], ?_, fun xi6 E K => ?run⟩
  case run =>
    simp only [cc1__main_kernel_eq_skeleton]; unfold cc1__main_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _; isplitr; · ipureintro; exact harg9.read_unread _
      iexact H6
    iexists _; iexact HS0

set_option maxHeartbeats 2000000 in
/-- ki = 3: as ki = 1, 2, and then the accumulator is copied into the context output block, found at anything. -/
noncomputable def kernelRun1_C (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) :
    Σ' (L5 : List (View.Piece (Elt F) S1x512x512 .f32)) (L6 : List (View.Piece (Elt F) S1x512x64 .f32)), { LS0 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9 arg10 harg10) K } := by
  refine ⟨?_, ?_, ?_, fun E K => ?run⟩
  case run =>
    simp only [cc1__main_kernel_eq_skeleton]; unfold cc1__main_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; iexact HS0

end Cert.KernelIdeal.Hand

end
-- ==== Proof.KI.R1Data.lean ====
/-
  Region 1's proof data.  After the body at point t the attention output block holds the normalised
  probability block P = exp(Q·Kᵀ/8)·mask / (l + ε) of the point's (head, query block, key block), and the
  accumulator holds the sum of P·V over the key blocks 0 … ki of the point's (head, query block) — by recursion
  on the point: a point with ki = 0 starts from the reset, every other from what the point before left — and,
  where ki = 3, the context output block holds a copy of it.  The invariant between points carries the
  accumulator at those contents; the body obligation is the case's run at the point's memrefs and blocks.
-/
import proofs.«136387_j50483045597399_1_alg».proof.Proof.KI.R1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A: the pieces written into the accumulator tile it. -/
theorem scover1_A_0 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) (y : S512x64.Idx) :
    ∃ pc ∈ (kernelRun1_A c i arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4).2.2.1 S512x64.size (by sl_kernel_rfl) y

/-- What case a leaves in the accumulator: its pieces read back. -/
def sout1_A_0 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) : Vec F S512x64 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3 x4).2.2.1)

/-- Case A: the one store into the attention output block covers it. -/
theorem cover1_A_5 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) (y : S1x512x512.Idx) :
    ∃ pc ∈ (kernelRun1_A c i arg3 harg3 arg4 harg4 arg5 harg5 arg6 harg6 arg7 harg7 arg8 harg8 arg9 harg9 arg10 harg10 hc0 hc1 x0 x1 x2 x3 x4).1, y ∈ pc.1.set :=
  View.cover_of_tiledL (kernelRun1_A c i arg3 harg3 arg4 harg4 arg5 harg5 arg6 harg6 arg7 harg7 arg8 harg8 arg9 harg9 arg10 harg10 hc0 hc1 x0 x1 x2 x3 x4).1 S1x512x512.size (by sl_kernel_rfl) y

/-- What case a leaves in the attention output block. -/
def out1_A_5 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) : Vec F S1x512x512 .f32 :=
  VO1_5.read (Elt F) (VO1_5.writes (Elt F) VO1_5.junk (kernelRun1_A c i arg3 harg3 arg4 harg4 arg5 harg5 arg6 harg6 arg7 harg7 arg8 harg8 arg9 harg9 arg10 harg10 hc0 hc1 x0 x1 x2 x3 x4).1)

/-- What case a leaves in the context output block (nothing is stored: a placeholder no one reads, the window being idle there). -/
def out1_A_6 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) : Vec F S1x512x64 .f32 :=
  VO1_6.read (Elt F) (VO1_6.writes (Elt F) VO1_6.junk (kernelRun1_A c i arg3 harg3 arg4 harg4 arg5 harg5 arg6 harg6 arg7 harg7 arg8 harg8 arg9 harg9 arg10 harg10 hc0 hc1 x0 x1 x2 x3 x4).2.1)

/-- Case B: the pieces written into the accumulator tile it. -/
theorem scover1_B_0 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) (y : S512x64.Idx) :
    ∃ pc ∈ (kernelRun1_B c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 xs0).2.2.1 S512x64.size (by sl_kernel_rfl) y

/-- What case b leaves in the accumulator: its pieces read back. -/
def sout1_B_0 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) : Vec F S512x64 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 x4 xs0).2.2.1)

/-- Case B: the one store into the attention output block covers it. -/
theorem cover1_B_5 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) (y : S1x512x512.Idx) :
    ∃ pc ∈ (kernelRun1_B c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun1_B c i arg3 harg3 arg4 harg4 arg5 harg5 arg6 harg6 arg7 harg7 arg8 harg8 arg9 harg9 arg10 harg10 hc0 hc1 x0 x1 x2 x3 x4 xs0).1 S1x512x512.size (by sl_kernel_rfl) y

/-- What case b leaves in the attention output block. -/
def out1_B_5 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) : Vec F S1x512x512 .f32 :=
  VO1_5.read (Elt F) (VO1_5.writes (Elt F) VO1_5.junk (kernelRun1_B c i arg3 harg3 arg4 harg4 arg5 harg5 arg6 harg6 arg7 harg7 arg8 harg8 arg9 harg9 arg10 harg10 hc0 hc1 x0 x1 x2 x3 x4 xs0).1)

/-- What case b leaves in the context output block (nothing is stored: a placeholder no one reads, the window being idle there). -/
def out1_B_6 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) : Vec F S1x512x64 .f32 :=
  VO1_6.read (Elt F) (VO1_6.writes (Elt F) VO1_6.junk (kernelRun1_B c i arg3 harg3 arg4 harg4 arg5 harg5 arg6 harg6 arg7 harg7 arg8 harg8 arg9 harg9 arg10 harg10 hc0 hc1 x0 x1 x2 x3 x4 xs0).2.1)

/-- Case C: the pieces written into the accumulator tile it. -/
theorem scover1_C_0 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) (y : S512x64.Idx) :
    ∃ pc ∈ (kernelRun1_C c i arg3 harg3 arg4 harg4 arg5 harg5 arg6 harg6 arg7 harg7 arg8 harg8 arg9 harg9 arg10 harg10 hc0 hc1 x0 x1 x2 x3 x4 xs0).2.2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0).2.2.1 S512x64.size (by sl_kernel_rfl) y

/-- What case c leaves in the accumulator: its pieces read back. -/
def sout1_C_0 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) : Vec F S512x64 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 x4 xs0).2.2.1)

/-- Case C: the one store into the attention output block covers it. -/
theorem cover1_C_5 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) (y : S1x512x512.Idx) :
    ∃ pc ∈ (kernelRun1_C c i arg3 harg3 arg4 harg4 arg5 harg5 arg6 harg6 arg7 harg7 arg8 harg8 arg9 harg9 arg10 harg10 hc0 hc1 x0 x1 x2 x3 x4 xs0).1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0).1 S1x512x512.size (by sl_kernel_rfl) y

/-- What case c leaves in the attention output block. -/
def out1_C_5 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) : Vec F S1x512x512 .f32 :=
  VO1_5.read (Elt F) (VO1_5.writes (Elt F) VO1_5.junk (kernelRun1_C c i arg3 harg3 arg4 harg4 arg5 harg5 arg6 harg6 arg7 harg7 arg8 harg8 arg9 harg9 arg10 harg10 hc0 hc1 x0 x1 x2 x3 x4 xs0).1)

/-- Case C: the one store into the context output block covers it. -/
theorem cover1_C_6 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) (y : S1x512x64.Idx) :
    ∃ pc ∈ (kernelRun1_C c i arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 arg10 harg10 hc0 hc1 x0 x1 x2 x3 x4 xs0).2.1 S1x512x64.size (by sl_kernel_rfl) y

/-- What case C leaves in the context output block. -/
def out1_C_6 (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) : Vec F S1x512x64 .f32 :=
  VO1_6.read (Elt F) (VO1_6.writes (Elt F) VO1_6.junk (kernelRun1_C c i arg3 harg3 arg4 harg4 arg5 harg5 arg6 harg6 arg7 harg7 arg8 harg8 arg9 harg9 arg10 harg10 hc0 hc1 x0 x1 x2 x3 x4 xs0).2.1)

/-! ## What the two output blocks and the accumulator hold after each point -/

/-- The attention output block's staging buffer, the context output block's staging buffer and the accumulator
    after the body at position `n`: the case the closed forms select, run at the point's memrefs and input blocks,
    the accumulator found at what position `n - 1` left. -/
def outsAt1 (c : Dev nD) : (n : ℕ) → n < cfg1.N → Vec F S1x512x512 .f32 × Vec F S1x512x64 .f32 × Vec F S512x64 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2, out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2)

theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2, out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the class's own (every scoped buffer at anything);
    afterwards the accumulator at what the point before left, the other scoped buffers at anything, the generator
    register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2) ∗ Rest1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2) ∗ Rest1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2) ∗ Rest1 c) ∗ (∃ r, prngReg c r)) := by
  cases n with
  | zero => exact absurd rfl hz
  | succ n => rfl

/-! ## The proof data -/

/-- Region 1's proof data on core `c`: the arrays as the region finds them; after the body each input's buffer
    at its block, the attention output's at `outsAt1`'s first component and the context output's at its second;
    the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at any position, as `PhiS1` there. -/
theorem Phi_eq1 (c : Dev nD) (t : Fin (cfg1.N + 1)) : (dat1 V c).Φ t = PhiS1 V c t.val (Nat.le_of_lt_succ t.isLt) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]
/-- The attention output block is stored at every point: its buffer is left at the point's contents. -/
theorem leaves1_5 (c : Dev nD) (t : Fin cfg1.N) : (dat1 V c).leavesExact 5 t = owns (c : Thread nD τ) (ms1_5 t) fullShare ((outsAt1 V c t.val t.isLt).1) := by
  unfold Dat.leavesExact; rw [liveAt1_5 t, after1_5]

set_option maxHeartbeats 4800000 in
/-- The body at any point: the closed forms say which case the point is in; the invariant hands the run the accumulator
    (at anything where ki = 0, at what the point before left elsewhere) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5]
  have hN : t.val < 1024 := lt_of_lt_of_eq t.isLt (show cfg1.N = 1024 from N_1)
  by_cases h0 : t.val % 4 = 0
  · have h1 : ¬t.val % 4 = 3 := by omega
    rw [Dat.leavesExact_idle (dat1 V c) 6 t (idleAt1_6 t (fun h => h1 ((hcond1_1 t).mp h))) (noFlush1_6 t (fun h => h1 ((hcond1_1 t).mp h)))]
    rw [outsAt1_A V c t h0 h1]
    unfold out1_A_5 sout1_A_0; (try dsimp only)
    have hrun := (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply (hrun _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _)
      iexists _; iexact H6
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply (hrun _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexists _; iexact HS0
      iintro ⟨H0, H1, H2, H3, H4, ⟨%e5, H5⟩, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_A_5 c _ _ _ _ _ _ _ _ _ _ _ _ _ _ _ _ _ _ _ _ _ _ _ _)
      iexists _; iexact H6
  · have hz : t.val ≠ 0 := by omega
    by_cases h1 : t.val % 4 = 3
    · rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_5 out1_C_6 sout1_C_0; (try dsimp only)
      have hrun := (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2).2.2.2
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply (hrun Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_C_5 c _ _ _ _ _ _ _ _ _ _ _ _ _ _ _ _ _ _ _ _ _ _ _ _ _)
      unfold owns; iexists _; isplitr
      swap; · iexact H6
      ipureintro; exact View.read_writes_of_cover _ _ _ _ _ (cover1_C_6 c _ _ _ _ _ _ _ _ _ _ _ _ _ _ _ _ _ _ _ _ _ _ _ _ _)
    · rw [Dat.leavesExact_idle (dat1 V c) 6 t (idleAt1_6 t (fun h => h1 ((hcond1_1 t).mp h))) (noFlush1_6 t (fun h => h1 ((hcond1_1 t).mp h)))]
      rw [outsAt1_B V c t h0 h1]
      unfold out1_B_5 sout1_B_0; (try dsimp only)
      have hrun := (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2).2.2.2
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩⟩
      iapply (hrun _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover1_B_5 c _ _ _ _ _ _ _ _ _ _ _ _ _ _ _ _ _ _ _ _ _ _ _ _ _)
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [Phi_eq1 V c (Fin.last cfg1.N),
    PhiS1_pos V c _ _ (by rw [Fin.val_last]; have : cfg1.N = 1024 := N_1; omega), PhiA1_eq]
  iintro ⟨⟨HS0, HR⟩, Hg⟩
  isplitl [HS0 HR]
  · isplitl [HS0]
    · iexists _; iexact HS0
    iexact HR
  iexact Hg

end Cert.KernelIdeal.Hand

end
-- ==== Proof.KI.Main.lean ====
/-
  The whole program's run.  @main is: four reshapes (the three (4,16,2048,64) inputs to (64,2048,64), the mask to
  (2048,2048)), the row-sum region, the main region, two reshapes of the results back.  The buffer contents at each
  boundary are a fold from the launch memory: a host stretch applies its operations, a region replaces its windows'
  arrays by what its write-backs leave.  Each region is a segment whose thread state is "every unscoped buffer at the
  boundary's contents, the generator register at some state, nothing owed"; the launch over the four segments ends
  with every unscoped buffer at the last boundary's contents, whence the frame: no item writes an argument.
-/
import proofs.«136387_j50483045597399_1_alg».proof.Proof.KI.R0Data
import proofs.«136387_j50483045597399_1_alg».proof.Proof.KI.R1Data
import proofs.«136387_j50483045597399_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After the four reshapes (the row-sum region's entry). -/
abbrev W1 : Dev nD → Valuation τ sig (Elt F) := fun c => StableHlo.after hostOps0 (W0 m c)
abbrev VV1 : (c : Dev nD) → (b : Ref sig .tc) → Buf (Elt F) ((c : Thread nD τ).loc b) := fun c b => W1 m c b
/-- After the row-sum region: its arrays at what the pipeline leaves, every other buffer as entered. -/
def W2 (c : Dev nD) : Valuation τ sig (Elt F) :=
  Pipeline.withArrays spec0 c (W1 m c) fun w => (dat0 (VV1 m) c).arrAt w cfg0.N
theorem W2_arr (c : Dev nD) (w : Fin cfg0.W) :
    W2 m c (Proc.devRef .tc (Pipeline.arrRef spec0 w)) = (dat0 (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)
/-- After the main region. -/
def W3 (c : Dev nD) : Valuation τ sig (Elt F) :=
  Pipeline.withArrays spec1 c (W2 m c) fun w => (dat1 (VV2 m) c).arrAt w cfg1.N
theorem W3_arr (c : Dev nD) (w : Fin cfg1.W) :
    W3 m c (Proc.devRef .tc (Pipeline.arrRef spec1 w)) = (dat1 (VV2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VV3 : (c : Dev nD) → (b : Ref sig .tc) → Buf (Elt F) ((c : Thread nD τ).loc b) := fun c b => W3 m c b
theorem hF1 (c : Dev nD) (w : Fin cfg1.W) : (dat1 (VV2 m) c).arrAt w cfg1.N = VV3 m c (Pipeline.arrRef spec1 w) :=
  (W3_arr m c w).symm
theorem hrest1 (c : Dev nD) : ∀ b, b ∉ Finset.univ.image (Pipeline.arrRef spec1) → VV3 m c b = VV2 m c b :=
  fun b hb => W3_of_ne m c b fun w e => hb (Finset.mem_image.mpr ⟨w, Finset.mem_univ _, e⟩)
/-- After the two closing reshapes. -/
abbrev W4 : Dev nD → Valuation τ sig (Elt F) := fun c => StableHlo.after hostOps2 (W3 m c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VV1 m) c
  | ⟨1, _⟩ => fun c => dat1 (VV2 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered with every unscoped buffer at `W1`, left with them at `W2`.
    Its arrays are split out of the unscoped buffers and put back at their exit contents; the generator register
    goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have key : Pipeline.ΦA spec0 c ⊢ (pdats m 0 c).Φ 0 := hin0 (VV1 m) c
    iintro ⟨Hp, -, Hr⟩
    iapply key
    unfold Pipeline.ΦA
    isplitl [Hr]; · iexact Hr
    iexact Hp
  hout c := by
    rw [Pipeline.ownSems0_none]
    have key : (pdats m 0 c).Φ (Fin.last _) ⊢ Pipeline.ΦA spec0 c := hout0 (VV1 m) c
    unfold Pipeline.ΦA at key
    iintro H
    ihave H2 := key $$ H
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`.
    Its arrays are split out of the unscoped buffers and put back at their exit contents; the generator register
    goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have key : Pipeline.ΦA spec1 c ⊢ (pdats m 1 c).Φ 0 := hin1 (VV2 m) c
    iintro ⟨Hp, -, Hr⟩
    iapply key
    unfold Pipeline.ΦA
    isplitl [Hr]; · iexact Hr
    iexact Hp
  hout c := by
    rw [Pipeline.ownSems0_none]
    have key : (pdats m 1 c).Φ (Fin.last _) ⊢ Pipeline.ΦA spec1 c := hout1 (VV2 m) c
    unfold Pipeline.ΦA at key
    iintro H
    ihave H2 := key $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV2 m c) (VV3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- Every weakly fair execution of @main from memory `m` with zero counters terminates, and in every final state each
    unscoped buffer of core `c` holds the last boundary's contents `W4 m c`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m ρ)

end Cert.KernelIdeal.Hand

end
-- ==== Proof.Spec.lean ====
/-
  The attention kernel's mathematics over the extended reals, on the flattened arrays the two regions work on:
  Q, K, V of shape (64, 2048, 64) (head-batch, position, feature) and the mask of shape (2048, 2048).
    score(bh, q, k) = exp((Σ_d Q[bh,q,d]·K[bh,k,d]) · 1/8) · mask[q,k]
    rowsum(bh, q)   = Σ_k score(bh, q, k)
    attn(bh, q, k)  = score(bh, q, k) / (rowsum(bh, q) + ε)
    ctx(bh, q, d)   = Σ_k attn(bh, q, k) · V[bh,k,d]
  1/8 and ε are the two float words the programs spell (an exact dyadic, and the float nearest 1e-8); the quotient is
  the extended reals' total division.  Sums over the 2048 keys split into four blocks of 512: addition on the
  extended reals is commutative and associative, so no finiteness is needed.
-/
import Idealize.ShloMosaic.PureOps.Ideal
import Idealize.ShloMosaic.PureOps.Ideal.Laws
import Idealize.ShloMosaic.Lib.ValueIdx

noncomputable section

namespace Cert.AttnSpec

open Idealize.ShloMosaic Idealize.ShloMosaic.ValueIdx

/-- A (64, 2048, 64) array of extended reals. -/
abbrev A3 : Type := (⟨3, ![64, 2048, 64]⟩ : Shape).Idx → EReal
/-- A (2048, 2048) array of extended reals. -/
abbrev A2 : Type := (⟨2, ![2048, 2048]⟩ : Shape).Idx → EReal

/-- The scale 1/8, as the word both programs spell. -/
def c8 : EReal := Ideal.ofBits .f32 0x3E000000#32
/-- The normaliser's ε, as the word both programs spell. -/
def eps : EReal := Ideal.ofBits .f32 0x322BCC77#32

def score (Q K : A3) (M : A2) (bh : Fin 64) (q k : Fin 2048) : EReal :=
  Ideal.exp ((∑ d : Fin 64, Q (ix3 bh q d) * K (ix3 bh k d)) * c8) * M (ix2 q k)

def rowsum (Q K : A3) (M : A2) (bh : Fin 64) (q : Fin 2048) : EReal :=
  ∑ k : Fin 2048, score Q K M bh q k

def attn (Q K : A3) (M : A2) (bh : Fin 64) (q k : Fin 2048) : EReal :=
  Ideal.div (score Q K M bh q k) (rowsum Q K M bh q + eps)

def ctx (Q K Vv : A3) (M : A2) (bh : Fin 64) (q : Fin 2048) (d : Fin 64) : EReal :=
  ∑ k : Fin 2048, attn Q K M bh q k * Vv (ix3 bh k d)

/-- A (4, 16, 2048, 64) array (batch, head, position, feature). -/
abbrev A4 : Type := (⟨4, ![4, 16, 2048, 64]⟩ : Shape).Idx → EReal
/-- The (1, 1, 2048, 2048) mask as the programs receive it. -/
abbrev M4 : Type := (⟨4, ![1, 1, 2048, 2048]⟩ : Shape).Idx → EReal

/-- Head-batch number 16·b + h of batch `b`, head `h`: the row-major flattening of the two leading axes. -/
def bhOf (b : Fin 4) (h : Fin 16) : Fin 64 := ⟨16 * b.val + h.val, by omega⟩

/-- The (4, 16, 2048, 64) array read as (64, 2048, 64): head-batch `bh` is batch `bh / 16`, head `bh % 16`. -/
def flat3 (x : A4) : A3 := fun j =>
  x (ix4 (⟨(j 0).val / 16, by have := (j 0).isLt; change (j 0).val < 64 at this; omega⟩ : Fin 4) (⟨(j 0).val % 16, Nat.mod_lt _ (by decide)⟩ : Fin 16)
    (⟨(j 1).val, (j 1).isLt⟩ : Fin 2048) (⟨(j 2).val, (j 2).isLt⟩ : Fin 64))

/-- The mask read as (2048, 2048). -/
def flatM (x : M4) : A2 := fun j =>
  x (ix4 (0 : Fin 1) (0 : Fin 1) (⟨(j 0).val, (j 0).isLt⟩ : Fin 2048) (⟨(j 1).val, (j 1).isLt⟩ : Fin 2048))

theorem flat3_bhOf (x : A4) (b : Fin 4) (h : Fin 16) (q : Fin 2048) (d : Fin 64) :
    flat3 x (ix3 (bhOf b h) q d) = x (ix4 b h q d) := by
  unfold flat3 bhOf
  refine congrArg x (funext fun a => Fin.ext ?_)
  match a with
  | ⟨0, _⟩ => show (16 * b.val + h.val) / 16 = b.val; omega
  | ⟨1, _⟩ => show (16 * b.val + h.val) % 16 = h.val; omega
  | ⟨2, _⟩ => rfl
  | ⟨3, _⟩ => rfl

/-- Key `k'` of block `j`. -/
def key (j : Fin 4) (k' : Fin 512) : Fin 2048 := ⟨k'.val + 512 * j.val, by omega⟩

/-- A sum over the 2048 keys is the sum over the four blocks of the sums over each block's 512 keys. -/
theorem sum_blocks (f : Fin 2048 → EReal) : ∑ k : Fin 2048, f k = ∑ j : Fin 4, ∑ k' : Fin 512, f (key j k') := by
  rw [← (finProdFinEquiv (m := 4) (n := 512)).sum_comp (f : Fin (4 * 512) → EReal), Fintype.sum_prod_type]
  rfl

/-- The sum over the first `n` blocks, folded one block at a time from zero: what an accumulator reset at block 0 holds. -/
theorem sum_four (s : Fin 4 → EReal) : ∑ j : Fin 4, s j = (((0 + s 0) + s 1) + s 2) + s 3 := by
  rw [Fin.sum_univ_four, zero_add]

end Cert.AttnSpec

end
-- ==== Proof.RefSpec.lean ====
/-
  The reference program at the ideal values is the specification: its normalised score array (the quotient of the
  masked exponential score by the row sum plus ε) read at (b, h, q, k) is attn at head-batch 16·b + h, and its
  result read at (b, h, q, d) is ctx there.  Each stage is read at an index of explicit coordinates; the index
  functions of the contraction, the reduction and the broadcasts are identified with indices built from
  coordinates, and the flattening of the two leading axes is undone by flat3_bhOf.
-/
import proofs.«136387_j50483045597399_1_alg».proof.Proof.Gen.ReferenceIdeal.Read
import proofs.«136387_j50483045597399_1_alg».proof.Proof.Spec
import Idealize.ShloMosaic.PureOps.Ideal
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The index functions at explicit coordinates -/

/-- The first contraction reads Q at (b, h, q, d). -/
theorem lidx0_ix (b : Fin 4) (h : Fin 16) (q k : Fin 2048) (d : Fin 64) :
    lidx_main_v0 (ix4 b h q k) d = ix4 b h q d :=
  funext fun a => Fin.ext (by match a with | ⟨0, _⟩ => rfl | ⟨1, _⟩ => rfl | ⟨2, _⟩ => rfl | ⟨3, _⟩ => rfl)

/-- The first contraction reads K at (b, h, k, d). -/
theorem ridx0_ix (b : Fin 4) (h : Fin 16) (q k : Fin 2048) (d : Fin 64) :
    ridx_main_v0 (ix4 b h q k) d = ix4 b h k d :=
  funext fun a => Fin.ext (by match a with | ⟨0, _⟩ => rfl | ⟨1, _⟩ => rfl | ⟨2, _⟩ => rfl | ⟨3, _⟩ => rfl)

/-- The mask is read at (0, 0, q, k). -/
theorem idx4_ix (b : Fin 4) (h : Fin 16) (q k : Fin 2048) :
    idx_main_v4 (ix4 b h q k) = ix4 (0 : Fin 1) (0 : Fin 1) q k :=
  funext fun a => Fin.ext (by match a with | ⟨0, _⟩ => rfl | ⟨1, _⟩ => rfl | ⟨2, _⟩ => rfl | ⟨3, _⟩ => rfl)

/-- The row sum at (b, h, q) runs over the scores at (b, h, q, k). -/
theorem idx6_ix (b : Fin 4) (h : Fin 16) (q k : Fin 2048) :
    idx_main_v6 (ix3 b h q) k = ix4 b h q k :=
  funext fun a => Fin.ext (by match a with | ⟨0, _⟩ => rfl | ⟨1, _⟩ => rfl | ⟨2, _⟩ => rfl | ⟨3, _⟩ => rfl)

/-- The two broadcasts of the row sum read it at (b, h, q). -/
theorem idx7_10_ix (b : Fin 4) (h : Fin 16) (q k : Fin 2048) :
    idx_main_v7 (idx_main_v10 (ix4 b h q k)) = ix3 b h q :=
  funext fun a => Fin.ext (by match a with | ⟨0, _⟩ => rfl | ⟨1, _⟩ => rfl | ⟨2, _⟩ => rfl)

/-- The second contraction reads the normalised scores at (b, h, q, k). -/
theorem lidx12_ix (b : Fin 4) (h : Fin 16) (q : Fin 2048) (d : Fin 64) (k : Fin 2048) :
    lidx_main_v12 (ix4 b h q d) k = ix4 b h q k :=
  funext fun a => Fin.ext (by match a with | ⟨0, _⟩ => rfl | ⟨1, _⟩ => rfl | ⟨2, _⟩ => rfl | ⟨3, _⟩ => rfl)

/-- The second contraction reads V at (b, h, k, d). -/
theorem ridx12_ix (b : Fin 4) (h : Fin 16) (q : Fin 2048) (d : Fin 64) (k : Fin 2048) :
    ridx_main_v12 (ix4 b h q d) k = ix4 b h k d :=
  funext fun a => Fin.ext (by match a with | ⟨0, _⟩ => rfl | ⟨1, _⟩ => rfl | ⟨2, _⟩ => rfl | ⟨3, _⟩ => rfl)

/-- The mask read as (2048, 2048) at (q, k) is the mask at (0, 0, q, k). -/
theorem flatM_ix (x : AttnSpec.M4) (q k : Fin 2048) :
    AttnSpec.flatM x (ix2 q k) = x (ix4 (0 : Fin 1) (0 : Fin 1) q k) := rfl

/-! ## The stages -/

/-- The masked exponential score. -/
theorem ref_score (x0 x1 : (⟨S4x16x2048x64, .f32⟩ : BufTy).Contents (Elt Ideal))
    (x3 : (⟨S1x1x2048x2048, .f32⟩ : BufTy).Contents (Elt Ideal)) (b : Fin 4) (h : Fin 16) (q k : Fin 2048) :
    Cert.ReferenceIdeal.Read.val_main_v5 (F := Ideal) x0 x1 x3 (ValueIdx.ix4 b h q k)
      = AttnSpec.score (AttnSpec.flat3 x0) (AttnSpec.flat3 x1) (AttnSpec.flatM x3) (AttnSpec.bhOf b h) q k := by
  rw [val_main_v5_apply, val_main_v3_apply, val_main_v2_apply, val_main_v0_apply, val_main_v1_apply,
    val_main_cst_apply, val_main_v4_apply]
  simp only [lidx0_ix, ridx0_ix, idx4_ix, Ideal.mulf_def, Ideal.hostUnary_exp_def, Ideal.ofBits_def]
  unfold AttnSpec.score AttnSpec.c8
  simp only [AttnSpec.flat3_bhOf, flatM_ix]

/-- The row sum. -/
theorem ref_rowsum (x0 x1 : (⟨S4x16x2048x64, .f32⟩ : BufTy).Contents (Elt Ideal))
    (x3 : (⟨S1x1x2048x2048, .f32⟩ : BufTy).Contents (Elt Ideal)) (b : Fin 4) (h : Fin 16) (q : Fin 2048) :
    Cert.ReferenceIdeal.Read.val_main_v6 (F := Ideal) x0 x1 x3 (ValueIdx.ix3 b h q)
      = AttnSpec.rowsum (AttnSpec.flat3 x0) (AttnSpec.flat3 x1) (AttnSpec.flatM x3) (AttnSpec.bhOf b h) q := by
  rw [val_main_v6_apply, val_main_cst_0_apply]
  simp only [idx6_ix, ref_score, Ideal.ofBits_def, Ideal.ofBits_zero_f32, zero_add]
  rfl

/-- The normalised scores are the specification's attention weights. -/
theorem ref_attn (x0 x1 : (⟨S4x16x2048x64, .f32⟩ : BufTy).Contents (Elt Ideal))
    (x3 : (⟨S1x1x2048x2048, .f32⟩ : BufTy).Contents (Elt Ideal)) (b : Fin 4) (h : Fin 16) (q k : Fin 2048) :
    Cert.ReferenceIdeal.Read.val_main_v11 (F := Ideal) x0 x1 x3 (ValueIdx.ix4 b h q k)
      = AttnSpec.attn (AttnSpec.flat3 x0) (AttnSpec.flat3 x1) (AttnSpec.flatM x3) (AttnSpec.bhOf b h) q k := by
  rw [val_main_v11_apply, val_main_v10_apply, val_main_v9_apply, val_main_v7_apply, val_main_v8_apply,
    val_main_cst_1_apply, idx7_10_ix, ref_score, ref_rowsum]
  simp only [Ideal.hostDivf_def, Ideal.addf_def, Ideal.ofBits_def]
  rfl

/-- The reference's result is the specification's context. -/
theorem ref_ctx (x0 x1 x2 : (⟨S4x16x2048x64, .f32⟩ : BufTy).Contents (Elt Ideal))
    (x3 : (⟨S1x1x2048x2048, .f32⟩ : BufTy).Contents (Elt Ideal)) (b : Fin 4) (h : Fin 16) (q : Fin 2048) (d : Fin 64) :
    Cert.ReferenceIdeal.Read.val_main_v12 (F := Ideal) x0 x1 x2 x3 (ValueIdx.ix4 b h q d)
      = AttnSpec.ctx (AttnSpec.flat3 x0) (AttnSpec.flat3 x1) (AttnSpec.flat3 x2) (AttnSpec.flatM x3) (AttnSpec.bhOf b h) q d := by
  rw [val_main_v12_apply]
  simp only [lidx12_ix, ridx12_ix, ref_attn]
  unfold AttnSpec.ctx
  simp only [AttnSpec.flat3_bhOf]

end Cert.ReferenceIdeal.RefValue

end
-- ==== Proof.KI.Host.lean ====
/-
  The host stages around the two regions, read at an index.  Before the regions the three (4, 16, 2048, 64) inputs
  are reshaped to (64, 2048, 64) and the (1, 1, 2048, 2048) mask to (2048, 2048); after them the two results are
  reshaped back, (64, 2048, 64) to (4, 16, 2048, 64) and (64, 2048, 2048) to (4, 16, 2048, 2048).  A reshape keeps
  the row-major position, so element (b, h, q, d) of the four-axis array is element (16·b + h, q, d) of the
  three-axis one, and element (0, 0, q, k) of the mask is element (q, k).
-/
import proofs.«136387_j50483045597399_1_alg».proof.Proof.Gen.KernelIdeal.Launch
import proofs.«136387_j50483045597399_1_alg».proof.Proof.Spec
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo

/-! ## The reshapes as maps of indices (any element type) -/

section Casts
variable {α : Type}

/-- (4, 16, 2048, 64) cast to (64, 2048, 64), read at `j`: batch `j₀ / 16`, head `j₀ % 16`, the rest as they are. -/
theorem shapeCast_4x16_64_apply {n e : ℕ} (x : (⟨4, ![4, 16, n, e]⟩ : Shape).Idx → α)
    (h : (⟨4, ![4, 16, n, e]⟩ : Shape).ShapeCasts ⟨3, ![64, n, e]⟩) (j : (⟨3, ![64, n, e]⟩ : Shape).Idx) :
    shapeCast ⟨3, ![64, n, e]⟩ x h j
      = x (ix4 (⟨(j 0).val / 16, by have := (j 0).isLt; change (j 0).val < 64 at this; omega⟩ : Fin 4)
            (⟨(j 0).val % 16, Nat.mod_lt _ (by decide)⟩ : Fin 16) (⟨(j 1).val, (j 1).isLt⟩ : Fin n) (⟨(j 2).val, (j 2).isLt⟩ : Fin e)) :=
  shapeCast_apply x h j _ (by
    rw [Shape.rowMajor_val_four, Shape.rowMajor_val_three]
    show (((j 0).val / 16 * 16 + (j 0).val % 16) * n + (j 1).val) * e + (j 2).val = ((j 0).val * n + (j 1).val) * e + (j 2).val
    rw [Nat.div_add_mod' (j 0).val 16])

/-- (64, n, e) cast to (4, 16, n, e), read at (b, h, q, d): the operand at (16·b + h, q, d). -/
theorem shapeCast_64_4x16_apply {n e : ℕ} (x : (⟨3, ![64, n, e]⟩ : Shape).Idx → α)
    (hc : (⟨3, ![64, n, e]⟩ : Shape).ShapeCasts ⟨4, ![4, 16, n, e]⟩) (b : Fin 4) (h : Fin 16) (q : Fin n) (d : Fin e) :
    shapeCast ⟨4, ![4, 16, n, e]⟩ x hc (ix4 b h q d) = x (ix3 (AttnSpec.bhOf b h) q d) :=
  shapeCast_apply x hc _ _ (by
    rw [Shape.rowMajor_val_four, Shape.rowMajor_val_three]
    show ((16 * b.val + h.val) * n + q.val) * e + d.val = ((b.val * 16 + h.val) * n + q.val) * e + d.val
    rw [Nat.mul_comm 16 b.val])

/-- (1, 1, n, n') cast to (n, n'), read at `j`: the operand at (0, 0, j₀, j₁). -/
theorem shapeCast_1x1_apply {n n' : ℕ} (x : (⟨4, ![1, 1, n, n']⟩ : Shape).Idx → α)
    (h : (⟨4, ![1, 1, n, n']⟩ : Shape).ShapeCasts ⟨2, ![n, n']⟩) (j : (⟨2, ![n, n']⟩ : Shape).Idx) :
    shapeCast ⟨2, ![n, n']⟩ x h j
      = x (ix4 (0 : Fin 1) (0 : Fin 1) (⟨(j 0).val, (j 0).isLt⟩ : Fin n) (⟨(j 1).val, (j 1).isLt⟩ : Fin n')) :=
  shapeCast_apply x h j _ (by
    rw [Shape.rowMajor_val_four, Shape.rowMajor_val_two]
    show ((0 * 1 + 0) * n + (j 0).val) * n' + (j 1).val = (j 0).val * n' + (j 1).val
    simp only [Nat.zero_mul, Nat.zero_add])

end Casts

/-! ## Before the regions -/

variable (W : Valuation τ sig (Elt Ideal))

/-- The first input, flattened. -/
theorem host0_v0 :
    ((StableHlo.after (hostOps0 (F := Ideal)) W) (Proc.devRef .tc main_v0) : S64x2048x64.Idx → EReal)
      = AttnSpec.flat3 (W (Proc.devRef .tc main_arg0)) := by
  have e : ((StableHlo.after (hostOps0 (F := Ideal)) W) (Proc.devRef .tc main_v0) : S64x2048x64.Idx → EReal)
      = shapeCast S64x2048x64 (W (Proc.devRef .tc main_arg0) : S4x16x2048x64.Idx → EReal) shapeCasts_S4x16x2048x64_S64x2048x64 := by
    dsimp only [hostOps0]; after_results; rfl
  rw [e]
  funext j
  exact shapeCast_4x16_64_apply _ _ j

/-- The second input, flattened. -/
theorem host0_v1 :
    ((StableHlo.after (hostOps0 (F := Ideal)) W) (Proc.devRef .tc main_v1) : S64x2048x64.Idx → EReal)
      = AttnSpec.flat3 (W (Proc.devRef .tc main_arg1)) := by
  have e : ((StableHlo.after (hostOps0 (F := Ideal)) W) (Proc.devRef .tc main_v1) : S64x2048x64.Idx → EReal)
      = shapeCast S64x2048x64 (W (Proc.devRef .tc main_arg1) : S4x16x2048x64.Idx → EReal) shapeCasts_S4x16x2048x64_S64x2048x64 := by
    dsimp only [hostOps0]; after_results; rfl
  rw [e]
  funext j
  exact shapeCast_4x16_64_apply _ _ j

/-- The third input, flattened. -/
theorem host0_v2 :
    ((StableHlo.after (hostOps0 (F := Ideal)) W) (Proc.devRef .tc main_v2) : S64x2048x64.Idx → EReal)
      = AttnSpec.flat3 (W (Proc.devRef .tc main_arg2)) := by
  have e : ((StableHlo.after (hostOps0 (F := Ideal)) W) (Proc.devRef .tc main_v2) : S64x2048x64.Idx → EReal)
      = shapeCast S64x2048x64 (W (Proc.devRef .tc main_arg2) : S4x16x2048x64.Idx → EReal) shapeCasts_S4x16x2048x64_S64x2048x64 := by
    dsimp only [hostOps0]; after_results; rfl
  rw [e]
  funext j
  exact shapeCast_4x16_64_apply _ _ j

/-- The mask with its two unit axes dropped. -/
theorem host0_v3 :
    ((StableHlo.after (hostOps0 (F := Ideal)) W) (Proc.devRef .tc main_v3) : S2048x2048.Idx → EReal)
      = AttnSpec.flatM (W (Proc.devRef .tc main_arg3)) := by
  have e : ((StableHlo.after (hostOps0 (F := Ideal)) W) (Proc.devRef .tc main_v3) : S2048x2048.Idx → EReal)
      = shapeCast S2048x2048 (W (Proc.devRef .tc main_arg3) : S1x1x2048x2048.Idx → EReal) shapeCasts_S1x1x2048x2048_S2048x2048 := by
    dsimp only [hostOps0]; after_results; rfl
  rw [e]
  funext j
  exact shapeCast_1x1_apply _ _ j

/-! ## After the regions -/

/-- The context result given its batch and head axes back: (b, h, q, d) reads head-batch 16·b + h. -/
theorem host2_v6 (b : Fin 4) (h : Fin 16) (q : Fin 2048) (d : Fin 64) :
    ((StableHlo.after (hostOps2 (F := Ideal)) W) (Proc.devRef .tc main_v6) : S4x16x2048x64.Idx → EReal) (ix4 b h q d)
      = (W (Proc.devRef .tc main_v5_1) : S64x2048x64.Idx → EReal) (ix3 (AttnSpec.bhOf b h) q d) := by
  have e : ((StableHlo.after (hostOps2 (F := Ideal)) W) (Proc.devRef .tc main_v6) : S4x16x2048x64.Idx → EReal)
      = shapeCast S4x16x2048x64 (W (Proc.devRef .tc main_v5_1) : S64x2048x64.Idx → EReal) shapeCasts_S64x2048x64_S4x16x2048x64 := by
    dsimp only [hostOps2]; after_results; rfl
  rw [e]
  exact shapeCast_64_4x16_apply _ _ b h q d

/-- The attention weights given their batch and head axes back: (b, h, q, k) reads head-batch 16·b + h. -/
theorem host2_v7 (b : Fin 4) (h : Fin 16) (q k : Fin 2048) :
    ((StableHlo.after (hostOps2 (F := Ideal)) W) (Proc.devRef .tc main_v7) : S4x16x2048x2048.Idx → EReal) (ix4 b h q k)
      = (W (Proc.devRef .tc main_v5_0) : S64x2048x2048.Idx → EReal) (ix3 (AttnSpec.bhOf b h) q k) := by
  have e : ((StableHlo.after (hostOps2 (F := Ideal)) W) (Proc.devRef .tc main_v7) : S4x16x2048x2048.Idx → EReal)
      = shapeCast S4x16x2048x2048 (W (Proc.devRef .tc main_v5_0) : S64x2048x2048.Idx → EReal) shapeCasts_S64x2048x2048_S4x16x2048x2048 := by
    dsimp only [hostOps2]; after_results; rfl
  rw [e]
  exact shapeCast_64_4x16_apply _ _ b h q k

end Cert.KernelIdeal.Hand

end
-- ==== Proof.KI.R0ValPieces.lean ====
/-
  Region 0 (the row-sum kernel): what each control case's stores leave, as values.
  The accumulator's pieces read back are one whole-block store of the update
      acc' = acc + rowsum_k( exp(Q·Kᵀ·(1/8)) · mask )
  of the three input blocks; where ki = 0 the accumulator it adds to is the zero block the reset
  stored just before, and where ki = 3 the output block's one store is a copy of the updated
  accumulator with a unit axis put in front.
-/
import proofs.«136387_j50483045597399_1_alg».proof.Proof.KI.R0Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

/-- The zero offsets of a rank-2 whole-block access. -/
theorem zoff2 : (![0, 0] : Fin 2 → Nat) = fun _ => 0 := funext fun a => by fin_cases a <;> rfl
/-- The zero offsets of a rank-3 whole-block access. -/
theorem zoff3 : (![0, 0, 0] : Fin 3 → Nat) = fun _ => 0 := funext fun a => by fin_cases a <;> rfl

/-- ki = 1, 2: the accumulator ends at the update of what it held. -/
theorem acc_B (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : ¬cond0_1 i)
    (x0 : Vec F S1x512x64 .f32) (x1 : Vec F S1x512x64 .f32) (x2 : Vec F S512x512 .f32) (xs0 : Vec F S512x1 .f32) :
    sout0_B_0 c i arg3 harg3 arg4 harg4 arg5 harg5 arg6 harg6 arg7 harg7 hc0 hc1 x0 x1 x2 xs0 = k0_pay2 x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero zoff2]
  simp only [View.readAt_eq_ld, harg3.read_unread, harg4.read_unread, harg5.read_unread, harg7.read_unread,
    View.ld_unit_zero (S := S1x512x64) zoff3, View.ld_unit_zero (S := S512x512) zoff2, View.ld_unit_zero (S := S512x1) zoff2]

/-- ki = 3: the accumulator ends at the update of what it held, -/
theorem acc_C (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : cond0_1 i)
    (x0 : Vec F S1x512x64 .f32) (x1 : Vec F S1x512x64 .f32) (x2 : Vec F S512x512 .f32) (xs0 : Vec F S512x1 .f32) :
    sout0_C_0 c i arg3 harg3 arg4 harg4 arg5 harg5 arg6 harg6 arg7 harg7 hc0 hc1 x0 x1 x2 xs0 = k0_pay2 x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero zoff2]
  simp only [View.readAt_eq_ld, harg3.read_unread, harg4.read_unread, harg5.read_unread, harg7.read_unread,
    View.ld_unit_zero (S := S1x512x64) zoff3, View.ld_unit_zero (S := S512x512) zoff2, View.ld_unit_zero (S := S512x1) zoff2]

/-- and the output block at that update with a unit axis in front. -/
theorem out_C (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : ¬cond0_0 i) (hc1 : cond0_1 i)
    (x0 : Vec F S1x512x64 .f32) (x1 : Vec F S1x512x64 .f32) (x2 : Vec F S512x512 .f32) (xs0 : Vec F S512x1 .f32) :
    out0_C_3 c i arg3 harg3 arg4 harg4 arg5 harg5 arg6 harg6 arg7 harg7 hc0 hc1 x0 x1 x2 xs0 = k0_pay3 (k0_pay2 x0 x1 x2 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero zoff3]
  simp only [View.readAt_eq_ld, harg3.read_unread, harg4.read_unread, harg5.read_unread, harg7.read_unread,
    View.ld_unit_zero (S := S1x512x64) zoff3, View.ld_unit_zero (S := S512x512) zoff2, View.ld_unit_zero (S := S512x1) zoff2,
    View.readCov_unit_zero (S := S512x1) _ zoff2]

/-- ki = 0: the accumulator ends at the update of the zero block the reset stored. -/
theorem acc_A (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S512x512 .f32) (harg5 : arg5.IsWhole) (arg6 : Memref sig .tc .vmem S1x512x1 .f32) (harg6 : arg6.IsWhole) (arg7 : Memref sig .tc .vmem S512x1 .f32) (harg7 : arg7.IsWhole) (hc0 : cond0_0 i) (hc1 : ¬cond0_1 i)
    (x0 : Vec F S1x512x64 .f32) (x1 : Vec F S1x512x64 .f32) (x2 : Vec F S512x512 .f32) :
    sout0_A_0 c i arg3 harg3 arg4 harg4 arg5 harg5 arg6 harg6 arg7 harg7 hc0 hc1 x0 x1 x2 = k0_pay2 x0 x1 x2 k0_pay1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x1) zoff2]
  simp only [View.readAt_eq_ld, harg3.read_unread, harg4.read_unread, harg5.read_unread,
    View.ld_unit_zero (S := S1x512x64) zoff3, View.ld_unit_zero (S := S512x512) zoff2, View.ld_unit_zero (S := S512x1) zoff2,
    View.readCov_unit_zero (S := S512x1) _ zoff2]

end Cert.KernelIdeal.Hand

end
-- ==== Proof.KI.R0Pay.lean ====
/-
  Region 0's arithmetic read one entry at a time, over the extended reals.
  The row-sum column's update: entry (r, 0) is the column's entry plus Σ_k exp((Σ_d Q[r,d]·K[k,d])·(1/8))·mask[r,k]
  over the block's 512 keys.  The product of the query block with the transposed key block is the sum over the 64
  features; the sum along a row's keys is a sum over Fin 512; a 512-vector viewed as a column keeps its entries; and
  the changes of float format and of shape move no value.  The reset writes zeros, and the stored block is the
  column under a leading unit axis.
-/
import proofs.«136387_j50483045597399_1_alg».proof.Proof.Gen.KernelIdeal.Skeleton
import proofs.«136387_j50483045597399_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Idealize.SL.Sem

/-! ## The product's operand indices, axis by axis -/

/-- The left operand's row is the result's row. -/
theorem r0_lhs_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
/-- The left operand's column is the feature summed over. -/
theorem r0_lhs_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
/-- The right operand's row is the feature summed over. -/
theorem r0_rhs_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
/-- The right operand's column is the result's column. -/
theorem r0_rhs_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-! ## The non-pointwise operations at an entry -/

/-- The product of a 512x64 block with a 64x512 block into zero: entry (r, k) is the sum over the 64 features. -/
theorem r0_matmul_apply (a : FVec Ideal S512x64 .bf16) (b : FVec Ideal S64x512 .bf16) (r k : Fin 512) :
    matmul dot_S512x64_S64x512_S512x512_1_0_0_1_n_n none a b (constant (F := Ideal) S512x512 .f32 0x00000000#32) (ix2 r k)
      = ∑ d : Fin 64, a (ix2 r d) * b (ix2 d k) := by
  simp only [matmul]
  rw [Ideal.matmul_constant_zero_apply, ← Equiv.sum_comp (ValueIdx.contrEquiv1 dot_S512x64_S64x512_S512x512_1_0_0_1_n_n 64 rfl rfl).symm]
  refine Finset.sum_congr rfl fun d _ => ?_
  have hk := ValueIdx.contrEquiv1_symm_val dot_S512x64_S64x512_S512x512_1_0_0_1_n_n 64 rfl rfl d
  have el : dot_S512x64_S64x512_S512x512_1_0_0_1_n_n.lhsIdx (ix2 r k) ((ValueIdx.contrEquiv1 dot_S512x64_S64x512_S512x512_1_0_0_1_n_n 64 rfl rfl).symm d) = ix2 r d := funext fun c => Fin.ext (by
    match c with
    | ⟨0, _⟩ => exact r0_lhs_0 _ _
    | ⟨1, _⟩ => exact (r0_lhs_1 _ _).trans hk)
  have er : dot_S512x64_S64x512_S512x512_1_0_0_1_n_n.rhsIdx (ix2 r k) ((ValueIdx.contrEquiv1 dot_S512x64_S64x512_S512x512_1_0_0_1_n_n 64 rfl rfl).symm d) = ix2 d k := funext fun c => Fin.ext (by
    match c with
    | ⟨0, _⟩ => exact (r0_rhs_0 _ _).trans hk
    | ⟨1, _⟩ => exact r0_rhs_1 _ _)
  rw [el, er]

/-- The transposed key block reads (k, d) at (d, k). -/
theorem r0_transpose_apply (x : FVec Ideal S512x64 .bf16) (d : Fin 64) (k : Fin 512) :
    transpose S64x512 [1, 0] x transposes_S512x64_p1_0_S64x512 (ix2 d k) = x (ix2 k d) :=
  transpose_apply _ x transposes_S512x64_p1_0_S64x512 _ _ fun c => match c with | ⟨0, _⟩ => rfl | ⟨1, _⟩ => rfl

/-- A 512-vector viewed as a 512x1 column reads its entry r at (r, 0): the two row-major positions are r and r·1 + 0. -/
theorem r0_shapeCast_col_apply (x : FVec Ideal S512 .f32) (r : Fin 512) :
    shapeCast S512x1 x shapeCasts_S512_S512x1 (ix2 r (0 : Fin 1)) = x (ix1 r) :=
  shapeCast_apply x shapeCasts_S512_S512x1 _ _ (by
    rw [Shape.rowMajor_val_one, Shape.rowMajor_val_two]
    show r.val = r.val * 1 + 0
    rw [Nat.mul_one, Nat.add_zero])

/-- The sum along the keys of row r: the index inserted over r at key k is (r, k). -/
theorem r0_rowsum_apply (x : FVec Ideal S512x512 .f32) (r : Fin 512) :
    multiReduction (F := Ideal) .add [1] S512 x 0x00000000#32 reduces_S512x512_S512 (.inl rfl) rfl (ix1 r)
      = ∑ k : Fin 512, x (ix2 r k) := by
  refine (Ideal.multiReduction_add_single x 0x00000000#32 reduces_S512x512_S512 (.inl rfl) rfl (ix1 r)).trans ?_
  refine Finset.sum_congr rfl fun k _ => congrArg x ?_
  exact funext fun c => Fin.ext (by match c with | ⟨0, _⟩ => rfl | ⟨1, _⟩ => rfl)

/-! ## The payloads at an entry -/

/-- The reset writes zeros. -/
theorem k0_pay1_apply (r : Fin 512) : k0_pay1 (F := Ideal) (ValueIdx.ix2 r (0 : Fin 1)) = 0 := by
  unfold k0_pay1
  simp only [shapeCast_self]
  exact Ideal.ofBits_zero_f32

/-- The row-sum column's update at (r, 0): its entry plus the block's masked exponential scores summed over the keys. -/
theorem k0_pay2_apply (x0 x1 : Vec Ideal S1x512x64 .f32) (x2 : Vec Ideal S512x512 .f32) (a : Vec Ideal S512x1 .f32) (r : Fin 512) :
    k0_pay2 (F := Ideal) x0 x1 x2 a (ValueIdx.ix2 r (0 : Fin 1))
      = a (ValueIdx.ix2 r (0 : Fin 1)) + ∑ k : Fin 512, Ideal.exp ((∑ d : Fin 64, x0 (ValueIdx.ix3 (0 : Fin 1) r d) * x1 (ValueIdx.ix3 (0 : Fin 1) k d)) * AttnSpec.c8) * x2 (ValueIdx.ix2 r k) := by
  unfold k0_pay2
  simp only [shapeCast_self]
  refine (addf_apply _ _ _).trans ?_
  refine congrArg (a (ix2 r (0 : Fin 1)) + ·) ?_
  refine (r0_shapeCast_col_apply _ r).trans ?_
  refine (r0_rowsum_apply _ r).trans ?_
  refine Finset.sum_congr rfl fun k _ => ?_
  refine (mulf_apply _ _ _).trans ?_
  refine congrArg (· * x2 (ix2 r k)) ?_
  show Ideal.exp (_ * _) = _
  refine congrArg Ideal.exp ?_
  refine congrArg₂ (· * ·) ?_ rfl
  refine (r0_matmul_apply _ _ r k).trans ?_
  refine Finset.sum_congr rfl fun d _ => ?_
  refine congrArg₂ (· * ·) ?_ ?_
  · exact shapeCast_1ab_ab_apply x0 shapeCasts_S1x512x64_S512x64 r d
  · refine (r0_transpose_apply _ d k).trans ?_
    exact shapeCast_1ab_ab_apply x1 shapeCasts_S1x512x64_S512x64 k d

/-- The stored block: the column under a leading unit axis. -/
theorem k0_pay3_apply (v : Vec Ideal S512x1 .f32) (r : Fin 512) :
    k0_pay3 (F := Ideal) v (ValueIdx.ix3 (0 : Fin 1) r (0 : Fin 1)) = v (ValueIdx.ix2 r (0 : Fin 1)) := by
  unfold k0_pay3
  exact shapeCast_ab_1ab_apply v shapeCasts_S512x1_S1x512x1 0 r 0

end Cert.KernelIdeal.Hand

end
-- ==== Proof.KI.R0Val.lean ====
/-
  Region 0 (the row-sum kernel): the array its output window writes ends holding the row sums
      rowsum(bh, q) = Σ_k exp((Σ_d Q[bh,q,d]·K[bh,k,d]) · 1/8) · mask[q,k]
  of the specification, over the extended reals.
  The grid point t = 16·bh + 4·qi + ki reads query rows 512·qi … 512·qi + 511 and keys 512·ki … 512·ki + 511 of
  head-batch bh and the matching 512 × 512 mask block.  Its update adds to row r of the accumulator the scores of
  query row 512·qi + r against that key block.  So after point t the accumulator's row r is the sum of the block
  sums of key blocks 0 … ki (zero plus the first where ki = 0: the reset), by induction on t; where ki = 3 that is
  the sum over all four blocks, the sum over the 2048 keys, and the output block written back there is a copy of
  it.  The blocks written back at the points with ki = 3 tile the (64, 2048, 1) array: row q of head-batch bh lies
  in the block of the point (bh, q / 512, 3).
-/
import proofs.«136387_j50483045597399_1_alg».proof.Proof.KI.R0ValPieces
import proofs.«136387_j50483045597399_1_alg».proof.Proof.KI.R0Pay
import proofs.«136387_j50483045597399_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

open Idealize.ShloMosaic.ValueIdx

variable (V : (c : Dev nD) → (b : Ref sig .tc) → Buf (Elt Ideal) ((c : Thread nD τ).loc b))

/-! ## The point's coordinates and the blocks it reads -/

/-- A point's linear position is below 1024. -/
theorem pos_lt (t : Fin cfg0.N) : t.val < 1024 := lt_of_lt_of_eq t.isLt (show cfg0.N = 1024 from N_0)

/-- The head-batch number of point `t`: its first grid coordinate. -/
def bhAt (t : Fin cfg0.N) : Fin 64 := ⟨t.val / 16, by have := pos_lt t; omega⟩
/-- Row `r` of the query block of point `t`, as a row of the whole array. -/
def rowAt (t : Fin cfg0.N) (r : Fin 512) : Fin 2048 := ⟨512 * (t.val / 4 % 4) + r.val, by omega⟩
/-- The key block of point `t`: its third grid coordinate. -/
def kbAt (t : Fin cfg0.N) : Fin 4 := ⟨t.val % 4, by omega⟩

/-- The printed index maps in closed form over the linear position, decided over the grid. -/
theorem index_facts : ∀ t : Fin cfg0.N,
    (win0_0.index t (0 : Fin 3) = t.val / 16 ∧ win0_0.index t (1 : Fin 3) = t.val / 4 % 4 ∧ win0_0.index t (2 : Fin 3) = 0)
    ∧ (win0_1.index t (0 : Fin 3) = t.val / 16 ∧ win0_1.index t (1 : Fin 3) = t.val % 4 ∧ win0_1.index t (2 : Fin 3) = 0)
    ∧ (win0_2.index t (0 : Fin 2) = t.val / 4 % 4 ∧ win0_2.index t (1 : Fin 2) = t.val % 4)
    ∧ (win0_3.index t (0 : Fin 3) = t.val / 16 ∧ win0_3.index t (1 : Fin 3) = t.val / 4 % 4 ∧ win0_3.index t (2 : Fin 3) = 0) :=
  (by decide +kernel : ∀ t : Fin grid0.N, _)

/-- The three input blocks of point `t` and the three arrays, at their literal types. -/
abbrev qblk (c : Dev nD) (t : Fin cfg0.N) : Vec Ideal S1x512x64 .f32 := iblk0 V c 0 t
abbrev kblk (c : Dev nD) (t : Fin cfg0.N) : Vec Ideal S1x512x64 .f32 := iblk0 V c 1 t
abbrev mblk (c : Dev nD) (t : Fin cfg0.N) : Vec Ideal S512x512 .f32 := iblk0 V c 2 t
abbrev Qarr (c : Dev nD) : AttnSpec.A3 := V c main_v0
abbrev Karr (c : Dev nD) : AttnSpec.A3 := V c main_v1
abbrev Marr (c : Dev nD) : AttnSpec.A2 := V c main_v3

/-- The query block of point `t` holds rows 512·qi … 512·qi + 511 of head-batch `bh`. -/
theorem qblk_apply (c : Dev nD) (t : Fin cfg0.N) (r : Fin 512) (d : Fin 64) :
    qblk V c t (ix3 0 r d) = Qarr V c (ix3 (bhAt t) (rowAt t r) d) := by
  obtain ⟨⟨e0, e1, e2⟩, -, -, -⟩ := index_facts t
  show V c main_v0 (((cfg0.win 0).blk t).view.emb (ix3 0 r d)) = V c main_v0 (ix3 (bhAt t) (rowAt t r) d)
  refine congrArg (V c main_v0) (funext fun a => Fin.ext ?_)
  match a with
  | ⟨0, _⟩ => show win0_0.index t (0 : Fin 3) * 1 + 1 * 0 = t.val / 16; omega
  | ⟨1, _⟩ => show win0_0.index t (1 : Fin 3) * 512 + 1 * r.val = 512 * (t.val / 4 % 4) + r.val; omega
  | ⟨2, _⟩ => show win0_0.index t (2 : Fin 3) * 64 + 1 * d.val = d.val; omega

/-- The key block of point `t` holds the keys of block `ki` of head-batch `bh`. -/
theorem kblk_apply (c : Dev nD) (t : Fin cfg0.N) (k : Fin 512) (d : Fin 64) :
    kblk V c t (ix3 0 k d) = Karr V c (ix3 (bhAt t) (AttnSpec.key (kbAt t) k) d) := by
  obtain ⟨-, ⟨e0, e1, e2⟩, -, -⟩ := index_facts t
  show V c main_v1 (((cfg0.win 1).blk t).view.emb (ix3 0 k d)) = V c main_v1 (ix3 (bhAt t) (AttnSpec.key (kbAt t) k) d)
  refine congrArg (V c main_v1) (funext fun a => Fin.ext ?_)
  match a with
  | ⟨0, _⟩ => show win0_1.index t (0 : Fin 3) * 1 + 1 * 0 = t.val / 16; omega
  | ⟨1, _⟩ => show win0_1.index t (1 : Fin 3) * 512 + 1 * k.val = k.val + 512 * (t.val % 4); omega
  | ⟨2, _⟩ => show win0_1.index t (2 : Fin 3) * 64 + 1 * d.val = d.val; omega

/-- The mask block of point `t` holds the query rows of block `qi` against the keys of block `ki`. -/
theorem mblk_apply (c : Dev nD) (t : Fin cfg0.N) (r k : Fin 512) :
    mblk V c t (ix2 r k) = Marr V c (ix2 (rowAt t r) (AttnSpec.key (kbAt t) k)) := by
  obtain ⟨-, -, ⟨e0, e1⟩, -⟩ := index_facts t
  show V c main_v3 (((cfg0.win 2).blk t).view.emb (ix2 r k)) = V c main_v3 (ix2 (rowAt t r) (AttnSpec.key (kbAt t) k))
  refine congrArg (V c main_v3) (funext fun a => Fin.ext ?_)
  match a with
  | ⟨0, _⟩ => show win0_2.index t (0 : Fin 2) * 512 + 1 * r.val = 512 * (t.val / 4 % 4) + r.val; omega
  | ⟨1, _⟩ => show win0_2.index t (1 : Fin 2) * 512 + 1 * k.val = k.val + 512 * (t.val % 4); omega

/-! ## The accumulator after each point -/

/-- The scores of row `q` of head-batch `bh` summed over the keys of block `j`; zero past the fourth block. -/
def blockSum (c : Dev nD) (bh : Fin 64) (q : Fin 2048) (j : ℕ) : EReal :=
  if h : j < 4 then ∑ k' : Fin 512, AttnSpec.score (Qarr V c) (Karr V c) (Marr V c) bh q (AttnSpec.key ⟨j, h⟩ k') else 0

/-- The four block sums are the row sum: the 2048 keys split into four blocks of 512. -/
theorem sum_blockSum (c : Dev nD) (bh : Fin 64) (q : Fin 2048) :
    ∑ j ∈ Finset.range 4, blockSum V c bh q j = AttnSpec.rowsum (Qarr V c) (Karr V c) (Marr V c) bh q := by
  unfold AttnSpec.rowsum
  rw [AttnSpec.sum_blocks, Finset.sum_range]
  refine Finset.sum_congr rfl fun j _ => ?_
  unfold blockSum
  rw [dif_pos j.isLt]

/-- The update at point `t`, row `r`: the accumulator's entry plus the block sum of the point's key block —
    the point's three blocks read where they lie in the arrays. -/
theorem update_apply (c : Dev nD) (t : Fin cfg0.N) (a : Vec Ideal S512x1 .f32) (r : Fin 512) :
    k0_pay2 (F := Ideal) (qblk V c t) (kblk V c t) (mblk V c t) a (ix2 r (0 : Fin 1))
      = a (ix2 r (0 : Fin 1)) + blockSum V c (bhAt t) (rowAt t r) (t.val % 4) := by
  refine (k0_pay2_apply (qblk V c t) (kblk V c t) (mblk V c t) a r).trans ?_
  refine congrArg (a (ix2 r (0 : Fin 1)) + ·) ?_
  unfold blockSum
  rw [dif_pos (show t.val % 4 < 4 by omega)]
  show _ = ∑ k' : Fin 512, AttnSpec.score (Qarr V c) (Karr V c) (Marr V c) (bhAt t) (rowAt t r) (AttnSpec.key (kbAt t) k')
  refine Finset.sum_congr rfl fun k _ => ?_
  unfold AttnSpec.score
  rw [mblk_apply V c t r k]
  refine congrArg (fun s => Ideal.exp (s * AttnSpec.c8) * Marr V c (ix2 (rowAt t r) (AttnSpec.key (kbAt t) k))) ?_
  refine Finset.sum_congr rfl fun d _ => ?_
  rw [qblk_apply V c t r d, kblk_apply V c t k d]

/-- What the point before left in the accumulator. -/
abbrev prevAcc (c : Dev nD) (t : Fin cfg0.N) : Vec Ideal S512x1 .f32 :=
  (outsAt0 V c (t.val - 1) (Nat.lt_of_le_of_lt (Nat.sub_le _ _) t.isLt)).2

/-- Where ki = 0 the accumulator restarts: zero plus the first block sum. -/
theorem acc_reset (c : Dev nD) (t : Fin cfg0.N) (h0 : t.val % 4 = 0) (h1 : ¬t.val % 4 = 3) (r : Fin 512) :
    (outsAt0 V c t.val t.isLt).2 (ix2 r (0 : Fin 1)) = ∑ j ∈ Finset.range (t.val % 4 + 1), blockSum V c (bhAt t) (rowAt t r) j := by
  rw [outsAt0_A V c t h0 h1]; dsimp only
  refine (congrFun (acc_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (qblk V c t) (kblk V c t) (mblk V c t)) (ix2 r (0 : Fin 1))).trans ?_
  refine (update_apply V c t (k0_pay1 (F := Ideal)) r).trans ?_
  rw [k0_pay1_apply r, h0]
  exact (zero_add _).trans (Finset.sum_range_one _).symm

/-- Where ki ≠ 0 the accumulator gains this point's block sum. -/
theorem acc_step (c : Dev nD) (t : Fin cfg0.N) (h0 : ¬t.val % 4 = 0)
    (hprev : ∀ r : Fin 512, prevAcc V c t (ix2 r (0 : Fin 1)) = ∑ j ∈ Finset.range (t.val % 4), blockSum V c (bhAt t) (rowAt t r) j)
    (r : Fin 512) :
    (outsAt0 V c t.val t.isLt).2 (ix2 r (0 : Fin 1)) = ∑ j ∈ Finset.range (t.val % 4 + 1), blockSum V c (bhAt t) (rowAt t r) j := by
  rw [Finset.sum_range_succ, ← hprev r]
  by_cases h1 : t.val % 4 = 3
  · rw [outsAt0_C V c t h0 h1]; dsimp only
    refine (congrFun (acc_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (qblk V c t) (kblk V c t) (mblk V c t) (prevAcc V c t)) (ix2 r (0 : Fin 1))).trans ?_
    exact update_apply V c t (prevAcc V c t) r
  · rw [outsAt0_B V c t h0 h1]; dsimp only
    refine (congrFun (acc_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (qblk V c t) (kblk V c t) (mblk V c t) (prevAcc V c t)) (ix2 r (0 : Fin 1))).trans ?_
    exact update_apply V c t (prevAcc V c t) r

/-- THE INVARIANT: after point `t` row `r` of the accumulator holds the block sums of key blocks 0 … ki of the
    point's head-batch and query row — by induction on the point's position; the point before a point with
    ki ≠ 0 has the same head-batch and query block and the key block before. -/
theorem acc_inv (c : Dev nD) : ∀ (n : ℕ) (t : Fin cfg0.N), t.val = n → ∀ r : Fin 512,
    (outsAt0 V c t.val t.isLt).2 (ix2 r (0 : Fin 1)) = ∑ j ∈ Finset.range (t.val % 4 + 1), blockSum V c (bhAt t) (rowAt t r) j := by
  intro n
  induction n with
  | zero =>
    intro t ht r
    exact acc_reset V c t (by omega) (by omega) r
  | succ n ih =>
    intro t ht r
    by_cases h0 : t.val % 4 = 0
    · exact acc_reset V c t h0 (by omega) r
    · have hlt : t.val - 1 < cfg0.N := Nat.lt_of_le_of_lt (Nat.sub_le _ _) t.isLt
      refine acc_step V c t h0 (fun r' => ?_) r
      have e := ih ⟨t.val - 1, hlt⟩ (by show t.val - 1 = n; omega) r'
      have hb : bhAt ⟨t.val - 1, hlt⟩ = bhAt t := Fin.ext (by show (t.val - 1) / 16 = t.val / 16; omega)
      have hr : rowAt ⟨t.val - 1, hlt⟩ r' = rowAt t r' :=
        Fin.ext (by show 512 * ((t.val - 1) / 4 % 4) + r'.val = 512 * (t.val / 4 % 4) + r'.val; omega)
      have hk : (t.val - 1) % 4 + 1 = t.val % 4 := by omega
      rw [hb, hr] at e
      exact e.trans (congrArg (fun m => ∑ j ∈ Finset.range m, blockSum V c (bhAt t) (rowAt t r') j) hk)

/-! ## From the written-back blocks to the array -/

/-- Where ki = 3 the output block's row `r` is the accumulator's. -/
theorem out_eq_acc (c : Dev nD) (t : Fin cfg0.N) (h0 : ¬t.val % 4 = 0) (h1 : t.val % 4 = 3) (r : Fin 512) :
    (outsAt0 V c t.val t.isLt).1 (ix3 (0 : Fin 1) r (0 : Fin 1)) = (outsAt0 V c t.val t.isLt).2 (ix2 r (0 : Fin 1)) := by
  rw [outsAt0_C V c t h0 h1]; dsimp only
  refine (congrFun (out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (qblk V c t) (kblk V c t) (mblk V c t) (prevAcc V c t)) (ix3 (0 : Fin 1) r (0 : Fin 1))).trans ?_
  refine (k0_pay3_apply (k0_pay2 (qblk V c t) (kblk V c t) (mblk V c t) (prevAcc V c t)) r).trans ?_
  exact (congrFun (acc_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (qblk V c t) (kblk V c t) (mblk V c t) (prevAcc V c t)) (ix2 r (0 : Fin 1))).symm

/-- What the region's output array ends holding: at (bh, q, 0) the row sum of the specification. -/
abbrev rowsumArr (c : Dev nD) : Buf (Elt Ideal) ((c : Thread nD τ).loc main_v4) := fun (j : S64x2048x1.Idx) =>
  AttnSpec.rowsum (Qarr V c) (Karr V c) (Marr V c) ⟨(j 0).val, (j 0).isLt⟩ ⟨(j 1).val, (j 1).isLt⟩

theorem rowsumArr_apply (c : Dev nD) (j : S64x2048x1.Idx) (bh : Fin 64) (q : Fin 2048) (hb : (j 0).val = bh.val) (hq : (j 1).val = q.val) :
    rowsumArr V c j = AttnSpec.rowsum (Qarr V c) (Karr V c) (Marr V c) bh q :=
  congrArg₂ (AttnSpec.rowsum (Qarr V c) (Karr V c) (Marr V c)) (Fin.ext hb) (Fin.ext hq)

/-- WHAT A POINT WITH ki = 3 WRITES BACK is its block of the row sums: the accumulator after the fourth key block. -/
theorem flushed_eq (c : Dev nD) (t : Fin cfg0.N) (hf : (cfg0.win 3).flush t = true) :
    (dat0 V c).flushed 3 t = ((cfg0.win 3).blk t).view.read (Elt Ideal) (rowsumArr V c) := by
  have h1 : t.val % 4 = 3 := (flush0_3 t).mp hf
  have h0 : ¬t.val % 4 = 0 := by omega
  obtain ⟨-, -, -, ⟨e0, e1, e2⟩⟩ := index_facts t
  show (cfg0.win 3).cut (grid0.coords t) ((dat0 V c).after 3 t) = _
  rw [after0_3]
  refine funext fun (y : S1x512x1.Idx) => ?_
  obtain ⟨a, r, b, rfl⟩ : ∃ (a : Fin 1) (r : Fin 512) (b : Fin 1), y = ix3 a r b := ⟨y 0, y 1, y 2, eq_ix3 y⟩
  obtain rfl : a = 0 := Subsingleton.elim _ _
  obtain rfl : b = 0 := Subsingleton.elim _ _
  show (outsAt0 V c t.val t.isLt).1 (ix3 (0 : Fin 1) r (0 : Fin 1)) = rowsumArr V c (((cfg0.win 3).blk t).view.emb (ix3 (0 : Fin 1) r (0 : Fin 1)))
  rw [out_eq_acc V c t h0 h1 r, acc_inv V c t.val t rfl r, h1]
  refine Eq.trans (sum_blockSum V c (bhAt t) (rowAt t r)) (rowsumArr_apply V c _ (bhAt t) (rowAt t r) ?_ ?_).symm
  · show win0_3.index t (0 : Fin 3) * 1 + 1 * 0 = t.val / 16; omega
  · show win0_3.index t (1 : Fin 3) * 512 + 1 * r.val = 512 * (t.val / 4 % 4) + r.val; omega

/-- An index of the array is in point `t`'s output block iff each coordinate is in the block's range on its axis. -/
theorem mem_out_blk (t : Fin cfg0.N) (i : S64x2048x1.Idx) :
    i ∈ ((cfg0.win 3).blk t).view.set ↔ ∀ a : Fin 3, win0_3.index t a * S1x512x1.size a ≤ (i a).val ∧ (i a).val < win0_3.index t a * S1x512x1.size a + S1x512x1.size a := by
  show i ∈ ((View.whole main_v4).slice (win0_3.rect t)).set ↔ _
  rw [View.set_slice_whole, Rect.mem_set_unit]
  exact Iff.rfl

/-- Row `q` of head-batch `bh` lies in the block written back by the point (bh, q / 512, 3). -/
theorem out_cover (i : S64x2048x1.Idx) : ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 1 := (i 2).isLt
  obtain ⟨t, ht⟩ : ∃ t : Fin cfg0.N, t.val = 16 * (i 0).val + 4 * ((i 1).val / 512) + 3 :=
    ⟨⟨16 * (i 0).val + 4 * ((i 1).val / 512) + 3, lt_of_lt_of_eq (by omega) (show (1024 : ℕ) = cfg0.N from N_0.symm)⟩, rfl⟩
  obtain ⟨-, -, -, ⟨e0, e1, e2⟩⟩ := index_facts t
  refine ⟨t, (flush0_3 t).mpr (by omega), ?_⟩
  rw [mem_out_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1 ≤ (i 2).val ∧ (i 2).val < win0_3.index t (2 : Fin 3) * 1 + 1; omega

/-- THE ARRAY after the region: the row sums of the specification, whatever it held before. -/
theorem rowsum_final (c : Dev nD) :
    (dat0 V c).arrAt 3 cfg0.N = fun (j : S64x2048x1.Idx) =>
      AttnSpec.rowsum (V c main_v0) (V c main_v1) (V c main_v3) ⟨(j 0).val, (j 0).isLt⟩ ⟨(j 1).val, (j 1).isLt⟩ :=
  (dat0 V c).arrAt_eq_of_cover 3 (rowsumArr V c) (flushed_eq V c) out_cover

end Cert.KernelIdeal.Hand

end
-- ==== Proof.KI.R1ValPieces.lean ====
/-
  Region 1 (the attention kernel proper): what each control case's stores leave, as values.
  The attention block's one whole-block store is the normalised probability block
      P = exp(Q·Kᵀ·(1/8)) · mask / (l + ε)     (with a unit axis put in front)
  of the point's Q, K, mask and l blocks.  The accumulator's pieces read back are one whole-block store of
      acc' = acc + bf16(P)·bf16(V);
  where ki = 0 the accumulator it adds to is the zero block the reset stored just before, and where ki = 3
  the context block's one store is a copy of the updated accumulator with a unit axis put in front.
-/
import proofs.«136387_j50483045597399_1_alg».proof.Proof.KI.R1Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

/-- The zero offsets of a rank-2 whole-block access. -/
theorem zoffR1_2 : (![0, 0] : Fin 2 → Nat) = fun _ => 0 := funext fun a => by fin_cases a <;> rfl
/-- The zero offsets of a rank-3 whole-block access. -/
theorem zoffR1_3 : (![0, 0, 0] : Fin 3 → Nat) = fun _ => 0 := funext fun a => by fin_cases a <;> rfl

/-- ki = 0: the attention block ends at the normalised probability block of the point's Q, K, mask and l blocks. -/
theorem attn1_A (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) :
    out1_A_5 c i arg3 harg3 arg4 harg4 arg5 harg5 arg6 harg6 arg7 harg7 arg8 harg8 arg9 harg9 arg10 harg10 hc0 hc1 x0 x1 x2 x3 x4 = k1_pay6 x0 x1 x3 x4 := by
  unfold out1_A_5
  rw [View.read_writes_eq_canon _ _ _ (cover1_A_5 c i arg3 harg3 arg4 harg4 arg5 harg5 arg6 harg6 arg7 harg7 arg8 harg8 arg9 harg9 arg10 harg10 hc0 hc1 x0 x1 x2 x3 x4)]
  unfold kernelRun1_A
  dsimp only
  sl_unfold_words
  rw [View.canon_unit_zero zoffR1_3]
  simp only [View.readAt_eq_ld, harg3.read_unread, harg4.read_unread, harg5.read_unread, harg6.read_unread, harg7.read_unread,
    View.ld_unit_zero (S := S1x512x64) zoffR1_3, View.ld_unit_zero (S := S512x512) zoffR1_2, View.ld_unit_zero (S := S1x512x1) zoffR1_3,
    View.ld_unit_zero (S := S512x64) zoffR1_2, View.ld_unit_zero (S := S1x512x512) zoffR1_3,
    View.readCov_unit_zero (S := S512x64) _ zoffR1_2]

/-- ki = 1, 2: the attention block ends at the normalised probability block of the point's Q, K, mask and l blocks. -/
theorem attn1_B (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) :
    out1_B_5 c i arg3 harg3 arg4 harg4 arg5 harg5 arg6 harg6 arg7 harg7 arg8 harg8 arg9 harg9 arg10 harg10 hc0 hc1 x0 x1 x2 x3 x4 xs0 = k1_pay6 x0 x1 x3 x4 := by
  unfold out1_B_5
  rw [View.read_writes_eq_canon _ _ _ (cover1_B_5 c i arg3 harg3 arg4 harg4 arg5 harg5 arg6 harg6 arg7 harg7 arg8 harg8 arg9 harg9 arg10 harg10 hc0 hc1 x0 x1 x2 x3 x4 xs0)]
  unfold kernelRun1_B
  dsimp only
  sl_unfold_words
  rw [View.canon_unit_zero zoffR1_3]
  simp only [View.readAt_eq_ld, harg3.read_unread, harg4.read_unread, harg5.read_unread, harg6.read_unread, harg7.read_unread, harg10.read_unread,
    View.ld_unit_zero (S := S1x512x64) zoffR1_3, View.ld_unit_zero (S := S512x512) zoffR1_2, View.ld_unit_zero (S := S1x512x1) zoffR1_3,
    View.ld_unit_zero (S := S512x64) zoffR1_2, View.ld_unit_zero (S := S1x512x512) zoffR1_3]

/-- ki = 3: the attention block ends at the normalised probability block of the point's Q, K, mask and l blocks, -/
theorem attn1_C (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) :
    out1_C_5 c i arg3 harg3 arg4 harg4 arg5 harg5 arg6 harg6 arg7 harg7 arg8 harg8 arg9 harg9 arg10 harg10 hc0 hc1 x0 x1 x2 x3 x4 xs0 = k1_pay6 x0 x1 x3 x4 := by
  unfold out1_C_5
  rw [View.read_writes_eq_canon _ _ _ (cover1_C_5 c i arg3 harg3 arg4 harg4 arg5 harg5 arg6 harg6 arg7 harg7 arg8 harg8 arg9 harg9 arg10 harg10 hc0 hc1 x0 x1 x2 x3 x4 xs0)]
  unfold kernelRun1_C
  dsimp only
  sl_unfold_words
  rw [View.canon_unit_zero zoffR1_3]
  simp only [View.readAt_eq_ld, harg3.read_unread, harg4.read_unread, harg5.read_unread, harg6.read_unread, harg7.read_unread, harg10.read_unread,
    View.ld_unit_zero (S := S1x512x64) zoffR1_3, View.ld_unit_zero (S := S512x512) zoffR1_2, View.ld_unit_zero (S := S1x512x1) zoffR1_3,
    View.ld_unit_zero (S := S512x64) zoffR1_2, View.ld_unit_zero (S := S1x512x512) zoffR1_3]

/-- ki = 1, 2: the accumulator ends at what it held plus P·V of this key block. -/
theorem acc1_B (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) :
    sout1_B_0 c i arg3 harg3 arg4 harg4 arg5 harg5 arg6 harg6 arg7 harg7 arg8 harg8 arg9 harg9 arg10 harg10 hc0 hc1 x0 x1 x2 x3 x4 xs0 = k1_pay1 (k1_pay4 x2) xs0 (k1_pay7 x0 x1 x3 x4) := by
  unfold sout1_B_0
  rw [View.read_writes_eq_canon _ _ _ (scover1_B_0 c i arg3 harg3 arg4 harg4 arg5 harg5 arg6 harg6 arg7 harg7 arg8 harg8 arg9 harg9 arg10 harg10 hc0 hc1 x0 x1 x2 x3 x4 xs0)]
  unfold kernelRun1_B
  dsimp only
  sl_unfold_words
  rw [View.canon_unit_zero zoffR1_2]
  simp only [View.readAt_eq_ld, harg3.read_unread, harg4.read_unread, harg5.read_unread, harg6.read_unread, harg7.read_unread, harg10.read_unread,
    View.ld_unit_zero (S := S1x512x64) zoffR1_3, View.ld_unit_zero (S := S512x512) zoffR1_2, View.ld_unit_zero (S := S1x512x1) zoffR1_3,
    View.ld_unit_zero (S := S512x64) zoffR1_2, View.ld_unit_zero (S := S1x512x512) zoffR1_3]

/-- ki = 3: the accumulator ends at what it held plus P·V of this key block, -/
theorem acc1_C (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) :
    sout1_C_0 c i arg3 harg3 arg4 harg4 arg5 harg5 arg6 harg6 arg7 harg7 arg8 harg8 arg9 harg9 arg10 harg10 hc0 hc1 x0 x1 x2 x3 x4 xs0 = k1_pay1 (k1_pay4 x2) xs0 (k1_pay7 x0 x1 x3 x4) := by
  unfold sout1_C_0
  rw [View.read_writes_eq_canon _ _ _ (scover1_C_0 c i arg3 harg3 arg4 harg4 arg5 harg5 arg6 harg6 arg7 harg7 arg8 harg8 arg9 harg9 arg10 harg10 hc0 hc1 x0 x1 x2 x3 x4 xs0)]
  unfold kernelRun1_C
  dsimp only
  sl_unfold_words
  rw [View.canon_unit_zero zoffR1_2]
  simp only [View.readAt_eq_ld, harg3.read_unread, harg4.read_unread, harg5.read_unread, harg6.read_unread, harg7.read_unread, harg10.read_unread,
    View.ld_unit_zero (S := S1x512x64) zoffR1_3, View.ld_unit_zero (S := S512x512) zoffR1_2, View.ld_unit_zero (S := S1x512x1) zoffR1_3,
    View.ld_unit_zero (S := S512x64) zoffR1_2, View.ld_unit_zero (S := S1x512x512) zoffR1_3]

/-- and the context block at that sum with a unit axis in front. -/
theorem ctx1_C (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : ¬cond1_0 i) (hc1 : cond1_1 i)
    (x0 : Vec F S1x512x64 .f32) (x1 : Vec F S1x512x64 .f32) (x2 : Vec F S1x512x64 .f32) (x3 : Vec F S512x512 .f32) (x4 : Vec F S1x512x1 .f32) (xs0 : Vec F S512x64 .f32) :
    out1_C_6 c i arg3 harg3 arg4 harg4 arg5 harg5 arg6 harg6 arg7 harg7 arg8 harg8 arg9 harg9 arg10 harg10 hc0 hc1 x0 x1 x2 x3 x4 xs0 = k1_pay2 (k1_pay1 (k1_pay4 x2) xs0 (k1_pay7 x0 x1 x3 x4)) := by
  unfold out1_C_6
  rw [View.read_writes_eq_canon _ _ _ (cover1_C_6 c i arg3 harg3 arg4 harg4 arg5 harg5 arg6 harg6 arg7 harg7 arg8 harg8 arg9 harg9 arg10 harg10 hc0 hc1 x0 x1 x2 x3 x4 xs0)]
  unfold kernelRun1_C
  dsimp only
  sl_unfold_words
  rw [View.canon_unit_zero zoffR1_3]
  simp only [View.readAt_eq_ld, harg3.read_unread, harg4.read_unread, harg5.read_unread, harg6.read_unread, harg7.read_unread, harg10.read_unread,
    View.ld_unit_zero (S := S1x512x64) zoffR1_3, View.ld_unit_zero (S := S512x512) zoffR1_2, View.ld_unit_zero (S := S1x512x1) zoffR1_3,
    View.ld_unit_zero (S := S512x64) zoffR1_2, View.ld_unit_zero (S := S1x512x512) zoffR1_3,
    View.readCov_unit_zero (S := S512x64) _ zoffR1_2]

/-- ki = 0: the accumulator ends at the zero block the reset stored plus P·V of this key block. -/
theorem acc1_A (c : Dev nD) (i : grid1.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S512x512 .f32) (harg6 : arg6.IsWhole) (arg7 : Memref sig .tc .vmem S1x512x1 .f32) (harg7 : arg7.IsWhole) (arg8 : Memref sig .tc .vmem S1x512x512 .f32) (harg8 : arg8.IsWhole) (arg9 : Memref sig .tc .vmem S1x512x64 .f32) (harg9 : arg9.IsWhole) (arg10 : Memref sig .tc .vmem S512x64 .f32) (harg10 : arg10.IsWhole) (hc0 : cond1_0 i) (hc1 : ¬cond1_1 i)
    (x0 : Vec F S1x512x64 .f32) (x1 : Vec F S1x512x64 .f32) (x2 : Vec F S1x512x64 .f32) (x3 : Vec F S512x512 .f32) (x4 : Vec F S1x512x1 .f32) :
    sout1_A_0 c i arg3 harg3 arg4 harg4 arg5 harg5 arg6 harg6 arg7 harg7 arg8 harg8 arg9 harg9 arg10 harg10 hc0 hc1 x0 x1 x2 x3 x4 = k1_pay1 (k1_pay4 x2) k1_pay3 (k1_pay7 x0 x1 x3 x4) := by
  unfold sout1_A_0
  rw [View.read_writes_eq_canon _ _ _ (scover1_A_0 c i arg3 harg3 arg4 harg4 arg5 harg5 arg6 harg6 arg7 harg7 arg8 harg8 arg9 harg9 arg10 harg10 hc0 hc1 x0 x1 x2 x3 x4)]
  unfold kernelRun1_A
  dsimp only
  sl_unfold_words
  rw [View.canon_cons_unit_zero (S := S512x64) zoffR1_2]
  simp only [View.readAt_eq_ld, harg3.read_unread, harg4.read_unread, harg5.read_unread, harg6.read_unread, harg7.read_unread,
    View.ld_unit_zero (S := S1x512x64) zoffR1_3, View.ld_unit_zero (S := S512x512) zoffR1_2, View.ld_unit_zero (S := S1x512x1) zoffR1_3,
    View.ld_unit_zero (S := S512x64) zoffR1_2, View.ld_unit_zero (S := S1x512x512) zoffR1_3,
    View.readCov_unit_zero (S := S512x64) _ zoffR1_2]

end Cert.KernelIdeal.Hand

end
-- ==== Proof.KI.R1Pay.lean ====
/-
  Region 1's arithmetic read one entry at a time, over the extended reals.
  The probability block: entry (r, k) is exp((Σ_d Q[r,d]·K[k,d])·(1/8))·mask[r,k] / (l[r] + ε) — the product of the
  query block with the transposed key block is the sum over the 64 features, the row sums' column is spread along
  the keys, and the changes of float format and of shape move no value.  The accumulator's update: entry (r, d) is
  the accumulator's entry plus Σ_k P[r,k]·V[k,d] over the block's 512 keys.  The reset writes zeros, and the
  context block is the accumulator with a leading unit axis.
-/
import proofs.«136387_j50483045597399_1_alg».proof.Proof.Gen.KernelIdeal.Skeleton
import proofs.«136387_j50483045597399_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Idealize.SL.Sem

/-! ## The two products' operand indices, axis by axis -/

/-- Q·Kᵀ: the left operand's row is the result's row. -/
theorem lhs_qk_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
/-- Q·Kᵀ: the left operand's column is the feature summed over. -/
theorem lhs_qk_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
/-- Q·Kᵀ: the right operand's row is the feature summed over. -/
theorem rhs_qk_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
/-- Q·Kᵀ: the right operand's column is the result's column. -/
theorem rhs_qk_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- P·V: the left operand's row is the result's row. -/
theorem lhs_pv_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
/-- P·V: the left operand's column is the key summed over. -/
theorem lhs_pv_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
/-- P·V: the right operand's row is the key summed over. -/
theorem rhs_pv_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
/-- P·V: the right operand's column is the result's column. -/
theorem rhs_pv_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-! ## The two products at an entry -/

/-- The product of a 512x64 block with a 64x512 block into zero: entry (r, k) is the sum over the 64 features. -/
theorem matmul_qk_apply (a : FVec Ideal S512x64 .bf16) (b : FVec Ideal S64x512 .bf16) (r k : Fin 512) :
    matmul dot_S512x64_S64x512_S512x512_1_0_0_1_n_n none a b (constant (F := Ideal) S512x512 .f32 0x00000000#32) (ix2 r k)
      = ∑ d : Fin 64, a (ix2 r d) * b (ix2 d k) := by
  simp only [matmul]
  rw [Ideal.matmul_constant_zero_apply, ← Equiv.sum_comp (ValueIdx.contrEquiv1 dot_S512x64_S64x512_S512x512_1_0_0_1_n_n 64 rfl rfl).symm]
  refine Finset.sum_congr rfl fun d _ => ?_
  have hk := ValueIdx.contrEquiv1_symm_val dot_S512x64_S64x512_S512x512_1_0_0_1_n_n 64 rfl rfl d
  have el : dot_S512x64_S64x512_S512x512_1_0_0_1_n_n.lhsIdx (ix2 r k) ((ValueIdx.contrEquiv1 dot_S512x64_S64x512_S512x512_1_0_0_1_n_n 64 rfl rfl).symm d) = ix2 r d := funext fun a => Fin.ext (by
    match a with
    | ⟨0, _⟩ => exact lhs_qk_0 _ _
    | ⟨1, _⟩ => exact (lhs_qk_1 _ _).trans hk)
  have er : dot_S512x64_S64x512_S512x512_1_0_0_1_n_n.rhsIdx (ix2 r k) ((ValueIdx.contrEquiv1 dot_S512x64_S64x512_S512x512_1_0_0_1_n_n 64 rfl rfl).symm d) = ix2 d k := funext fun a => Fin.ext (by
    match a with
    | ⟨0, _⟩ => exact (rhs_qk_0 _ _).trans hk
    | ⟨1, _⟩ => exact rhs_qk_1 _ _)
  rw [el, er]

/-- The product of a 512x512 block with a 512x64 block into zero: entry (r, d) is the sum over the 512 keys. -/
theorem matmul_pv_apply (a : FVec Ideal S512x512 .bf16) (b : FVec Ideal S512x64 .bf16) (r : Fin 512) (d : Fin 64) :
    matmul dot_S512x512_S512x64_S512x64_1_0_0_1_n_n none a b (constant (F := Ideal) S512x64 .f32 0x00000000#32) (ix2 r d)
      = ∑ k : Fin 512, a (ix2 r k) * b (ix2 k d) := by
  simp only [matmul]
  rw [Ideal.matmul_constant_zero_apply, ← Equiv.sum_comp (ValueIdx.contrEquiv1 dot_S512x512_S512x64_S512x64_1_0_0_1_n_n 512 rfl rfl).symm]
  refine Finset.sum_congr rfl fun k _ => ?_
  have hk := ValueIdx.contrEquiv1_symm_val dot_S512x512_S512x64_S512x64_1_0_0_1_n_n 512 rfl rfl k
  have el : dot_S512x512_S512x64_S512x64_1_0_0_1_n_n.lhsIdx (ix2 r d) ((ValueIdx.contrEquiv1 dot_S512x512_S512x64_S512x64_1_0_0_1_n_n 512 rfl rfl).symm k) = ix2 r k := funext fun a => Fin.ext (by
    match a with
    | ⟨0, _⟩ => exact lhs_pv_0 _ _
    | ⟨1, _⟩ => exact (lhs_pv_1 _ _).trans hk)
  have er : dot_S512x512_S512x64_S512x64_1_0_0_1_n_n.rhsIdx (ix2 r d) ((ValueIdx.contrEquiv1 dot_S512x512_S512x64_S512x64_1_0_0_1_n_n 512 rfl rfl).symm k) = ix2 k d := funext fun a => Fin.ext (by
    match a with
    | ⟨0, _⟩ => exact (rhs_pv_0 _ _).trans hk
    | ⟨1, _⟩ => exact rhs_pv_1 _ _)
  rw [el, er]

/-! ## The layout operations at an entry -/

/-- A 512x1 column spread along 512 keys reads its row's entry. -/
theorem broadcastTo_col_apply (x : FVec Ideal S512x1 .f32) (r k : Fin 512) :
    broadcastTo S512x512 x broadcasts_S512x1_S512x512 (ix2 r k) = x (ix2 r (0 : Fin 1)) :=
  broadcastTo_apply x broadcasts_S512x1_S512x512 (ix2 r k) (ix2 r (0 : Fin 1)) (fun a => match a with
    | ⟨0, _⟩ => by show r.val = if (512 : Nat) = 1 then 0 else r.val; rw [if_neg (by decide)]
    | ⟨1, _⟩ => by show 0 = if (1 : Nat) = 1 then 0 else k.val; rw [if_pos rfl])

/-- A 1x512x1 block viewed 512x1 reads (0, r, 0) at (r, 0). -/
theorem shapeCast_l_apply (x : Vec Ideal S1x512x1 .f32) (r : Fin 512) :
    shapeCast S512x1 x shapeCasts_S1x512x1_S512x1 (ix2 r (0 : Fin 1)) = x (ix3 (0 : Fin 1) r (0 : Fin 1)) :=
  shapeCast_1ab_ab_apply x shapeCasts_S1x512x1_S512x1 r 0

/-- The transposed key block reads (k, d) at (d, k). -/
theorem transpose_k_apply (x : FVec Ideal S512x64 .bf16) (d : Fin 64) (k : Fin 512) :
    transpose S64x512 [1, 0] x transposes_S512x64_p1_0_S64x512 (ix2 d k) = x (ix2 k d) :=
  transpose_apply _ x transposes_S512x64_p1_0_S64x512 _ _ fun c => match c with | ⟨0, _⟩ => rfl | ⟨1, _⟩ => rfl

/-! ## The payloads at an entry -/

/-- The probability block at (r, k). -/
theorem k1_pay5_apply (x0 x1 : Vec Ideal S1x512x64 .f32) (x3 : Vec Ideal S512x512 .f32) (xl : Vec Ideal S1x512x1 .f32) (r k : Fin 512) :
    k1_pay5 (F := Ideal) x0 x1 x3 xl (ix2 r k)
      = Ideal.div (Ideal.exp ((∑ d : Fin 64, x0 (ix3 (0 : Fin 1) r d) * x1 (ix3 (0 : Fin 1) k d)) * AttnSpec.c8) * x3 (ix2 r k))
          (xl (ix3 (0 : Fin 1) r (0 : Fin 1)) + AttnSpec.eps) := by
  unfold k1_pay5
  simp only [shapeCast_self]
  refine (divf_apply _ _ _).trans ?_
  refine congrArg₂ Ideal.div ?_ ?_
  · refine (mulf_apply _ _ _).trans ?_
    refine congrArg (· * x3 (ix2 r k)) ?_
    show Ideal.exp (_ * _) = _
    refine congrArg Ideal.exp ?_
    refine congrArg₂ (· * ·) ?_ rfl
    refine (matmul_qk_apply _ _ r k).trans ?_
    refine Finset.sum_congr rfl fun d _ => ?_
    refine congrArg₂ (· * ·) ?_ ?_
    · exact shapeCast_1ab_ab_apply x0 shapeCasts_S1x512x64_S512x64 r d
    · refine (transpose_k_apply _ d k).trans ?_
      exact shapeCast_1ab_ab_apply x1 shapeCasts_S1x512x64_S512x64 k d
  · refine (broadcastTo_col_apply _ r k).trans ?_
    refine (addf_apply _ _ _).trans ?_
    exact congrArg (· + AttnSpec.eps) (shapeCast_l_apply xl r)

/-- The attention block as stored: the probability block under a leading unit axis. -/
theorem k1_pay6_apply (x0 x1 : Vec Ideal S1x512x64 .f32) (x3 : Vec Ideal S512x512 .f32) (xl : Vec Ideal S1x512x1 .f32) (r k : Fin 512) :
    k1_pay6 (F := Ideal) x0 x1 x3 xl (ix3 (0 : Fin 1) r k) = k1_pay5 (F := Ideal) x0 x1 x3 xl (ix2 r k) := by
  unfold k1_pay6
  exact shapeCast_ab_1ab_apply _ shapeCasts_S512x512_S1x512x512 0 r k

/-- The probability block in the narrower format: the same extended reals. -/
theorem k1_pay7_eq (x0 x1 : Vec Ideal S1x512x64 .f32) (x3 : Vec Ideal S512x512 .f32) (xl : Vec Ideal S1x512x1 .f32) :
    k1_pay7 (F := Ideal) x0 x1 x3 xl = k1_pay5 (F := Ideal) x0 x1 x3 xl := rfl

/-- The value block without its unit axis, in the narrower format. -/
theorem k1_pay4_apply (v9 : Vec Ideal S1x512x64 .f32) (k : Fin 512) (d : Fin 64) :
    k1_pay4 (F := Ideal) v9 (ix2 k d) = v9 (ix3 (0 : Fin 1) k d) := by
  unfold k1_pay4
  exact shapeCast_1ab_ab_apply v9 shapeCasts_S1x512x64_S512x64 k d

/-- The accumulator's update at (r, d): its entry plus the sum over the block's keys. -/
theorem k1_pay1_apply (v11 : FVec Ideal S512x64 .bf16) (v29 : Vec Ideal S512x64 .f32) (v30 : FVec Ideal S512x512 .bf16) (r : Fin 512) (d : Fin 64) :
    k1_pay1 (F := Ideal) v11 v29 v30 (ix2 r d) = v29 (ix2 r d) + ∑ k : Fin 512, v30 (ix2 r k) * v11 (ix2 k d) := by
  unfold k1_pay1
  simp only [shapeCast_self]
  refine (addf_apply _ _ _).trans ?_
  exact congrArg (v29 (ix2 r d) + ·) (matmul_pv_apply v30 v11 r d)

/-- The context block as stored: the accumulator under a leading unit axis. -/
theorem k1_pay2_apply (v : Vec Ideal S512x64 .f32) (r : Fin 512) (d : Fin 64) :
    k1_pay2 (F := Ideal) v (ix3 (0 : Fin 1) r d) = v (ix2 r d) := by
  unfold k1_pay2
  exact shapeCast_ab_1ab_apply v shapeCasts_S512x64_S1x512x64 0 r d

/-- The reset writes zeros. -/
theorem k1_pay3_apply (r : Fin 512) (d : Fin 64) : k1_pay3 (F := Ideal) (ix2 r d) = 0 := by
  unfold k1_pay3
  simp only [shapeCast_self]
  exact Ideal.ofBits_zero_f32

end Cert.KernelIdeal.Hand

end
-- ==== Proof.KI.R1Val.lean ====
/-
  Region 1's two results as values.
  At a point (head bh, query block qi, key block ki) the attention block written back is
      P[r, k] = exp((Σ_d Q[bh, 512 qi + r, d]·K[bh, 512 ki + k, d])·(1/8)) · mask[512 qi + r, 512 ki + k] / (l[bh, 512 qi + r] + ε),
  and with l the specification's row sums this is the specification's attn at (bh, 512 qi + r, 512 ki + k): the blocks
  of the (64, 4, 4) grid tile the (64, 2048, 2048) array, one point each.
  The accumulator after the point holds, at (r, d), the sum over the key blocks 0 … ki of Σ_k P_j[r, k]·V[bh, 512 j + k, d]:
  zero plus block 0's sum where ki = 0, and what the point before left plus this block's sum elsewhere (the point
  before has the same head and query block and the key block before).  Where ki = 3 that is the sum over all four
  key blocks, which is the specification's sum over the 2048 keys — addition on the extended reals is commutative and
  associative — and its copy is the context block written back: these blocks tile the (64, 2048, 64) array.
-/
import proofs.«136387_j50483045597399_1_alg».proof.Proof.KI.R1ValPieces
import proofs.«136387_j50483045597399_1_alg».proof.Proof.KI.R1Pay

set_option maxRecDepth 16384

noncomputable section

namespace Cert.KernelIdeal.Hand.R1V

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat Cfg Window)

/-! ## What each point leaves, over the point's blocks (any float instance) -/

section Points
variable {F : FTy → Type} [FloatOps F]
variable (V : (c : Dev nD) → (b : Ref sig .tc) → Buf (Elt F) ((c : Thread nD τ).loc b))

/-- The attention block after any point is the probability block of the point's input blocks. -/
theorem attn_out (c : Dev nD) (t : Fin cfg1.N) :
    (outsAt1 V c t.val t.isLt).1 = (k1_pay6 (iblk1 V c 0 t) (iblk1 V c 1 t) (iblk1 V c 3 t) (iblk1 V c 4 t)) := by
  by_cases h0 : t.val % 4 = 0
  · have h1 : ¬t.val % 4 = 3 := by omega
    rw [outsAt1_A V c t h0 h1]; dsimp only
    exact attn1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)
  · by_cases h1 : t.val % 4 = 3
    · rw [outsAt1_C V c t h0 h1]; dsimp only
      exact attn1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2
    · rw [outsAt1_B V c t h0 h1]; dsimp only
      exact attn1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2

/-- Where ki = 0 the accumulator ends at zero plus this key block's product. -/
theorem acc_first (c : Dev nD) (t : Fin cfg1.N) (h0 : t.val % 4 = 0) :
    (outsAt1 V c t.val t.isLt).2.2 = k1_pay1 (k1_pay4 (iblk1 V c 2 t)) (k1_pay3 (F := F)) (k1_pay7 (iblk1 V c 0 t) (iblk1 V c 1 t) (iblk1 V c 3 t) (iblk1 V c 4 t)) := by
  have h1 : ¬t.val % 4 = 3 := by omega
  rw [outsAt1_A V c t h0 h1]; dsimp only
  exact acc1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)

/-- Elsewhere it ends at what the point before left plus this key block's product. -/
theorem acc_next (c : Dev nD) (t : Fin cfg1.N) (h0 : ¬t.val % 4 = 0) :
    (outsAt1 V c t.val t.isLt).2.2 = k1_pay1 (k1_pay4 (iblk1 V c 2 t)) (outsAt1 V c (t.val - 1) (Nat.lt_of_le_of_lt (Nat.sub_le _ _) t.isLt)).2.2 (k1_pay7 (iblk1 V c 0 t) (iblk1 V c 1 t) (iblk1 V c 3 t) (iblk1 V c 4 t)) := by
  by_cases h1 : t.val % 4 = 3
  · rw [outsAt1_C V c t h0 h1]; dsimp only
    exact acc1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2
  · rw [outsAt1_B V c t h0 h1]; dsimp only
    exact acc1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2

/-- Where ki = 3 the context block is the accumulator under a leading unit axis. -/
theorem ctx_out (c : Dev nD) (t : Fin cfg1.N) (h1 : t.val % 4 = 3) :
    (outsAt1 V c t.val t.isLt).2.1 = k1_pay2 (outsAt1 V c t.val t.isLt).2.2 := by
  have h0 : ¬t.val % 4 = 0 := by omega
  rw [outsAt1_C V c t h0 h1]; dsimp only
  exact (ctx1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2).trans
    (congrArg k1_pay2 (acc1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2).symm)

end Points

/-! ## A point's coordinates, and the printed index maps over the grid -/

/-- The head of point n of the (64, 4, 4) grid. -/
def bhN (n : ℕ) : Fin 64 := ⟨(n / 16) % 64, Nat.mod_lt _ (by decide)⟩
/-- Position k of block j (taken modulo 4) along an axis of 2048 cut into four blocks of 512. -/
def keyN (j : ℕ) (k : Fin 512) : Fin 2048 :=
  ⟨k.val + 512 * (j % 4), by have := k.isLt; have := Nat.mod_lt j (show 0 < 4 by decide); omega⟩
theorem keyN_val (j : Fin 4) (k : Fin 512) : keyN j.val k = AttnSpec.key j k :=
  Fin.ext (by show k.val + 512 * (j.val % 4) = k.val + 512 * j.val; rw [Nat.mod_eq_of_lt j.isLt])

theorem idx1_0 : ∀ t : Fin cfg1.N, win1_0.index t (0 : Fin 3) = t.val / 16 ∧ win1_0.index t (1 : Fin 3) = (t.val / 4) % 4 ∧ win1_0.index t (2 : Fin 3) = 0 :=
  (by decide +kernel : ∀ t : Fin grid1.N, _)
theorem idx1_1 : ∀ t : Fin cfg1.N, win1_1.index t (0 : Fin 3) = t.val / 16 ∧ win1_1.index t (1 : Fin 3) = t.val % 4 ∧ win1_1.index t (2 : Fin 3) = 0 :=
  (by decide +kernel : ∀ t : Fin grid1.N, _)
theorem idx1_2 : ∀ t : Fin cfg1.N, win1_2.index t (0 : Fin 3) = t.val / 16 ∧ win1_2.index t (1 : Fin 3) = t.val % 4 ∧ win1_2.index t (2 : Fin 3) = 0 :=
  (by decide +kernel : ∀ t : Fin grid1.N, _)
theorem idx1_3 : ∀ t : Fin cfg1.N, win1_3.index t (0 : Fin 2) = (t.val / 4) % 4 ∧ win1_3.index t (1 : Fin 2) = t.val % 4 :=
  (by decide +kernel : ∀ t : Fin grid1.N, _)
theorem idx1_4 : ∀ t : Fin cfg1.N, win1_4.index t (0 : Fin 3) = t.val / 16 ∧ win1_4.index t (1 : Fin 3) = (t.val / 4) % 4 ∧ win1_4.index t (2 : Fin 3) = 0 :=
  (by decide +kernel : ∀ t : Fin grid1.N, _)
theorem idx1_5 : ∀ t : Fin cfg1.N, win1_5.index t (0 : Fin 3) = t.val / 16 ∧ win1_5.index t (1 : Fin 3) = (t.val / 4) % 4 ∧ win1_5.index t (2 : Fin 3) = t.val % 4 :=
  (by decide +kernel : ∀ t : Fin grid1.N, _)
theorem idx1_6 : ∀ t : Fin cfg1.N, win1_6.index t (0 : Fin 3) = t.val / 16 ∧ win1_6.index t (1 : Fin 3) = (t.val / 4) % 4 ∧ win1_6.index t (2 : Fin 3) = 0 :=
  (by decide +kernel : ∀ t : Fin grid1.N, _)

theorem lt_N1 (t : Fin cfg1.N) : t.val < 1024 := lt_of_lt_of_eq t.isLt (show cfg1.N = 1024 from N_1)

/-- The specification's attn at equal coordinates. -/
theorem attn_congr (Q K : AttnSpec.A3) (M : AttnSpec.A2) {bh bh' : Fin 64} {q q' k k' : Fin 2048}
    (hb : bh.val = bh'.val) (hq : q.val = q'.val) (hk : k.val = k'.val) :
    AttnSpec.attn Q K M bh q k = AttnSpec.attn Q K M bh' q' k' := by
  obtain rfl := Fin.ext hb; obtain rfl := Fin.ext hq; obtain rfl := Fin.ext hk; rfl
/-- The specification's ctx at equal coordinates. -/
theorem ctx_congr (Q K Vv : AttnSpec.A3) (M : AttnSpec.A2) {bh bh' : Fin 64} {q q' : Fin 2048} {d d' : Fin 64}
    (hb : bh.val = bh'.val) (hq : q.val = q'.val) (hd : d.val = d'.val) :
    AttnSpec.ctx Q K Vv M bh q d = AttnSpec.ctx Q K Vv M bh' q' d' := by
  obtain rfl := Fin.ext hb; obtain rfl := Fin.ext hq; obtain rfl := Fin.ext hd; rfl

/-! ## The values, over the extended reals -/

section Values
variable (V : (c : Dev nD) → (b : Ref sig .tc) → Buf (Elt Ideal) ((c : Thread nD τ).loc b))

/-- The arrays region 1 finds, at their literal types. -/
abbrev Qa (c : Dev nD) : AttnSpec.A3 := V c main_v0
abbrev Ka (c : Dev nD) : AttnSpec.A3 := V c main_v1
abbrev Va (c : Dev nD) : AttnSpec.A3 := V c main_v2
abbrev Ma (c : Dev nD) : AttnSpec.A2 := V c main_v3
abbrev La (c : Dev nD) : S64x2048x1.Idx → EReal := V c main_v4
/-- A point's five input blocks, at their literal types. -/
abbrev qblk (c : Dev nD) (t : Fin cfg1.N) : Vec Ideal S1x512x64 .f32 := iblk1 V c 0 t
abbrev kblk (c : Dev nD) (t : Fin cfg1.N) : Vec Ideal S1x512x64 .f32 := iblk1 V c 1 t
abbrev vblk (c : Dev nD) (t : Fin cfg1.N) : Vec Ideal S1x512x64 .f32 := iblk1 V c 2 t
abbrev mblk (c : Dev nD) (t : Fin cfg1.N) : Vec Ideal S512x512 .f32 := iblk1 V c 3 t
abbrev lblk (c : Dev nD) (t : Fin cfg1.N) : Vec Ideal S1x512x1 .f32 := iblk1 V c 4 t

/-- The query block's entry (0, r, d) is Q at (head, 512 qi + r, d). -/
theorem qblk_apply (c : Dev nD) (t : Fin cfg1.N) (r : Fin 512) (d : Fin 64) :
    qblk V c t (ix3 (0 : Fin 1) r d) = Qa V c (ix3 (bhN t.val) (keyN (t.val / 4) r) d) := by
  obtain ⟨e0, e1, e2⟩ := idx1_0 t
  have hN := lt_N1 t
  show ((cfg1.win 0).blk t).view.read (Elt Ideal) (V c main_v0) (ix3 (0 : Fin 1) r d) = _
  rw [View.read_apply]
  show V c main_v0 _ = V c main_v0 _
  congr 1
  funext a
  apply Fin.ext
  match a with
  | ⟨0, _⟩ => show win1_0.index t (0 : Fin 3) * 1 + 1 * (0 : Fin 1).val = (t.val / 16) % 64; rw [e0]; show _ * 1 + 1 * 0 = _; omega
  | ⟨1, _⟩ => show win1_0.index t (1 : Fin 3) * 512 + 1 * r.val = r.val + 512 * ((t.val / 4) % 4); rw [e1]; omega
  | ⟨2, _⟩ => show win1_0.index t (2 : Fin 3) * 64 + 1 * d.val = d.val; rw [e2]; omega

/-- The key block's entry (0, k, d) is K at (head, 512 ki + k, d). -/
theorem kblk_apply (c : Dev nD) (t : Fin cfg1.N) (k : Fin 512) (d : Fin 64) :
    kblk V c t (ix3 (0 : Fin 1) k d) = Ka V c (ix3 (bhN t.val) (keyN (t.val % 4) k) d) := by
  obtain ⟨e0, e1, e2⟩ := idx1_1 t
  have hN := lt_N1 t
  show ((cfg1.win 1).blk t).view.read (Elt Ideal) (V c main_v1) (ix3 (0 : Fin 1) k d) = _
  rw [View.read_apply]
  show V c main_v1 _ = V c main_v1 _
  congr 1
  funext a
  apply Fin.ext
  match a with
  | ⟨0, _⟩ => show win1_1.index t (0 : Fin 3) * 1 + 1 * (0 : Fin 1).val = (t.val / 16) % 64; rw [e0]; show _ * 1 + 1 * 0 = _; omega
  | ⟨1, _⟩ => show win1_1.index t (1 : Fin 3) * 512 + 1 * k.val = k.val + 512 * ((t.val % 4) % 4); rw [e1]; omega
  | ⟨2, _⟩ => show win1_1.index t (2 : Fin 3) * 64 + 1 * d.val = d.val; rw [e2]; omega

/-- The value block's entry (0, k, d) is V at (head, 512 ki + k, d). -/
theorem vblk_apply (c : Dev nD) (t : Fin cfg1.N) (k : Fin 512) (d : Fin 64) :
    vblk V c t (ix3 (0 : Fin 1) k d) = Va V c (ix3 (bhN t.val) (keyN (t.val % 4) k) d) := by
  obtain ⟨e0, e1, e2⟩ := idx1_2 t
  have hN := lt_N1 t
  show ((cfg1.win 2).blk t).view.read (Elt Ideal) (V c main_v2) (ix3 (0 : Fin 1) k d) = _
  rw [View.read_apply]
  show V c main_v2 _ = V c main_v2 _
  congr 1
  funext a
  apply Fin.ext
  match a with
  | ⟨0, _⟩ => show win1_2.index t (0 : Fin 3) * 1 + 1 * (0 : Fin 1).val = (t.val / 16) % 64; rw [e0]; show _ * 1 + 1 * 0 = _; omega
  | ⟨1, _⟩ => show win1_2.index t (1 : Fin 3) * 512 + 1 * k.val = k.val + 512 * ((t.val % 4) % 4); rw [e1]; omega
  | ⟨2, _⟩ => show win1_2.index t (2 : Fin 3) * 64 + 1 * d.val = d.val; rw [e2]; omega

/-- The mask block's entry (r, k) is the mask at (512 qi + r, 512 ki + k). -/
theorem mblk_apply (c : Dev nD) (t : Fin cfg1.N) (r k : Fin 512) :
    mblk V c t (ix2 r k) = Ma V c (ix2 (keyN (t.val / 4) r) (keyN (t.val % 4) k)) := by
  obtain ⟨e0, e1⟩ := idx1_3 t
  have hN := lt_N1 t
  show ((cfg1.win 3).blk t).view.read (Elt Ideal) (V c main_v3) (ix2 r k) = _
  rw [View.read_apply]
  show V c main_v3 _ = V c main_v3 _
  congr 1
  funext a
  apply Fin.ext
  match a with
  | ⟨0, _⟩ => show win1_3.index t (0 : Fin 2) * 512 + 1 * r.val = r.val + 512 * ((t.val / 4) % 4); rw [e0]; omega
  | ⟨1, _⟩ => show win1_3.index t (1 : Fin 2) * 512 + 1 * k.val = k.val + 512 * ((t.val % 4) % 4); rw [e1]; omega

/-- The row-sum block's entry (0, r, 0) is l at (head, 512 qi + r, 0). -/
theorem lblk_apply (c : Dev nD) (t : Fin cfg1.N) (r : Fin 512) :
    lblk V c t (ix3 (0 : Fin 1) r (0 : Fin 1)) = La V c (ix3 (bhN t.val) (keyN (t.val / 4) r) (0 : Fin 1)) := by
  obtain ⟨e0, e1, e2⟩ := idx1_4 t
  have hN := lt_N1 t
  show ((cfg1.win 4).blk t).view.read (Elt Ideal) (V c main_v4) (ix3 (0 : Fin 1) r (0 : Fin 1)) = _
  rw [View.read_apply]
  show V c main_v4 _ = V c main_v4 _
  congr 1
  funext a
  apply Fin.ext
  match a with
  | ⟨0, _⟩ => show win1_4.index t (0 : Fin 3) * 1 + 1 * (0 : Fin 1).val = (t.val / 16) % 64; rw [e0]; show _ * 1 + 1 * 0 = _; omega
  | ⟨1, _⟩ => show win1_4.index t (1 : Fin 3) * 512 + 1 * r.val = r.val + 512 * ((t.val / 4) % 4); rw [e1]; omega
  | ⟨2, _⟩ => show win1_4.index t (2 : Fin 3) * 1 + 1 * (0 : Fin 1).val = (0 : Fin 1).val; rw [e2]; show 0 * 1 + 1 * 0 = 0; omega

variable (hL : ∀ c, (V c main_v4 : S64x2048x1.Idx → EReal) = fun j => AttnSpec.rowsum (V c main_v0) (V c main_v1) (V c main_v3) ⟨(j 0).val, (j 0).isLt⟩ ⟨(j 1).val, (j 1).isLt⟩)
include hL

/-- A point's probability block at (r, k) is the specification's attn at (head, 512 qi + r, 512 ki + k). -/
theorem prob_apply (c : Dev nD) (t : Fin cfg1.N) (r k : Fin 512) :
    k1_pay5 (F := Ideal) (qblk V c t) (kblk V c t) (mblk V c t) (lblk V c t) (ix2 r k)
      = AttnSpec.attn (Qa V c) (Ka V c) (Ma V c) (bhN t.val) (keyN (t.val / 4) r) (keyN (t.val % 4) k) := by
  refine (k1_pay5_apply (qblk V c t) (kblk V c t) (mblk V c t) (lblk V c t) r k).trans ?_
  unfold AttnSpec.attn AttnSpec.score
  refine congrArg₂ Ideal.div ?_ ?_
  · refine congrArg₂ (· * ·) ?_ (mblk_apply V c t r k)
    refine congrArg Ideal.exp (congrArg (· * AttnSpec.c8) (Finset.sum_congr rfl fun d _ => ?_))
    exact congrArg₂ (· * ·) (qblk_apply V c t r d) (kblk_apply V c t k d)
  · refine congrArg (· + AttnSpec.eps) ?_
    exact (lblk_apply V c t r).trans (congrFun (hL c) (ix3 (bhN t.val) (keyN (t.val / 4) r) (0 : Fin 1)))

/-! ## The attention array -/

/-- The specification's attn as contents of the (64, 2048, 2048) array. -/
abbrev G5 (c : Dev nD) : S64x2048x2048.Idx → EReal := fun j =>
  AttnSpec.attn (V c main_v0) (V c main_v1) (V c main_v3) ⟨(j 0).val, (j 0).isLt⟩ ⟨(j 1).val, (j 1).isLt⟩ ⟨(j 2).val, (j 2).isLt⟩

/-- What any point writes back of the attention block is its block of the specification's attn. -/
theorem flushed5_eq (c : Dev nD) (t : Fin cfg1.N) :
    (dat1 (F := Ideal) V c).flushed 5 t = ((cfg1.win 5).blk t).view.read (Elt Ideal) (G5 V c) := by
  show (cfg1.win 5).cut (grid1.coords t) ((dat1 (F := Ideal) V c).after 5 t) = _
  rw [after1_5, attn_out V c t]
  obtain ⟨e0, e1, e2⟩ := idx1_5 t
  have hN := lt_N1 t
  refine funext fun (y : S1x512x512.Idx) => ?_
  obtain ⟨u, r, k, rfl⟩ : ∃ (u : Fin 1) (r k : Fin 512), y = ix3 u r k := ⟨y 0, y 1, y 2, eq_ix3 y⟩
  obtain rfl : u = 0 := Subsingleton.elim _ _
  rw [View.read_apply]
  refine (k1_pay6_apply (qblk V c t) (kblk V c t) (mblk V c t) (lblk V c t) r k).trans ((prob_apply V hL c t r k).trans ?_)
  refine attn_congr (V c main_v0) (V c main_v1) (V c main_v3) ?_ ?_ ?_
  · show (t.val / 16) % 64 = win1_5.index t (0 : Fin 3) * 1 + 1 * (0 : Fin 1).val; rw [e0]; show _ = _ * 1 + 1 * 0; omega
  · show r.val + 512 * ((t.val / 4) % 4) = win1_5.index t (1 : Fin 3) * 512 + 1 * r.val; rw [e1]; omega
  · show k.val + 512 * ((t.val % 4) % 4) = win1_5.index t (2 : Fin 3) * 512 + 1 * k.val; rw [e2]; omega

omit hL in
/-- An index of the attention array is in a point's block iff each coordinate is in the block's range on its axis. -/
theorem mem_blk5 (t : Fin cfg1.N) (i : S64x2048x2048.Idx) :
    i ∈ ((cfg1.win 5).blk t).view.set ↔ ∀ a : Fin 3, win1_5.index t a * S1x512x512.size a ≤ (i a).val ∧ (i a).val < win1_5.index t a * S1x512x512.size a + S1x512x512.size a := by
  show i ∈ ((View.whole main_v5_0).slice (win1_5.rect t)).set ↔ _
  rw [View.set_slice_whole, Rect.mem_set_unit]
  exact Iff.rfl

omit hL in
/-- Every index of the attention array is in the block of the point (its head, its query block, its key block). -/
theorem cover5 (i : S64x2048x2048.Idx) : ∃ t : Fin cfg1.N, (cfg1.win 5).flush t = true ∧ i ∈ ((cfg1.win 5).blk t).view.set := by
  have h0 : (i 0).val < 64 := (i 0).isLt
  have h1 : (i 1).val < 2048 := (i 1).isLt
  have h2 : (i 2).val < 2048 := (i 2).isLt
  obtain ⟨t, ht⟩ : ∃ t : Fin cfg1.N, t.val = 16 * (i 0).val + 4 * ((i 1).val / 512) + (i 2).val / 512 :=
    ⟨⟨16 * (i 0).val + 4 * ((i 1).val / 512) + (i 2).val / 512, by rw [show cfg1.N = 1024 from N_1]; omega⟩, rfl⟩
  obtain ⟨e0, e1, e2⟩ := idx1_5 t
  refine ⟨t, flush1_5 t, ?_⟩
  rw [mem_blk5]
  intro a
  match a with
  | ⟨0, _⟩ => show win1_5.index t (0 : Fin 3) * 1 ≤ (i 0).val ∧ (i 0).val < win1_5.index t (0 : Fin 3) * 1 + 1; rw [e0]; omega
  | ⟨1, _⟩ => show win1_5.index t (1 : Fin 3) * 512 ≤ (i 1).val ∧ (i 1).val < win1_5.index t (1 : Fin 3) * 512 + 512; rw [e1]; omega
  | ⟨2, _⟩ => show win1_5.index t (2 : Fin 3) * 512 ≤ (i 2).val ∧ (i 2).val < win1_5.index t (2 : Fin 3) * 512 + 512; rw [e2]; omega

/-- The attention array ends holding the specification's attn. -/
theorem attn_final (c : Dev nD) : (dat1 (F := Ideal) V c).arrAt 5 cfg1.N = G5 V c :=
  (dat1 (F := Ideal) V c).arrAt_eq_of_cover 5 (G5 V c) (fun t _ => flushed5_eq V hL c t) cover5

end Values

end Cert.KernelIdeal.Hand.R1V

end
-- ==== Proof.KI.R1Ctx.lean ====
/-
  Region 1 (the attention kernel proper): the array its context window writes ends holding
      ctx(bh, q, d) = Σ_k attn(bh, q, k) · V[bh, k, d],   attn = score / (rowsum + ε),
  of the specification, over the extended reals — given that the array of row sums it reads holds the
  specification's row sums.
  The grid point t = 16·bh + 4·qi + ki reads query rows 512·qi … 512·qi + 511, keys and values 512·ki … 512·ki + 511
  of head-batch bh, the matching 512 × 512 mask block and rows 512·qi … of the row sums.  Its probability block's
  entry (r, k) is attn(bh, 512·qi + r, 512·ki + k), and its update adds to entry (r, d) of the accumulator the sum
  over the block's keys of that times V[bh, 512·ki + k, d].  So after point t the accumulator's entry (r, d) is the
  sum of those block sums over key blocks 0 … ki (zero plus the first where ki = 0: the reset), by induction on t;
  where ki = 3 that is the sum over the 2048 keys, and the context block written back there is a copy of it.  The
  blocks written back at the points with ki = 3 tile the (64, 2048, 64) array.
-/
import proofs.«136387_j50483045597399_1_alg».proof.Proof.KI.R1ValPieces
import proofs.«136387_j50483045597399_1_alg».proof.Proof.KI.R1Pay
import proofs.«136387_j50483045597399_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand.R1C

open Cert.KernelIdeal Cert.KernelIdeal.Gen
open Idealize.ShloMosaic Idealize.ShloMosaic.TcCoe Idealize.ShloMosaic.Tactic
open Idealize.SL.Sem
open Idealize.ShloMosaic.Pipeline (Dat Cfg Window)

open Idealize.ShloMosaic.ValueIdx

variable (V : (c : Dev nD) → (b : Ref sig .tc) → Buf (Elt Ideal) ((c : Thread nD τ).loc b))

/-! ## The point's coordinates and the blocks it reads -/

/-- A point's linear position is below 1024. -/
theorem pos_lt (t : Fin cfg1.N) : t.val < 1024 := lt_of_lt_of_eq t.isLt (show cfg1.N = 1024 from N_1)

/-- The head-batch number of point `t`: its first grid coordinate. -/
def bhAt (t : Fin cfg1.N) : Fin 64 := ⟨t.val / 16, by have := pos_lt t; omega⟩
/-- Row `r` of the query block of point `t`, as a row of the whole array. -/
def rowAt (t : Fin cfg1.N) (r : Fin 512) : Fin 2048 := ⟨512 * (t.val / 4 % 4) + r.val, by omega⟩
/-- The key block of point `t`: its third grid coordinate. -/
def kbAt (t : Fin cfg1.N) : Fin 4 := ⟨t.val % 4, by omega⟩

/-- The printed index maps in closed form over the linear position, decided over the grid. -/
theorem index_facts : ∀ t : Fin cfg1.N,
    (win1_0.index t (0 : Fin 3) = t.val / 16 ∧ win1_0.index t (1 : Fin 3) = t.val / 4 % 4 ∧ win1_0.index t (2 : Fin 3) = 0)
    ∧ (win1_1.index t (0 : Fin 3) = t.val / 16 ∧ win1_1.index t (1 : Fin 3) = t.val % 4 ∧ win1_1.index t (2 : Fin 3) = 0)
    ∧ (win1_2.index t (0 : Fin 3) = t.val / 16 ∧ win1_2.index t (1 : Fin 3) = t.val % 4 ∧ win1_2.index t (2 : Fin 3) = 0)
    ∧ (win1_3.index t (0 : Fin 2) = t.val / 4 % 4 ∧ win1_3.index t (1 : Fin 2) = t.val % 4)
    ∧ (win1_4.index t (0 : Fin 3) = t.val / 16 ∧ win1_4.index t (1 : Fin 3) = t.val / 4 % 4 ∧ win1_4.index t (2 : Fin 3) = 0)
    ∧ (win1_6.index t (0 : Fin 3) = t.val / 16 ∧ win1_6.index t (1 : Fin 3) = t.val / 4 % 4 ∧ win1_6.index t (2 : Fin 3) = 0) :=
  (by decide +kernel : ∀ t : Fin grid1.N, _)

/-- The five input blocks of point `t` and the arrays, at their literal types. -/
abbrev qblk (c : Dev nD) (t : Fin cfg1.N) : Vec Ideal S1x512x64 .f32 := iblk1 V c 0 t
abbrev kblk (c : Dev nD) (t : Fin cfg1.N) : Vec Ideal S1x512x64 .f32 := iblk1 V c 1 t
abbrev vblk (c : Dev nD) (t : Fin cfg1.N) : Vec Ideal S1x512x64 .f32 := iblk1 V c 2 t
abbrev mblk (c : Dev nD) (t : Fin cfg1.N) : Vec Ideal S512x512 .f32 := iblk1 V c 3 t
abbrev lblk (c : Dev nD) (t : Fin cfg1.N) : Vec Ideal S1x512x1 .f32 := iblk1 V c 4 t
abbrev Qarr (c : Dev nD) : AttnSpec.A3 := V c main_v0
abbrev Karr (c : Dev nD) : AttnSpec.A3 := V c main_v1
abbrev Varr (c : Dev nD) : AttnSpec.A3 := V c main_v2
abbrev Marr (c : Dev nD) : AttnSpec.A2 := V c main_v3

/-- The array of row sums the region reads holds the specification's row sums. -/
abbrev RowsumsHeld : Prop := ∀ c : Dev nD, (V c main_v4 : S64x2048x1.Idx → EReal)
  = fun j => AttnSpec.rowsum (V c main_v0) (V c main_v1) (V c main_v3) ⟨(j 0).val, (j 0).isLt⟩ ⟨(j 1).val, (j 1).isLt⟩

/-- The query block of point `t` holds rows 512·qi … 512·qi + 511 of head-batch `bh`. -/
theorem qblk_apply (c : Dev nD) (t : Fin cfg1.N) (r : Fin 512) (d : Fin 64) :
    qblk V c t (ix3 0 r d) = Qarr V c (ix3 (bhAt t) (rowAt t r) d) := by
  obtain ⟨⟨e0, e1, e2⟩, -, -, -, -, -⟩ := index_facts t
  show V c main_v0 (((cfg1.win 0).blk t).view.emb (ix3 0 r d)) = V c main_v0 (ix3 (bhAt t) (rowAt t r) d)
  refine congrArg (V c main_v0) (funext fun a => Fin.ext ?_)
  match a with
  | ⟨0, _⟩ => show win1_0.index t (0 : Fin 3) * 1 + 1 * 0 = t.val / 16; omega
  | ⟨1, _⟩ => show win1_0.index t (1 : Fin 3) * 512 + 1 * r.val = 512 * (t.val / 4 % 4) + r.val; omega
  | ⟨2, _⟩ => show win1_0.index t (2 : Fin 3) * 64 + 1 * d.val = d.val; omega

/-- The key block of point `t` holds the keys of block `ki` of head-batch `bh`. -/
theorem kblk_apply (c : Dev nD) (t : Fin cfg1.N) (k : Fin 512) (d : Fin 64) :
    kblk V c t (ix3 0 k d) = Karr V c (ix3 (bhAt t) (AttnSpec.key (kbAt t) k) d) := by
  obtain ⟨-, ⟨e0, e1, e2⟩, -, -, -, -⟩ := index_facts t
  show V c main_v1 (((cfg1.win 1).blk t).view.emb (ix3 0 k d)) = V c main_v1 (ix3 (bhAt t) (AttnSpec.key (kbAt t) k) d)
  refine congrArg (V c main_v1) (funext fun a => Fin.ext ?_)
  match a with
  | ⟨0, _⟩ => show win1_1.index t (0 : Fin 3) * 1 + 1 * 0 = t.val / 16; omega
  | ⟨1, _⟩ => show win1_1.index t (1 : Fin 3) * 512 + 1 * k.val = k.val + 512 * (t.val % 4); omega
  | ⟨2, _⟩ => show win1_1.index t (2 : Fin 3) * 64 + 1 * d.val = d.val; omega

/-- The value block of point `t` holds the values of key block `ki` of head-batch `bh`. -/
theorem vblk_apply (c : Dev nD) (t : Fin cfg1.N) (k : Fin 512) (d : Fin 64) :
    vblk V c t (ix3 0 k d) = Varr V c (ix3 (bhAt t) (AttnSpec.key (kbAt t) k) d) := by
  obtain ⟨-, -, ⟨e0, e1, e2⟩, -, -, -⟩ := index_facts t
  show V c main_v2 (((cfg1.win 2).blk t).view.emb (ix3 0 k d)) = V c main_v2 (ix3 (bhAt t) (AttnSpec.key (kbAt t) k) d)
  refine congrArg (V c main_v2) (funext fun a => Fin.ext ?_)
  match a with
  | ⟨0, _⟩ => show win1_2.index t (0 : Fin 3) * 1 + 1 * 0 = t.val / 16; omega
  | ⟨1, _⟩ => show win1_2.index t (1 : Fin 3) * 512 + 1 * k.val = k.val + 512 * (t.val % 4); omega
  | ⟨2, _⟩ => show win1_2.index t (2 : Fin 3) * 64 + 1 * d.val = d.val; omega

/-- The mask block of point `t` holds the query rows of block `qi` against the keys of block `ki`. -/
theorem mblk_apply (c : Dev nD) (t : Fin cfg1.N) (r k : Fin 512) :
    mblk V c t (ix2 r k) = Marr V c (ix2 (rowAt t r) (AttnSpec.key (kbAt t) k)) := by
  obtain ⟨-, -, -, ⟨e0, e1⟩, -, -⟩ := index_facts t
  show V c main_v3 (((cfg1.win 3).blk t).view.emb (ix2 r k)) = V c main_v3 (ix2 (rowAt t r) (AttnSpec.key (kbAt t) k))
  refine congrArg (V c main_v3) (funext fun a => Fin.ext ?_)
  match a with
  | ⟨0, _⟩ => show win1_3.index t (0 : Fin 2) * 512 + 1 * r.val = 512 * (t.val / 4 % 4) + r.val; omega
  | ⟨1, _⟩ => show win1_3.index t (1 : Fin 2) * 512 + 1 * k.val = k.val + 512 * (t.val % 4); omega

/-- The row sum at an index whose coordinates are named. -/
theorem rowsum_at (Q K : AttnSpec.A3) (M : AttnSpec.A2) (j : S64x2048x1.Idx) (bh : Fin 64) (q : Fin 2048)
    (hb : (j 0).val = bh.val) (hq : (j 1).val = q.val) :
    AttnSpec.rowsum Q K M ⟨(j 0).val, (j 0).isLt⟩ ⟨(j 1).val, (j 1).isLt⟩ = AttnSpec.rowsum Q K M bh q :=
  congrArg₂ (AttnSpec.rowsum Q K M) (Fin.ext hb) (Fin.ext hq)

/-- The row-sum block of point `t` holds the row sums of the query rows of block `qi` of head-batch `bh`. -/
theorem lblk_apply (hL : RowsumsHeld V) (c : Dev nD) (t : Fin cfg1.N) (r : Fin 512) :
    lblk V c t (ix3 0 r 0) = AttnSpec.rowsum (Qarr V c) (Karr V c) (Marr V c) (bhAt t) (rowAt t r) := by
  obtain ⟨-, -, -, -, ⟨e0, e1, e2⟩, -⟩ := index_facts t
  show V c main_v4 (((cfg1.win 4).blk t).view.emb (ix3 0 r 0)) = _
  refine (congrFun (hL c) _).trans (rowsum_at (Qarr V c) (Karr V c) (Marr V c) _ (bhAt t) (rowAt t r) ?_ ?_)
  · show win1_4.index t (0 : Fin 3) * 1 + 1 * 0 = t.val / 16; omega
  · show win1_4.index t (1 : Fin 3) * 512 + 1 * r.val = 512 * (t.val / 4 % 4) + r.val; omega

/-! ## The probability block and the accumulator after each point -/

/-- The probability block's entry (r, k) is the attention weight of query row 512·qi + r on key 512·ki + k. -/
theorem attn_apply (hL : RowsumsHeld V) (c : Dev nD) (t : Fin cfg1.N) (r k : Fin 512) :
    (k1_pay7 (F := Ideal) (qblk V c t) (kblk V c t) (mblk V c t) (lblk V c t)) (ix2 r k)
      = AttnSpec.attn (Qarr V c) (Karr V c) (Marr V c) (bhAt t) (rowAt t r) (AttnSpec.key (kbAt t) k) := by
  refine (congrFun (k1_pay7_eq (qblk V c t) (kblk V c t) (mblk V c t) (lblk V c t)) (ix2 r k)).trans ?_
  refine (k1_pay5_apply (qblk V c t) (kblk V c t) (mblk V c t) (lblk V c t) r k).trans ?_
  unfold AttnSpec.attn AttnSpec.score
  rw [mblk_apply V c t r k, lblk_apply V hL c t r]
  refine congrArg (fun s => Ideal.div (Ideal.exp (s * AttnSpec.c8) * Marr V c (ix2 (rowAt t r) (AttnSpec.key (kbAt t) k)))
    (AttnSpec.rowsum (Qarr V c) (Karr V c) (Marr V c) (bhAt t) (rowAt t r) + AttnSpec.eps)) ?_
  refine Finset.sum_congr rfl fun d _ => ?_
  rw [qblk_apply V c t r d, kblk_apply V c t k d]

/-- The attention weights of row `q` of head-batch `bh` on the keys of block `j` times those keys' values at
    feature `d`, summed; zero past the fourth block. -/
def blockSum (c : Dev nD) (bh : Fin 64) (q : Fin 2048) (d : Fin 64) (j : ℕ) : EReal :=
  if h : j < 4 then ∑ k' : Fin 512, AttnSpec.attn (Qarr V c) (Karr V c) (Marr V c) bh q (AttnSpec.key ⟨j, h⟩ k')
    * Varr V c (ix3 bh (AttnSpec.key ⟨j, h⟩ k') d) else 0

/-- The four block sums are the context entry: the 2048 keys split into four blocks of 512. -/
theorem sum_blockSum (c : Dev nD) (bh : Fin 64) (q : Fin 2048) (d : Fin 64) :
    ∑ j ∈ Finset.range 4, blockSum V c bh q d j = AttnSpec.ctx (Qarr V c) (Karr V c) (Varr V c) (Marr V c) bh q d := by
  unfold AttnSpec.ctx
  rw [AttnSpec.sum_blocks, Finset.sum_range]
  refine Finset.sum_congr rfl fun j _ => ?_
  unfold blockSum
  rw [dif_pos j.isLt]

/-- The update at point `t`, entry (r, d): the accumulator's entry plus the block sum of the point's key block. -/
theorem update_apply (hL : RowsumsHeld V) (c : Dev nD) (t : Fin cfg1.N) (a : Vec Ideal S512x64 .f32) (r : Fin 512) (d : Fin 64) :
    k1_pay1 (F := Ideal) (k1_pay4 (F := Ideal) (vblk V c t)) a (k1_pay7 (F := Ideal) (qblk V c t) (kblk V c t) (mblk V c t) (lblk V c t)) (ix2 r d)
      = a (ix2 r d) + blockSum V c (bhAt t) (rowAt t r) d (t.val % 4) := by
  refine (k1_pay1_apply (k1_pay4 (F := Ideal) (vblk V c t)) a (k1_pay7 (F := Ideal) (qblk V c t) (kblk V c t) (mblk V c t) (lblk V c t)) r d).trans ?_
  refine congrArg (a (ix2 r d) + ·) ?_
  unfold blockSum
  rw [dif_pos (show t.val % 4 < 4 by omega)]
  show _ = ∑ k' : Fin 512, AttnSpec.attn (Qarr V c) (Karr V c) (Marr V c) (bhAt t) (rowAt t r) (AttnSpec.key (kbAt t) k')
    * Varr V c (ix3 (bhAt t) (AttnSpec.key (kbAt t) k') d)
  refine Finset.sum_congr rfl fun k _ => ?_
  rw [attn_apply V hL c t r k, k1_pay4_apply (vblk V c t) k d, vblk_apply V c t k d]

/-- What the point before left in the accumulator. -/
abbrev prevAcc (c : Dev nD) (t : Fin cfg1.N) : Vec Ideal S512x64 .f32 :=
  (outsAt1 V c (t.val - 1) (Nat.lt_of_le_of_lt (Nat.sub_le _ _) t.isLt)).2.2

/-- Where ki = 0 the accumulator restarts: zero plus the first block sum. -/
theorem acc_reset (hL : RowsumsHeld V) (c : Dev nD) (t : Fin cfg1.N) (h0 : t.val % 4 = 0) (h1 : ¬t.val % 4 = 3) (r : Fin 512) (d : Fin 64) :
    (outsAt1 V c t.val t.isLt).2.2 (ix2 r d) = ∑ j ∈ Finset.range (t.val % 4 + 1), blockSum V c (bhAt t) (rowAt t r) d j := by
  rw [outsAt1_A V c t h0 h1]; dsimp only
  refine (congrFun (acc1_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) ((hcond1_0 t).mpr h0) (fun h => h1 ((hcond1_1 t).mp h)) (qblk V c t) (kblk V c t) (vblk V c t) (mblk V c t) (lblk V c t)) (ix2 r d)).trans ?_
  refine (update_apply V hL c t (k1_pay3 (F := Ideal)) r d).trans ?_
  rw [k1_pay3_apply r d, h0]
  exact (zero_add _).trans (Finset.sum_range_one _).symm

/-- Where ki ≠ 0 the accumulator gains this point's block sum. -/
theorem acc_step (hL : RowsumsHeld V) (c : Dev nD) (t : Fin cfg1.N) (h0 : ¬t.val % 4 = 0)
    (hprev : ∀ (r : Fin 512) (d : Fin 64), prevAcc V c t (ix2 r d) = ∑ j ∈ Finset.range (t.val % 4), blockSum V c (bhAt t) (rowAt t r) d j)
    (r : Fin 512) (d : Fin 64) :
    (outsAt1 V c t.val t.isLt).2.2 (ix2 r d) = ∑ j ∈ Finset.range (t.val % 4 + 1), blockSum V c (bhAt t) (rowAt t r) d j := by
  rw [Finset.sum_range_succ, ← hprev r d]
  by_cases h1 : t.val % 4 = 3
  · rw [outsAt1_C V c t h0 h1]; dsimp only
    refine (congrFun (acc1_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (qblk V c t) (kblk V c t) (vblk V c t) (mblk V c t) (lblk V c t) (prevAcc V c t)) (ix2 r d)).trans ?_
    exact update_apply V hL c t (prevAcc V c t) r d
  · rw [outsAt1_B V c t h0 h1]; dsimp only
    refine (congrFun (acc1_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) (fun h => h1 ((hcond1_1 t).mp h)) (qblk V c t) (kblk V c t) (vblk V c t) (mblk V c t) (lblk V c t) (prevAcc V c t)) (ix2 r d)).trans ?_
    exact update_apply V hL c t (prevAcc V c t) r d

/-- THE INVARIANT: after point `t` entry (r, d) of the accumulator holds the block sums of key blocks 0 … ki of the
    point's head-batch and query row — by induction on the point's position; the point before a point with
    ki ≠ 0 has the same head-batch and query block and the key block before. -/
theorem acc_inv (hL : RowsumsHeld V) (c : Dev nD) : ∀ (n : ℕ) (t : Fin cfg1.N), t.val = n → ∀ (r : Fin 512) (d : Fin 64),
    (outsAt1 V c t.val t.isLt).2.2 (ix2 r d) = ∑ j ∈ Finset.range (t.val % 4 + 1), blockSum V c (bhAt t) (rowAt t r) d j := by
  intro n
  induction n with
  | zero =>
    intro t ht r d
    exact acc_reset V hL c t (by omega) (by omega) r d
  | succ n ih =>
    intro t ht r d
    by_cases h0 : t.val % 4 = 0
    · exact acc_reset V hL c t h0 (by omega) r d
    · have hlt : t.val - 1 < cfg1.N := Nat.lt_of_le_of_lt (Nat.sub_le _ _) t.isLt
      refine acc_step V hL c t h0 (fun r' d' => ?_) r d
      have e := ih ⟨t.val - 1, hlt⟩ (by show t.val - 1 = n; omega) r' d'
      have hb : bhAt ⟨t.val - 1, hlt⟩ = bhAt t := Fin.ext (by show (t.val - 1) / 16 = t.val / 16; omega)
      have hr : rowAt ⟨t.val - 1, hlt⟩ r' = rowAt t r' :=
        Fin.ext (by show 512 * ((t.val - 1) / 4 % 4) + r'.val = 512 * (t.val / 4 % 4) + r'.val; omega)
      have hk : (t.val - 1) % 4 + 1 = t.val % 4 := by omega
      rw [hb, hr] at e
      exact e.trans (congrArg (fun m => ∑ j ∈ Finset.range m, blockSum V c (bhAt t) (rowAt t r') d' j) hk)

/-! ## From the written-back blocks to the array -/

/-- Where ki = 3 the context block's entry (r, d) is the accumulator's. -/
theorem out_eq_acc (c : Dev nD) (t : Fin cfg1.N) (h0 : ¬t.val % 4 = 0) (h1 : t.val % 4 = 3) (r : Fin 512) (d : Fin 64) :
    (outsAt1 V c t.val t.isLt).2.1 (ix3 (0 : Fin 1) r d) = (outsAt1 V c t.val t.isLt).2.2 (ix2 r d) := by
  rw [outsAt1_C V c t h0 h1]; dsimp only
  refine (congrFun (ctx1_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (qblk V c t) (kblk V c t) (vblk V c t) (mblk V c t) (lblk V c t) (prevAcc V c t)) (ix3 (0 : Fin 1) r d)).trans ?_
  refine (k1_pay2_apply (k1_pay1 (F := Ideal) (k1_pay4 (F := Ideal) (vblk V c t)) (prevAcc V c t) (k1_pay7 (F := Ideal) (qblk V c t) (kblk V c t) (mblk V c t) (lblk V c t))) r d).trans ?_
  exact (congrFun (acc1_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (fun h => h0 ((hcond1_0 t).mp h)) ((hcond1_1 t).mpr h1) (qblk V c t) (kblk V c t) (vblk V c t) (mblk V c t) (lblk V c t) (prevAcc V c t)) (ix2 r d)).symm

/-- What the region's context array ends holding: at (bh, q, d) the context entry of the specification. -/
abbrev ctxArr (c : Dev nD) : Buf (Elt Ideal) ((c : Thread nD τ).loc main_v5_1) := fun (j : S64x2048x64.Idx) =>
  AttnSpec.ctx (Qarr V c) (Karr V c) (Varr V c) (Marr V c) ⟨(j 0).val, (j 0).isLt⟩ ⟨(j 1).val, (j 1).isLt⟩ ⟨(j 2).val, (j 2).isLt⟩

theorem ctxArr_apply (c : Dev nD) (j : S64x2048x64.Idx) (bh : Fin 64) (q : Fin 2048) (d : Fin 64)
    (hb : (j 0).val = bh.val) (hq : (j 1).val = q.val) (hd : (j 2).val = d.val) :
    ctxArr V c j = AttnSpec.ctx (Qarr V c) (Karr V c) (Varr V c) (Marr V c) bh q d :=
  congr (congr (congrArg (AttnSpec.ctx (Qarr V c) (Karr V c) (Varr V c) (Marr V c)) (Fin.ext hb)) (Fin.ext hq)) (Fin.ext hd)

/-- WHAT A POINT WITH ki = 3 WRITES BACK is its block of the context: the accumulator after the fourth key block. -/
theorem flushed_eq (hL : RowsumsHeld V) (c : Dev nD) (t : Fin cfg1.N) (hf : (cfg1.win 6).flush t = true) :
    (dat1 V c).flushed 6 t = ((cfg1.win 6).blk t).view.read (Elt Ideal) (ctxArr V c) := by
  have h1 : t.val % 4 = 3 := (flush1_6 t).mp hf
  have h0 : ¬t.val % 4 = 0 := by omega
  obtain ⟨-, -, -, -, -, ⟨e0, e1, e2⟩⟩ := index_facts t
  show (cfg1.win 6).cut (grid1.coords t) ((dat1 V c).after 6 t) = _
  rw [after1_6]
  refine funext fun (y : S1x512x64.Idx) => ?_
  obtain ⟨a, r, d, rfl⟩ : ∃ (a : Fin 1) (r : Fin 512) (d : Fin 64), y = ix3 a r d := ⟨y 0, y 1, y 2, eq_ix3 y⟩
  obtain rfl : a = 0 := Subsingleton.elim _ _
  show (outsAt1 V c t.val t.isLt).2.1 (ix3 (0 : Fin 1) r d) = ctxArr V c (((cfg1.win 6).blk t).view.emb (ix3 (0 : Fin 1) r d))
  rw [out_eq_acc V c t h0 h1 r d, acc_inv V hL c t.val t rfl r d, h1]
  refine Eq.trans (sum_blockSum V c (bhAt t) (rowAt t r) d) (ctxArr_apply V c _ (bhAt t) (rowAt t r) d ?_ ?_ ?_).symm
  · show win1_6.index t (0 : Fin 3) * 1 + 1 * 0 = t.val / 16; omega
  · show win1_6.index t (1 : Fin 3) * 512 + 1 * r.val = 512 * (t.val / 4 % 4) + r.val; omega
  · show win1_6.index t (2 : Fin 3) * 64 + 1 * d.val = d.val; omega

/-- An index of the array is in point `t`'s context block iff each coordinate is in the block's range on its axis. -/
theorem mem_out_blk (t : Fin cfg1.N) (i : S64x2048x64.Idx) :
    i ∈ ((cfg1.win 6).blk t).view.set ↔ ∀ a : Fin 3, win1_6.index t a * S1x512x64.size a ≤ (i a).val ∧ (i a).val < win1_6.index t a * S1x512x64.size a + S1x512x64.size a := by
  show i ∈ ((View.whole main_v5_1).slice (win1_6.rect t)).set ↔ _
  rw [View.set_slice_whole, Rect.mem_set_unit]
  exact Iff.rfl

/-- Row `q` of head-batch `bh` lies in the block written back by the point (bh, q / 512, 3). -/
theorem out_cover (i : S64x2048x64.Idx) : ∃ t : Fin cfg1.N, (cfg1.win 6).flush t = true ∧ i ∈ ((cfg1.win 6).blk t).view.set := by
  have hi0 : (i 0).val < 64 := (i 0).isLt
  have hi1 : (i 1).val < 2048 := (i 1).isLt
  have hi2 : (i 2).val < 64 := (i 2).isLt
  obtain ⟨t, ht⟩ : ∃ t : Fin cfg1.N, t.val = 16 * (i 0).val + 4 * ((i 1).val / 512) + 3 :=
    ⟨⟨16 * (i 0).val + 4 * ((i 1).val / 512) + 3, lt_of_lt_of_eq (by omega) (show (1024 : ℕ) = cfg1.N from N_1.symm)⟩, rfl⟩
  obtain ⟨-, -, -, -, -, ⟨e0, e1, e2⟩⟩ := index_facts t
  refine ⟨t, (flush1_6 t).mpr (by omega), ?_⟩
  rw [mem_out_blk]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 512 ≤ (i 1).val ∧ (i 1).val < win1_6.index t (1 : Fin 3) * 512 + 512; omega
  | ⟨2, _⟩ => show win1_6.index t (2 : Fin 3) * 64 ≤ (i 2).val ∧ (i 2).val < win1_6.index t (2 : Fin 3) * 64 + 64; omega

/-- THE ARRAY after the region: the context of the specification, whatever it held before. -/
theorem ctx_final (hL : RowsumsHeld V) (c : Dev nD) :
    (dat1 V c).arrAt 6 cfg1.N = fun (j : S64x2048x64.Idx) =>
      AttnSpec.ctx (V c main_v0) (V c main_v1) (V c main_v2) (V c main_v3) ⟨(j 0).val, (j 0).isLt⟩ ⟨(j 1).val, (j 1).isLt⟩ ⟨(j 2).val, (j 2).isLt⟩ :=
  (dat1 V c).arrAt_eq_of_cover 6 (ctxArr V c) (flushed_eq V hL c) out_cover

end Cert.KernelIdeal.Hand.R1C

end
-- ==== Proof.Algebraic.lean ====
/-
  The algebraic claim: at the ideal values the two programs, from memories that agree on the four arguments, both
  run and end with equal results and unchanged arguments.  Both results are read index by index and shown to be
  one function of the arguments: the context array ctx and the attention weights attn of the specification, at
  head-batch 16·b + h.  On the kernel's side the value travels through the boundaries of the run: the closing
  reshapes read the main region's two result arrays, the main region's arrays are attn and ctx of its entry
  contents (given that its fifth input is the row sums), the row-sum region leaves the three flattened inputs and
  the mask untouched and writes the row sums, and the opening reshapes flatten the arguments.  On the reference's
  side the run's composed term is the chain of its stages, read at an index.
-/
import proofs.«136387_j50483045597399_1_alg».proof.Defs
import proofs.«136387_j50483045597399_1_alg».proof.Proof.Gen.Pre_finite_inputs
import proofs.«136387_j50483045597399_1_alg».proof.Proof.Gen.ReferenceIdeal.Run
import proofs.«136387_j50483045597399_1_alg».proof.Proof.Gen.ReferenceIdeal.Read
import proofs.«136387_j50483045597399_1_alg».proof.Proof.RefSpec
import proofs.«136387_j50483045597399_1_alg».proof.Proof.Spec
import proofs.«136387_j50483045597399_1_alg».proof.Proof.KI.Main
import proofs.«136387_j50483045597399_1_alg».proof.Proof.KI.Host
import proofs.«136387_j50483045597399_1_alg».proof.Proof.KI.R0Val
import proofs.«136387_j50483045597399_1_alg».proof.Proof.KI.R1Val
import proofs.«136387_j50483045597399_1_alg».proof.Proof.KI.R1Ctx
import Idealize.ShloMosaic.Lib.ValueIdx

set_option maxRecDepth 16384

noncomputable section

namespace Cert.Proof.AttnClaims

open Idealize.ShloMosaic Idealize.ShloMosaic.TcCoe Idealize.SL.Sem Idealize.ShloMosaic.ValueIdx

/-! ## The two results as functions of the arguments -/

/-- The context result: at (b, h, q, d), ctx at head-batch 16·b + h of the flattened arguments. -/
def outCtx (x0 x1 x2 : AttnSpec.A4) (x3 : AttnSpec.M4) : AttnSpec.A4 := fun i =>
  AttnSpec.ctx (AttnSpec.flat3 x0) (AttnSpec.flat3 x1) (AttnSpec.flat3 x2) (AttnSpec.flatM x3)
    (AttnSpec.bhOf (⟨(i 0).val, (i 0).isLt⟩ : Fin 4) (⟨(i 1).val, (i 1).isLt⟩ : Fin 16))
    (⟨(i 2).val, (i 2).isLt⟩ : Fin 2048) (⟨(i 3).val, (i 3).isLt⟩ : Fin 64)

/-- The attention weights: at (b, h, q, k), attn at head-batch 16·b + h of the flattened arguments. -/
def outAttn (x0 x1 : AttnSpec.A4) (x3 : AttnSpec.M4) : (⟨4, ![4, 16, 2048, 2048]⟩ : Shape).Idx → EReal := fun i =>
  AttnSpec.attn (AttnSpec.flat3 x0) (AttnSpec.flat3 x1) (AttnSpec.flatM x3)
    (AttnSpec.bhOf (⟨(i 0).val, (i 0).isLt⟩ : Fin 4) (⟨(i 1).val, (i 1).isLt⟩ : Fin 16))
    (⟨(i 2).val, (i 2).isLt⟩ : Fin 2048) (⟨(i 3).val, (i 3).isLt⟩ : Fin 2048)

theorem outCtx_ix (x0 x1 x2 : AttnSpec.A4) (x3 : AttnSpec.M4) (b : Fin 4) (h : Fin 16) (q : Fin 2048) (d : Fin 64) :
    outCtx x0 x1 x2 x3 (ix4 b h q d)
      = AttnSpec.ctx (AttnSpec.flat3 x0) (AttnSpec.flat3 x1) (AttnSpec.flat3 x2) (AttnSpec.flatM x3) (AttnSpec.bhOf b h) q d := rfl

theorem outAttn_ix (x0 x1 : AttnSpec.A4) (x3 : AttnSpec.M4) (b : Fin 4) (h : Fin 16) (q k : Fin 2048) :
    outAttn x0 x1 x3 (ix4 b h q k)
      = AttnSpec.attn (AttnSpec.flat3 x0) (AttnSpec.flat3 x1) (AttnSpec.flatM x3) (AttnSpec.bhOf b h) q k := rfl

/-! ## The reference's two results -/

/-- The reference's last stage is the context result. -/
theorem ref_v12 (x0 x1 x2 : AttnSpec.A4) (x3 : AttnSpec.M4) :
    Cert.ReferenceIdeal.Read.val_main_v12 (F := Ideal) x0 x1 x2 x3 = outCtx x0 x1 x2 x3 := by
  funext i
  obtain ⟨b, h, q, d, rfl⟩ : ∃ (b : Fin 4) (h : Fin 16) (q : Fin 2048) (d : Fin 64), i = ix4 b h q d := ⟨_, _, _, _, eq_ix4 i⟩
  exact (Cert.ReferenceIdeal.RefValue.ref_ctx x0 x1 x2 x3 b h q d).trans (outCtx_ix x0 x1 x2 x3 b h q d).symm

/-- The reference's normalised scores are the attention weights. -/
theorem ref_v11 (x0 x1 : AttnSpec.A4) (x3 : AttnSpec.M4) :
    Cert.ReferenceIdeal.Read.val_main_v11 (F := Ideal) x0 x1 x3 = outAttn x0 x1 x3 := by
  funext i
  obtain ⟨b, h, q, k, rfl⟩ : ∃ (b : Fin 4) (h : Fin 16) (q k : Fin 2048), i = ix4 b h q k := ⟨_, _, _, _, eq_ix4 i⟩
  exact (Cert.ReferenceIdeal.RefValue.ref_attn x0 x1 x3 b h q k).trans (outAttn_ix x0 x1 x3 b h q k).symm

/-- The reference runs, and ends with the two results at the specification's functions of its arguments, the
    arguments unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v12)
            = outCtx (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_v11)
            = outAttn (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono (fun _ h c =>
    ⟨(h c).1.trans ((Cert.ReferenceIdeal.Read.val_main_v12_eq (F := Ideal) _ _ _ _).trans (ref_v12 _ _ _ _)),
     (h c).2.1.trans ((Cert.ReferenceIdeal.Read.val_main_v11_eq (F := Ideal) _ _ _).trans (ref_v11 _ _ _)),
     (h c).2.2⟩) (Cert.ReferenceIdeal.Value.run (F := Ideal) m' g')

/-! ## The kernel's side: the contents at each boundary of its run -/

section Kernel

open Cert.KernelIdeal Cert.KernelIdeal.Gen Cert.KernelIdeal.Hand

variable (m : (ℓ : Loc nD τ sig) → Buf (Elt Ideal) ℓ)

/-- The four arguments on core `c`. -/
abbrev xQ (c : Dev nD) : AttnSpec.A4 := m ((c.tc : Thread nD τ).loc main_arg0)
abbrev xK (c : Dev nD) : AttnSpec.A4 := m ((c.tc : Thread nD τ).loc main_arg1)
abbrev xV (c : Dev nD) : AttnSpec.A4 := m ((c.tc : Thread nD τ).loc main_arg2)
abbrev xM (c : Dev nD) : AttnSpec.M4 := m ((c.tc : Thread nD τ).loc main_arg3)

/-! ### The row-sum region's entry: the opening reshapes of the arguments -/

theorem in0_v0 (c : Dev nD) : (VV1 m c main_v0 : S64x2048x64.Idx → EReal) = AttnSpec.flat3 (xQ m c) := host0_v0 (W0 m c)
theorem in0_v1 (c : Dev nD) : (VV1 m c main_v1 : S64x2048x64.Idx → EReal) = AttnSpec.flat3 (xK m c) := host0_v1 (W0 m c)
theorem in0_v2 (c : Dev nD) : (VV1 m c main_v2 : S64x2048x64.Idx → EReal) = AttnSpec.flat3 (xV m c) := host0_v2 (W0 m c)
theorem in0_v3 (c : Dev nD) : (VV1 m c main_v3 : S2048x2048.Idx → EReal) = AttnSpec.flatM (xM m c) := host0_v3 (W0 m c)

/-! ### The main region's entry: the row-sum region reads its three inputs and writes the row sums -/

/-- An input window's array leaves the row-sum region as it entered. -/
theorem in1_v0 (c : Dev nD) : (VV2 m c main_v0 : S64x2048x64.Idx → EReal) = AttnSpec.flat3 (xQ m c) :=
  ((W2_arr m c 0).trans ((Pipeline.Dat.arrAt_in (dat := dat0 (VV1 m) c) 0 rfl _).trans (A_eq0 (VV1 m) c 0))).trans (in0_v0 m c)
theorem in1_v1 (c : Dev nD) : (VV2 m c main_v1 : S64x2048x64.Idx → EReal) = AttnSpec.flat3 (xK m c) :=
  ((W2_arr m c 1).trans ((Pipeline.Dat.arrAt_in (dat := dat0 (VV1 m) c) 1 rfl _).trans (A_eq0 (VV1 m) c 1))).trans (in0_v1 m c)
theorem in1_v3 (c : Dev nD) : (VV2 m c main_v3 : S2048x2048.Idx → EReal) = AttnSpec.flatM (xM m c) :=
  ((W2_arr m c 2).trans ((Pipeline.Dat.arrAt_in (dat := dat0 (VV1 m) c) 2 rfl _).trans (A_eq0 (VV1 m) c 2))).trans (in0_v3 m c)
/-- The third flattened input is no window of the row-sum region. -/
theorem in1_v2 (c : Dev nD) : (VV2 m c main_v2 : S64x2048x64.Idx → EReal) = AttnSpec.flat3 (xV m c) :=
  (W2_of_ne m c main_v2 (by decide)).trans (in0_v2 m c)

/- What the row-sum region's output array holds at its end, for any entry contents. -/
variable (hR : ∀ (V : (c : Dev nD) → (b : Ref sig .tc) → Buf (Elt Ideal) ((c : Thread nD τ).loc b)) (c : Dev nD),
  ((dat0 (F := Ideal) V c).arrAt 3 cfg0.N : S64x2048x1.Idx → EReal)
    = fun j => AttnSpec.rowsum (V c main_v0) (V c main_v1) (V c main_v3) (⟨(j 0).val, (j 0).isLt⟩ : Fin 64) (⟨(j 1).val, (j 1).isLt⟩ : Fin 2048))

include hR in
/-- The row sums of the flattened arguments. -/
theorem in1_v4 (c : Dev nD) : (VV2 m c main_v4 : S64x2048x1.Idx → EReal)
    = fun j => AttnSpec.rowsum (AttnSpec.flat3 (xQ m c)) (AttnSpec.flat3 (xK m c)) (AttnSpec.flatM (xM m c))
        (⟨(j 0).val, (j 0).isLt⟩ : Fin 64) (⟨(j 1).val, (j 1).isLt⟩ : Fin 2048) := by
  have h := (W2_arr m c 3).trans (hR (VV1 m) c)
  rw [in0_v0 m c, in0_v1 m c, in0_v3 m c] at h
  exact h

include hR in
/-- The main region's fifth input is the row sums of its first, second and fourth. -/
theorem hL2 (c : Dev nD) : (VV2 m c main_v4 : S64x2048x1.Idx → EReal)
    = fun j => AttnSpec.rowsum (VV2 m c main_v0) (VV2 m c main_v1) (VV2 m c main_v3)
        (⟨(j 0).val, (j 0).isLt⟩ : Fin 64) (⟨(j 1).val, (j 1).isLt⟩ : Fin 2048) := by
  rw [in1_v4 m hR c, in1_v0 m c, in1_v1 m c, in1_v3 m c]

/-! ### The main region's exit: its two result arrays -/

/- What the main region's two output arrays hold at its end, for any entry contents whose fifth array is the row sums
   of the first, second and fourth. -/
variable (hA : ∀ (V : (c : Dev nD) → (b : Ref sig .tc) → Buf (Elt Ideal) ((c : Thread nD τ).loc b))
    (hL : ∀ c, (V c main_v4 : S64x2048x1.Idx → EReal)
      = fun j => AttnSpec.rowsum (V c main_v0) (V c main_v1) (V c main_v3) (⟨(j 0).val, (j 0).isLt⟩ : Fin 64) (⟨(j 1).val, (j 1).isLt⟩ : Fin 2048))
    (c : Dev nD),
  ((dat1 (F := Ideal) V c).arrAt 5 cfg1.N : S64x2048x2048.Idx → EReal)
    = fun j => AttnSpec.attn (V c main_v0) (V c main_v1) (V c main_v3)
        (⟨(j 0).val, (j 0).isLt⟩ : Fin 64) (⟨(j 1).val, (j 1).isLt⟩ : Fin 2048) (⟨(j 2).val, (j 2).isLt⟩ : Fin 2048))
variable (hC : ∀ (V : (c : Dev nD) → (b : Ref sig .tc) → Buf (Elt Ideal) ((c : Thread nD τ).loc b))
    (hL : ∀ c, (V c main_v4 : S64x2048x1.Idx → EReal)
      = fun j => AttnSpec.rowsum (V c main_v0) (V c main_v1) (V c main_v3) (⟨(j 0).val, (j 0).isLt⟩ : Fin 64) (⟨(j 1).val, (j 1).isLt⟩ : Fin 2048))
    (c : Dev nD),
  ((dat1 (F := Ideal) V c).arrAt 6 cfg1.N : S64x2048x64.Idx → EReal)
    = fun j => AttnSpec.ctx (V c main_v0) (V c main_v1) (V c main_v2) (V c main_v3)
        (⟨(j 0).val, (j 0).isLt⟩ : Fin 64) (⟨(j 1).val, (j 1).isLt⟩ : Fin 2048) (⟨(j 2).val, (j 2).isLt⟩ : Fin 64))

include hR hA in
/-- The attention weights on the flattened arrays. -/
theorem out1_attn (c : Dev nD) : (W3 m c (Proc.devRef .tc main_v5_0) : S64x2048x2048.Idx → EReal)
    = fun j => AttnSpec.attn (AttnSpec.flat3 (xQ m c)) (AttnSpec.flat3 (xK m c)) (AttnSpec.flatM (xM m c))
        (⟨(j 0).val, (j 0).isLt⟩ : Fin 64) (⟨(j 1).val, (j 1).isLt⟩ : Fin 2048) (⟨(j 2).val, (j 2).isLt⟩ : Fin 2048) := by
  have h := (W3_arr m c 5).trans (hA (VV2 m) (hL2 m hR) c)
  rw [in1_v0 m c, in1_v1 m c, in1_v3 m c] at h
  exact h

include hR hC in
/-- The context on the flattened arrays. -/
theorem out1_ctx (c : Dev nD) : (W3 m c (Proc.devRef .tc main_v5_1) : S64x2048x64.Idx → EReal)
    = fun j => AttnSpec.ctx (AttnSpec.flat3 (xQ m c)) (AttnSpec.flat3 (xK m c)) (AttnSpec.flat3 (xV m c)) (AttnSpec.flatM (xM m c))
        (⟨(j 0).val, (j 0).isLt⟩ : Fin 64) (⟨(j 1).val, (j 1).isLt⟩ : Fin 2048) (⟨(j 2).val, (j 2).isLt⟩ : Fin 64) := by
  have h := (W3_arr m c 6).trans (hC (VV2 m) (hL2 m hR) c)
  rw [in1_v0 m c, in1_v1 m c, in1_v2 m c, in1_v3 m c] at h
  exact h

/-! ### The results: the closing reshapes of the main region's arrays -/

include hR hC in
/-- The first result is the context result of the arguments. -/
theorem kernel_v6 (c : Dev nD) :
    (W4 m c (Proc.devRef .tc main_v6) : S4x16x2048x64.Idx → EReal) = outCtx (xQ m c) (xK m c) (xV m c) (xM m c) := by
  funext i
  obtain ⟨b, h, q, d, rfl⟩ : ∃ (b : Fin 4) (h : Fin 16) (q : Fin 2048) (d : Fin 64), i = ix4 b h q d := ⟨_, _, _, _, eq_ix4 i⟩
  have e : (W3 m c (Proc.devRef .tc main_v5_1) : S64x2048x64.Idx → EReal) (ix3 (AttnSpec.bhOf b h) q d)
      = AttnSpec.ctx (AttnSpec.flat3 (xQ m c)) (AttnSpec.flat3 (xK m c)) (AttnSpec.flat3 (xV m c)) (AttnSpec.flatM (xM m c)) (AttnSpec.bhOf b h) q d :=
    congrFun (out1_ctx m hR hC c) (ix3 (AttnSpec.bhOf b h) q d)
  exact ((host2_v6 (W3 m c) b h q d).trans e).trans (outCtx_ix _ _ _ _ b h q d).symm

include hR hA in
/-- The second result is the attention weights of the arguments. -/
theorem kernel_v7 (c : Dev nD) :
    (W4 m c (Proc.devRef .tc main_v7) : S4x16x2048x2048.Idx → EReal) = outAttn (xQ m c) (xK m c) (xM m c) := by
  funext i
  obtain ⟨b, h, q, k, rfl⟩ : ∃ (b : Fin 4) (h : Fin 16) (q k : Fin 2048), i = ix4 b h q k := ⟨_, _, _, _, eq_ix4 i⟩
  have e : (W3 m c (Proc.devRef .tc main_v5_0) : S64x2048x2048.Idx → EReal) (ix3 (AttnSpec.bhOf b h) q k)
      = AttnSpec.attn (AttnSpec.flat3 (xQ m c)) (AttnSpec.flat3 (xK m c)) (AttnSpec.flatM (xM m c)) (AttnSpec.bhOf b h) q k :=
    congrFun (out1_attn m hR hA c) (ix3 (AttnSpec.bhOf b h) q k)
  exact ((host2_v7 (W3 m c) b h q k).trans e).trans (outAttn_ix _ _ _ b h q k).symm

/-! ### The kernel's run -/

include hR hA hC in
/-- The kernel runs, and ends with its two results at the specification's functions of its arguments, the
    arguments unchanged. -/
theorem kernel_run_of (g : Dev nD → PrngReg) :
    θ_run (defs (F := Ideal)) (onTc (τ := τ) (main (F := Ideal))) ⟨m, fun _ => 0, g⟩ (fun r => ∀ c : Dev nD,
      r.2.mem ((c.tc : Thread nD τ).loc main_v6) = outCtx (xQ m c) (xK m c) (xV m c) (xM m c)
      ∧ r.2.mem ((c.tc : Thread nD τ).loc main_v7) = outAttn (xQ m c) (xK m c) (xM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v6 (by decide))).trans (kernel_v6 m hR hC c),
     (h c _ (mem_uc main_v7 (by decide))).trans (kernel_v7 m hR hA c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c)⟩) (run_all m g)

end Kernel

/-! ## The claim -/

/-- Both programs run; the kernel's results are the reference's, index by index. -/
theorem algebraic_of
    (kernel_run : ∀ (m : (ℓ : Loc Cert.KernelIdeal.nD Cert.KernelIdeal.τ Cert.KernelIdeal.sig) → Buf (Elt Ideal) ℓ) (g : Dev Cert.KernelIdeal.nD → PrngReg),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6)
            = outCtx (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
          ∧ r.2.mem ((c.tc : Thread Cert.KernelIdeal.nD Cert.KernelIdeal.τ).loc Cert.KernelIdeal.main_v7)
            = outAttn (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg3))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))) :
    Cert.algebraic_KernelIdeal_ReferenceIdeal := by
  intro m g m' g' _ hagree
  refine ⟨_, _, kernel_run m g, ?_⟩
  refine (θ_run Cert.ReferenceIdeal.defs _ _).mono (fun _ h c => ?_) (ref_run m' g')
  obtain ⟨h12, h11, hargs⟩ := h c
  obtain ⟨e0, e1, e2, e3⟩ := hagree c
  rw [e0, e1, e2, e3] at h12
  rw [e0, e1, e3] at h11
  exact ⟨h12, h11, hargs⟩

/-- At the ideal values the kernel's context result and attention weights are the reference's, the arguments unchanged
    on both sides. -/
theorem algebraic : Cert.algebraic_KernelIdeal_ReferenceIdeal :=
  algebraic_of fun m g => kernel_run_of m
    (fun V c => Cert.KernelIdeal.Hand.rowsum_final V c)
    (fun V hL c => Cert.KernelIdeal.Hand.R1V.attn_final V hL c)
    (fun V hL c => Cert.KernelIdeal.Hand.R1C.ctx_final V hL c) g

end Cert.Proof.AttnClaims

end
-- ==== Proof.lean ====
/-
  Scaled dot-product attention with an unnormalised exponential and a multiplicative mask:
      attn = exp(Q·Kᵀ/8)·mask / (Σ_k exp(Q·Kᵀ/8)·mask + ε),   ctx = attn·V,
  computed by two kernels — a first pass that accumulates the row sums over four blocks of 512 keys, a second that
  forms each 512×512 block of attn and accumulates attn·V over the same four blocks — against the plain einsum form.
  Over the extended reals the two agree: 1/8 and ε are the same words on both sides, a change of float format is the
  identity, the block products into a zero accumulator are the contraction's partial sums, and a sum over 2048 keys
  is the sum of its four blocks' sums (addition is commutative and associative; no finiteness is used).
  The frames: each kernel region runs its body at the 1024 grid points under an invariant that carries the
  accumulator's contents from point to point; no item of either program writes an argument.
-/
import proofs.«136387_j50483045597399_1_alg».proof.Defs
import proofs.«136387_j50483045597399_1_alg».proof.Proof.Gen.Kernel
import proofs.«136387_j50483045597399_1_alg».proof.Proof.Gen.KernelIdeal
import proofs.«136387_j50483045597399_1_alg».proof.Proof.Gen.ReferenceIdeal
import proofs.«136387_j50483045597399_1_alg».proof.Proof.Gen.Pre_finite_inputs
import proofs.«136387_j50483045597399_1_alg».proof.Proof.Gen.ReferenceIdeal.Run
import proofs.«136387_j50483045597399_1_alg».proof.Proof.K.Main
import proofs.«136387_j50483045597399_1_alg».proof.Proof.KI.Main
import proofs.«136387_j50483045597399_1_alg».proof.Proof.Algebraic
import Idealize.ShloMosaic.Adequacy
import Idealize.ShloMosaic.Init

noncomputable section

namespace Cert.Proof

open Idealize.ShloMosaic Idealize.SL.Sem

/-- The word-level kernel's frame: the run over the four segments, read at the arguments. -/
theorem frame_k : Cert.frame_Kernel (hKernel := Cert.Kernel.Gen.facts) (hPre_finite_inputs := Cert.Pre_finite_inputs.Gen.facts) :=
  fun m ρ _ => Cert.Kernel.Hand.frame m ρ

/-- The idealized kernel's frame: the same run at the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame: its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.AttnClaims.algebraic⟩

end Cert.Proof

end
